-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x512 : Shape := ⟨3, ![64, 2048, 512]⟩
abbrev S512x512 : Shape := ⟨2, ![512, 512]⟩
abbrev S64x2048 : Shape := ⟨2, ![64, 2048]⟩
abbrev S_ : Shape := ⟨0, ![]⟩

class Facts : Prop where
  bcast_S_S64x2048x512 : S_.BroadcastsInDim S64x2048x512 (![] : Fin 0 → Fin S64x2048x512.rank)
  reducesTo_S64x2048x512_S_d0_1_2 : S64x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S64x2048 : S_.BroadcastsInDim S64x2048 (![] : Fin 0 → Fin S64x2048.rank)
  reducesTo_S64x2048_S_d0_1 : S64x2048.ReducesTo [0, 1] S_

variable [Facts]

def fn_part1 {F : FTy → Type} [FloatOps F] (main_arg3 : IVec S64x2048 32) (main_v15 : IVec S_ 1) (main_c_5 : IVec S_ 32) : IVec S_ 1 :=
  let main_v16 : IVec S64x2048 32 := broadcastInDim S64x2048 ![] bcast_S_S64x2048 main_c_5
  let main_v17 : IVec S64x2048 1 := cmpi .sge main_arg3 main_v16
  let main_c_6 : IVec S_ 32 := constantI S_ 32 512#32
  let main_v18 : IVec S64x2048 32 := broadcastInDim S64x2048 ![] bcast_S_S64x2048 main_c_6
  let main_v19 : IVec S64x2048 1 := cmpi .slt main_arg3 main_v18
  let main_v20 : IVec S64x2048 1 := andi main_v17 main_v19
  let main_c_7 : IVec S_ 1 := constantI S_ 1 1#1
  let main_v21 : IVec S_ 1 := (fun x v => Host.reduce IntOp.andi x v reducesTo_S64x2048_S_d0_1 h_S_) main_v20 main_c_7
  let main_v22 : IVec S_ 1 := andi main_v15 main_v21
  main_v22

def fn {F : FTy → Type} [FloatOps F] (main_arg0 : FVec F S64x2048x512 .f32) (main_arg1 : FVec F S512x512 .f32) (main_arg2 : IVec S64x2048 32) (main_arg3 : IVec S64x2048 32) (main_arg4 : IVec S64x2048 32) : IVec S_ 1 :=
  let main_v0 : FVec F S64x2048x512 .f32 := Host.absf main_arg0
  let main_cst : FVec F S_ .f32 := constant S_ .f32 0x7F800000#32
  let main_v1 : FVec F S64x2048x512 .f32 := broadcastInDim S64x2048x512 ![] bcast_S_S64x2048x512 main_cst
  let main_v2 : IVec S64x2048x512 1 := cmpf .olt main_v0 main_v1
  let main_c : IVec S_ 1 := constantI S_ 1 1#1
  let main_v3 : IVec S_ 1 := (fun x v => Host.reduce IntOp.andi x v reducesTo_S64x2048x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_c_2 : IVec S_ 32 := constantI S_ 32 0#32
  let main_v9 : IVec S64x2048 32 := broadcastInDim S64x2048 ![] bcast_S_S64x2048 main_c_2
  let main_v10 : IVec S64x2048 1 := cmpi .sge main_arg2 main_v9
  let main_c_3 : IVec S_ 32 := constantI S_ 32 512#32
  let main_v11 : IVec S64x2048 32 := broadcastInDim S64x2048 ![] bcast_S_S64x2048 main_c_3
  let main_v12 : IVec S64x2048 1 := cmpi .slt main_arg2 main_v11
  let main_v13 : IVec S64x2048 1 := andi main_v10 main_v12
  let main_c_4 : IVec S_ 1 := constantI S_ 1 1#1
  let main_v14 : IVec S_ 1 := (fun x v => Host.reduce IntOp.andi x v reducesTo_S64x2048_S_d0_1 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S64x2048x512 : Shape := ⟨3, ![64, 2048, 512]⟩
abbrev S512x512 : Shape := ⟨2, ![512, 512]⟩
abbrev S64x2048 : Shape := ⟨2, ![64, 2048]⟩
abbrev S_ : Shape := ⟨0, ![]⟩
abbrev S64x1 : Shape := ⟨2, ![64, 1]⟩
abbrev S16x128x512 : Shape := ⟨3, ![16, 128, 512]⟩
abbrev S16x128 : Shape := ⟨2, ![16, 128]⟩
abbrev S16x1 : Shape := ⟨2, ![16, 1]⟩
abbrev S16x128x1 : Shape := ⟨3, ![16, 128, 1]⟩
abbrev S16 : Shape := ⟨1, ![16]⟩
abbrev S64 : Shape := ⟨1, ![64]⟩
abbrev S64x2047 : Shape := ⟨2, ![64, 2047]⟩
abbrev S2048x512 : Shape := ⟨2, ![2048, 512]⟩

abbrev nBuf : Space → Nat
  | .hbm => 48
  | .vmem => 19
  | .smem => 0
  | _ => 0

abbrev bufTy : (tb : Table) → Fin (tcTables nBuf tb) → BufTy
  | .hbm, ⟨0, _⟩ => ⟨S64x2048x512, .f32⟩
  | .hbm, ⟨1, _⟩ => ⟨S512x512, .f32⟩
  | .hbm, ⟨2, _⟩ => ⟨S64x2048, .i32⟩
  | .hbm, ⟨3, _⟩ => ⟨S64x2048, .i32⟩
  | .hbm, ⟨4, _⟩ => ⟨S64x2048, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S64x2048, .i32⟩
  | .hbm, ⟨9, _⟩ => ⟨S64x2048, .i32⟩
  | .hbm, ⟨10, _⟩ => ⟨S_, .i32⟩
  | .hbm, ⟨11, _⟩ => ⟨S64x2048, .i32⟩
  | .hbm, ⟨12, _⟩ => ⟨S64x2048, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S64x2048, .i32⟩
  | .hbm, ⟨17, _⟩ => ⟨S64x2048, .i32⟩
  | .hbm, ⟨18, _⟩ => ⟨S_, .i32⟩
  | .hbm, ⟨19, _⟩ => ⟨S64x2048, .i32⟩
  | .hbm, ⟨20, _⟩ => ⟨S64x2048, .i32⟩
  | .hbm, ⟨21, _⟩ => ⟨S64x1, .f32⟩
  | .hbm, ⟨22, _⟩ => ⟨S64, .f32⟩
  | .hbm, ⟨23, _⟩ => ⟨S64x2047, .i32⟩
  | .hbm, ⟨24, _⟩ => ⟨S64x2047, .i32⟩
  | .hbm, ⟨25, _⟩ => ⟨S_, .i32⟩
  | .hbm, ⟨26, _⟩ => ⟨S_, .i32⟩
  | .hbm, ⟨27, _⟩ => ⟨S64x2048, .i32⟩
  | .hbm, ⟨28, _⟩ => ⟨S_, .i32⟩
  | .hbm, ⟨29, _⟩ => ⟨S_, .i32⟩
  | .hbm, ⟨30, _⟩ => ⟨S64x2048, .i32⟩
  | .hbm, ⟨31, _⟩ => ⟨S64x2047, .i32⟩
  | .hbm, ⟨32, _⟩ => ⟨S64x2047, .i32⟩
  | .hbm, ⟨33, _⟩ => ⟨S_, .i32⟩
  | .hbm, ⟨34, _⟩ => ⟨S_, .i32⟩
  | .hbm, ⟨35, _⟩ => ⟨S64x2048, .i32⟩
  | .hbm, ⟨36, _⟩ => ⟨S_, .i32⟩
  | .hbm, ⟨37, _⟩ => ⟨S_, .i32⟩
  | .hbm, ⟨38, _⟩ => ⟨S64x2048, .i32⟩
  | .hbm, ⟨39, _⟩ => ⟨S512x512, .bf16⟩
  | .hbm, ⟨40, _⟩ => ⟨S64x1, .f32⟩
  | .hbm, ⟨41, _⟩ => ⟨S64, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S_, .f32⟩
  | .local _ .vmem, ⟨0, _⟩ => ⟨S16x128x512, .f32⟩
  | .local _ .vmem, ⟨1, _⟩ => ⟨S16x128x512, .f32⟩
  | .local _ .vmem, ⟨2, _⟩ => ⟨S16x128, .i32⟩
  | .local _ .vmem, ⟨3, _⟩ => ⟨S16x128, .i32⟩
  | .local _ .vmem, ⟨4, _⟩ => ⟨S16x128, .i32⟩
  | .local _ .vmem, ⟨5, _⟩ => ⟨S16x128, .i32⟩
  | .local _ .vmem, ⟨6, _⟩ => ⟨S16x1, .f32⟩
  | .local _ .vmem, ⟨7, _⟩ => ⟨S16x1, .f32⟩
  | .local _ .vmem, ⟨8, _⟩ => ⟨S512x512, .bf16⟩
  | .local _ .vmem, ⟨9, _⟩ => ⟨S16x128, .i32⟩
  | .local _ .vmem, ⟨10, _⟩ => ⟨S16x128, .i32⟩
  | .local _ .vmem, ⟨11, _⟩ => ⟨S16x128, .i32⟩
  | .local _ .vmem, ⟨12, _⟩ => ⟨S16x128, .i32⟩
  | .local _ .vmem, ⟨13, _⟩ => ⟨S16x128, .i32⟩
  | .local _ .vmem, ⟨14, _⟩ => ⟨S16x128, .i32⟩
  | .local _ .vmem, ⟨15, _⟩ => ⟨S16x128, .i32⟩
  | .local _ .vmem, ⟨16, _⟩ => ⟨S16x128, .i32⟩
  | .local _ .vmem, ⟨17, _⟩ => ⟨S16x1, .f32⟩
  | .local _ .vmem, ⟨18, _⟩ => ⟨S16x1, .f32⟩
  | _, _ => ⟨S64x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_c_1 : Ref sig .tc := ⟨.hbm, 13, rfl⟩
abbrev main_c_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c_3 : Ref sig .tc := ⟨.hbm, 25, rfl⟩
abbrev main_call2_v0 : Ref sig .tc := ⟨.hbm, 26, rfl⟩
abbrev main_v6 : Ref sig .tc := ⟨.hbm, 27, rfl⟩
abbrev main_c_4 : Ref sig .tc := ⟨.hbm, 28, rfl⟩
abbrev main_call3_v0 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_c_5 : Ref sig .tc := ⟨.hbm, 33, rfl⟩
abbrev main_call4_v0 : Ref sig .tc := ⟨.hbm, 34, rfl⟩
abbrev main_v10 : Ref sig .tc := ⟨.hbm, 35, rfl⟩
abbrev main_c_6 : Ref sig .tc := ⟨.hbm, 36, rfl⟩
abbrev main_call5_v0 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst : Ref sig .tc := ⟨.hbm, 43, rfl⟩
abbrev main_v16 : Ref sig .tc := ⟨.hbm, 44, rfl⟩
abbrev main_v17 : Ref sig .tc := ⟨.hbm, 45, rfl⟩
abbrev main_cst_7 : Ref sig .tc := ⟨.hbm, 46, rfl⟩
abbrev main_v18 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S512x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S16x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S16x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S16x128 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S16x128 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S16x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bcast_S_S64x2048 : S_.BroadcastsInDim S64x2048 (![] : Fin 0 → Fin S64x2048.rank)
  inb_S16x1_S16x1_0_0 : ∀ a, (![0, 0] : Fin 2 → Nat) a + S16x1.size a ≤ S16x1.size a
  h_S16x1 : 0 < S16x1.numel
  inb_S16x128x512_S16x128x512_0_0_0 : ∀ a, (![0, 0, 0] : Fin 3 → Nat) a + S16x128x512.size a ≤ S16x128x512.size a
  h_S16x128x512 : 0 < S16x128x512.numel
  inb_S16x128_S16x128_0_0 : ∀ a, (![0, 0] : Fin 2 → Nat) a + S16x128.size a ≤ S16x128.size a
  h_S16x128 : 0 < S16x128.numel
  shapeCasts_S16x128_S16x128 : S16x128.ShapeCasts S16x128
  iota_S16x128x512_d2_w32 : S16x128x512.Iotas .tc 32 [2]
  shapeCasts_S16x128_S16x128x1 : S16x128.ShapeCasts S16x128x1
  broadcasts_S16x128x1_S16x128x512 : S16x128x1.Broadcasts S16x128x512
  reduces_S16x128x512_S16x128 : S16x128x512.Reduces [2] S16x128
  shapeCasts_S16x1_S16x1 : S16x1.ShapeCasts S16x1
  reduces_S16x128_S16 : S16x128.Reduces [1] S16
  shapeCasts_S16_S16x1 : S16.ShapeCasts S16x1
  shapeCasts_S64x1_S64 : S64x1.ShapeCasts S64
  slices_S64x2048_S64x2047_0_0 : S64x2048.Slices ![0, 0] S64x2047
  slices_S64x2048_S64x2047_0_1 : S64x2048.Slices ![0, 1] S64x2047
  pads_S64x2047_S64x2048_000_010 : S64x2047.Pads (![0, 0] : Fin 2 → Nat) ![0, 1] ![0, 0] S64x2048
  h_S_ : 0 < S_.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  natLt_1_32 : 1 < 32
  shapeCasts_S16x128x512_S2048x512 : S16x128x512.ShapeCasts S2048x512
  shapeCasts_S2048x512_S16x128x512 : S2048x512.ShapeCasts S16x128x512
  bcast_S_S64 : S_.BroadcastsInDim S64 (![] : Fin 0 → Fin S64.rank)
  reducesTo_S64_S_d0 : S64.ReducesTo [0] S_
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128x512.size a ≤ S64x2048x512.size a
  hwx0_0 : ∀ i : grid0.Coords, EltTy.bits .f32 = 32 ∨ (Rect.block (s := S64x2048x512) S16x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S64x2048.size a
  hwx0_1 : ∀ i : grid0.Coords, EltTy.bits .i32 = 32 ∨ (Rect.block (s := S64x2048) S16x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S64x2048.size a
  hwx0_2 : ∀ i : grid0.Coords, EltTy.bits .i32 = 32 ∨ (Rect.block (s := S64x2048) S16x128.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1.size a ≤ S64x1.size a
  hwx0_3 : ∀ i : grid0.Coords, EltTy.bits .f32 = 32 ∨ (Rect.block (s := S64x1) S16x1.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S512x512.size a
  hwx1_0 : ∀ i : grid1.Coords, EltTy.bits .bf16 = 32 ∨ (Rect.block (s := S512x512) S512x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S64x2048.size a
  hwx1_1 : ∀ i : grid1.Coords, EltTy.bits .i32 = 32 ∨ (Rect.block (s := S64x2048) S16x128.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x128.size a ≤ S64x2048.size a
  hwx1_2 : ∀ i : grid1.Coords, EltTy.bits .i32 = 32 ∨ (Rect.block (s := S64x2048) S16x128.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x128.size a ≤ S64x2048.size a
  hwx1_3 : ∀ i : grid1.Coords, EltTy.bits .i32 = 32 ∨ (Rect.block (s := S64x2048) S16x128.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S16x128.size a ≤ S64x2048.size a
  hwx1_4 : ∀ i : grid1.Coords, EltTy.bits .i32 = 32 ∨ (Rect.block (s := S64x2048) S16x128.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S16x1.size a ≤ S64x1.size a
  hwx1_5 : ∀ i : grid1.Coords, EltTy.bits .f32 = 32 ∨ (Rect.block (s := S64x1) S16x1.size (cc1_transform_5 i) (hinb1_5 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S16x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S16x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v12) S512x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v6) S16x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S16x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S16x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v11) S16x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v13) S16x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S64x2048x512 : Shape := ⟨3, ![64, 2048, 512]⟩
abbrev S512x512 : Shape := ⟨2, ![512, 512]⟩
abbrev S64x2048 : Shape := ⟨2, ![64, 2048]⟩
abbrev S64x2048x1 : Shape := ⟨3, ![64, 2048, 1]⟩
abbrev S_ : Shape := ⟨0, ![]⟩
abbrev S64x2048x1x1 : Shape := ⟨4, ![64, 2048, 1, 1]⟩
abbrev S1 : Shape := ⟨1, ![1]⟩
abbrev S1x1x1x1 : Shape := ⟨4, ![1, 1, 1, 1]⟩
abbrev S64x2047 : Shape := ⟨2, ![64, 2047]⟩
abbrev S64x2047x1 : Shape := ⟨3, ![64, 2047, 1]⟩
abbrev S64x2047x2 : Shape := ⟨3, ![64, 2047, 2]⟩
abbrev S64 : Shape := ⟨1, ![64]⟩

abbrev nBuf : Space → Nat
  | .hbm => 109
  | .vmem => 0
  | .smem => 0
  | _ => 0

abbrev bufTy : (tb : Table) → Fin (tcTables nBuf tb) → BufTy
  | .hbm, ⟨0, _⟩ => ⟨S64x2048x512, .f32⟩
  | .hbm, ⟨1, _⟩ => ⟨S512x512, .f32⟩
  | .hbm, ⟨2, _⟩ => ⟨S64x2048, .i32⟩
  | .hbm, ⟨3, _⟩ => ⟨S64x2048, .i32⟩
  | .hbm, ⟨4, _⟩ => ⟨S64x2048, .i32⟩
  | .hbm, ⟨5, _⟩ => ⟨S64x2048x1, .i32⟩
  | .hbm, ⟨6, _⟩ => ⟨S_, .i32⟩
  | .hbm, ⟨7, _⟩ => ⟨S64x2048x1, .i32⟩
  | .hbm, ⟨8, _⟩ => ⟨S64x2048x1, .i1⟩
  | .hbm, ⟨9, _⟩ => ⟨S_, .i32⟩
  | .hbm, ⟨10, _⟩ => ⟨S64x2048x1, .i32⟩
  | .hbm, ⟨11, _⟩ => ⟨S64x2048x1, .i32⟩
  | .hbm, ⟨12, _⟩ => ⟨S64x2048x1, .i32⟩
  | .hbm, ⟨13, _⟩ => ⟨S64x2048x1x1, .i32⟩
  | .hbm, ⟨14, _⟩ => ⟨S1, .i32⟩
  | .hbm, ⟨15, _⟩ => ⟨S_, .i32⟩
  | .hbm, ⟨16, _⟩ => ⟨S64x2048x1x1, .i32⟩
  | .hbm, ⟨17, _⟩ => ⟨S64x2048x1x1, .i1⟩
  | .hbm, ⟨18, _⟩ => ⟨S1x1x1x1, .i32⟩
  | .hbm, ⟨19, _⟩ => ⟨S64x2048x1x1, .i32⟩
  | .hbm, ⟨20, _⟩ => ⟨S64x2048x1x1, .i1⟩
  | .hbm, ⟨21, _⟩ => ⟨S64x2048x1x1, .i1⟩
  | .hbm, ⟨22, _⟩ => ⟨S_, .i1⟩
  | .hbm, ⟨23, _⟩ => ⟨S64x2048x1, .i1⟩
  | .hbm, ⟨24, _⟩ => ⟨S64x2048x1, .f32⟩
  | .hbm, ⟨25, _⟩ => ⟨S_, .f32⟩
  | .hbm, ⟨26, _⟩ => ⟨S64x2048x1, .f32⟩
  | .hbm, ⟨27, _⟩ => ⟨S64x2048x1, .f32⟩
  | .hbm, ⟨28, _⟩ => ⟨S64x2048, .f32⟩
  | .hbm, ⟨29, _⟩ => ⟨S64x2047, .i32⟩
  | .hbm, ⟨30, _⟩ => ⟨S64x2047, .i32⟩
  | .hbm, ⟨31, _⟩ => ⟨S_, .i32⟩
  | .hbm, ⟨32, _⟩ => ⟨S64x2047, .i32⟩
  | .hbm, ⟨33, _⟩ => ⟨S64x2047, .i1⟩
  | .hbm, ⟨34, _⟩ => ⟨S_, .i32⟩
  | .hbm, ⟨35, _⟩ => ⟨S64x2047, .i32⟩
  | .hbm, ⟨36, _⟩ => ⟨S64x2047, .i32⟩
  | .hbm, ⟨37, _⟩ => ⟨S64x2047, .i32⟩
  | .hbm, ⟨38, _⟩ => ⟨S_, .i32⟩
  | .hbm, ⟨39, _⟩ => ⟨S64x2047, .i32⟩
  | .hbm, ⟨40, _⟩ => ⟨S64x2047, .i1⟩
  | .hbm, ⟨41, _⟩ => ⟨S_, .i32⟩
  | .hbm, ⟨42, _⟩ => ⟨S64x2047, .i32⟩
  | .hbm, ⟨43, _⟩ => ⟨S64x2047, .i32⟩
  | .hbm, ⟨44, _⟩ => ⟨S64x2047, .i32⟩
  | .hbm, ⟨45, _⟩ => ⟨S64x2047x1, .i32⟩
  | .hbm, ⟨46, _⟩ => ⟨S64x2047x1, .i32⟩
  | .hbm, ⟨47, _⟩ => ⟨S64x2047x2, .i32⟩
  | .hbm, ⟨48, _⟩ => ⟨S64x2047, .f32⟩
  | .hbm, ⟨49, _⟩ => ⟨S_, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S64x2048x1, .i32⟩
  | .hbm, ⟨55, _⟩ => ⟨S_, .i32⟩
  | .hbm, ⟨56, _⟩ => ⟨S64x2048x1, .i32⟩
  | .hbm, ⟨57, _⟩ => ⟨S64x2048x1, .i1⟩
  | .hbm, ⟨58, _⟩ => ⟨S_, .i32⟩
  | .hbm, ⟨59, _⟩ => ⟨S64x2048x1, .i32⟩
  | .hbm, ⟨60, _⟩ => ⟨S64x2048x1, .i32⟩
  | .hbm, ⟨61, _⟩ => ⟨S64x2048x1, .i32⟩
  | .hbm, ⟨62, _⟩ => ⟨S64x2048x1x1, .i32⟩
  | .hbm, ⟨63, _⟩ => ⟨S1, .i32⟩
  | .hbm, ⟨64, _⟩ => ⟨S_, .i32⟩
  | .hbm, ⟨65, _⟩ => ⟨S64x2048x1x1, .i32⟩
  | .hbm, ⟨66, _⟩ => ⟨S64x2048x1x1, .i1⟩
  | .hbm, ⟨67, _⟩ => ⟨S1x1x1x1, .i32⟩
  | .hbm, ⟨68, _⟩ => ⟨S64x2048x1x1, .i32⟩
  | .hbm, ⟨69, _⟩ => ⟨S64x2048x1x1, .i1⟩
  | .hbm, ⟨70, _⟩ => ⟨S64x2048x1x1, .i1⟩
  | .hbm, ⟨71, _⟩ => ⟨S_, .i1⟩
  | .hbm, ⟨72, _⟩ => ⟨S64x2048x1, .i1⟩
  | .hbm, ⟨73, _⟩ => ⟨S64x2048x1, .f32⟩
  | .hbm, ⟨74, _⟩ => ⟨S_, .f32⟩
  | .hbm, ⟨75, _⟩ => ⟨S64x2048x1, .f32⟩
  | .hbm, ⟨76, _⟩ => ⟨S64x2048x1, .f32⟩
  | .hbm, ⟨77, _⟩ => ⟨S64x2048, .f32⟩
  | .hbm, ⟨78, _⟩ => ⟨S64x2047, .i32⟩
  | .hbm, ⟨79, _⟩ => ⟨S64x2047, .i32⟩
  | .hbm, ⟨80, _⟩ => ⟨S_, .i32⟩
  | .hbm, ⟨81, _⟩ => ⟨S64x2047, .i32⟩
  | .hbm, ⟨82, _⟩ => ⟨S64x2047, .i1⟩
  | .hbm, ⟨83, _⟩ => ⟨S_, .i32⟩
  | .hbm, ⟨84, _⟩ => ⟨S64x2047, .i32⟩
  | .hbm, ⟨85, _⟩ => ⟨S64x2047, .i32⟩
  | .hbm, ⟨86, _⟩ => ⟨S64x2047, .i32⟩
  | .hbm, ⟨87, _⟩ => ⟨S_, .i32⟩
  | .hbm, ⟨88, _⟩ => ⟨S64x2047, .i32⟩
  | .hbm, ⟨89, _⟩ => ⟨S64x2047, .i1⟩
  | .hbm, ⟨90, _⟩ => ⟨S_, .i32⟩
  | .hbm, ⟨91, _⟩ => ⟨S64x2047, .i32⟩
  | .hbm, ⟨92, _⟩ => ⟨S64x2047, .i32⟩
  | .hbm, ⟨93, _⟩ => ⟨S64x2047, .i32⟩
  | .hbm, ⟨94, _⟩ => ⟨S64x2047x1, .i32⟩
  | .hbm, ⟨95, _⟩ => ⟨S64x2047x1, .i32⟩
  | .hbm, ⟨96, _⟩ => ⟨S64x2047x2, .i32⟩
  | .hbm, ⟨97, _⟩ => ⟨S64x2047, .f32⟩
  | .hbm, ⟨98, _⟩ => ⟨S_, .f32⟩
  | .hbm, ⟨99, _⟩ => ⟨S64, .f32⟩
  | .hbm, ⟨100, _⟩ => ⟨S_, .f32⟩
  | .hbm, ⟨101, _⟩ => ⟨S64, .f32⟩
  | .hbm, ⟨102, _⟩ => ⟨S64, .f32⟩
  | .hbm, ⟨103, _⟩ => ⟨S64, .f32⟩
  | .hbm, ⟨104, _⟩ => ⟨S_, .f32⟩
  | .hbm, ⟨105, _⟩ => ⟨S64, .f32⟩
  | .hbm, ⟨106, _⟩ => ⟨S64, .f32⟩
  | .hbm, ⟨107, _⟩ => ⟨S_, .f32⟩
  | .hbm, ⟨108, _⟩ => ⟨S_, .f32⟩
  | _, _ => ⟨S64x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_c : Ref sig .tc := ⟨.hbm, 31, rfl⟩
abbrev main_v5 : Ref sig .tc := ⟨.hbm, 32, rfl⟩
abbrev main_v6 : Ref sig .tc := ⟨.hbm, 33, rfl⟩
abbrev main_c_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_c_1 : Ref sig .tc := ⟨.hbm, 38, rfl⟩
abbrev main_v10 : Ref sig .tc := ⟨.hbm, 39, rfl⟩
abbrev main_v11 : Ref sig .tc := ⟨.hbm, 40, rfl⟩
abbrev main_c_2 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst : Ref sig .tc := ⟨.hbm, 49, rfl⟩
abbrev main_v19 : Ref sig .tc := ⟨.hbm, 50, rfl⟩
abbrev main_cst_3 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_cst : Ref sig .tc := ⟨.hbm, 74, rfl⟩
abbrev main_call1_v14 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_c_4 : Ref sig .tc := ⟨.hbm, 80, rfl⟩
abbrev main_v27 : Ref sig .tc := ⟨.hbm, 81, rfl⟩
abbrev main_v28 : Ref sig .tc := ⟨.hbm, 82, rfl⟩
abbrev main_c_5 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_c_6 : Ref sig .tc := ⟨.hbm, 87, rfl⟩
abbrev main_v32 : Ref sig .tc := ⟨.hbm, 88, rfl⟩
abbrev main_v33 : Ref sig .tc := ⟨.hbm, 89, rfl⟩
abbrev main_c_7 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_cst_8 : Ref sig .tc := ⟨.hbm, 98, rfl⟩
abbrev main_v41 : Ref sig .tc := ⟨.hbm, 99, rfl⟩
abbrev main_cst_9 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_cst_10 : Ref sig .tc := ⟨.hbm, 104, rfl⟩
abbrev main_v45 : Ref sig .tc := ⟨.hbm, 105, rfl⟩
abbrev main_v46 : Ref sig .tc := ⟨.hbm, 106, rfl⟩
abbrev main_cst_11 : Ref sig .tc := ⟨.hbm, 107, rfl⟩
abbrev main_v47 : Ref sig .tc := ⟨.hbm, 108, rfl⟩

abbrev nD : Nat := 1
abbrev τ : Topo := Topo.v7x

variable {F : FTy → Type} [FloatOps F]

class Facts₀ : Prop where
  bcast_S64x2048_S64x2048x1_0_1 : S64x2048.BroadcastsInDim S64x2048x1 (![0, 1] : Fin 2 → Fin S64x2048x1.rank)
  bcast_S_S64x2048x1 : S_.BroadcastsInDim S64x2048x1 (![] : Fin 0 → Fin S64x2048x1.rank)
  shapeCasts_S64x2048x1_S64x2048x1x1 : S64x2048x1.ShapeCasts S64x2048x1x1
  bcast_S_S64x2048x1x1 : S_.BroadcastsInDim S64x2048x1x1 (![] : Fin 0 → Fin S64x2048x1x1.rank)
  bcast_S1_S1x1x1x1_3 : S1.BroadcastsInDim S1x1x1x1 (![3] : Fin 1 → Fin S1x1x1x1.rank)
  bcast_S1x1x1x1_S64x2048x1x1_0_1_2_3 : S1x1x1x1.BroadcastsInDim S64x2048x1x1 (![0, 1, 2, 3] : Fin 4 → Fin S64x2048x1x1.rank)
  reducesTo_S64x2048x1x1_S64x2048x1_d3 : S64x2048x1x1.ReducesTo [3] S64x2048x1
  h_S_ : 0 < S_.numel
  shapeCasts_S64x2048x1_S64x2048 : S64x2048x1.ShapeCasts S64x2048
  slices_S64x2048_S64x2047_0_0 : S64x2048.Slices ![0, 0] S64x2047
  slices_S64x2048_S64x2047_0_1 : S64x2048.Slices ![0, 1] S64x2047
  bcast_S_S64x2047 : S_.BroadcastsInDim S64x2047 (![] : Fin 0 → Fin S64x2047.rank)
  bcast_S64x2047_S64x2047x1_0_1 : S64x2047.BroadcastsInDim S64x2047x1 (![0, 1] : Fin 2 → Fin S64x2047x1.rank)
  concatenates_S64x2047x1_S64x2047x1_S64x2047x2_d2 : Shape.Concatenates [S64x2047x1, S64x2047x1] S64x2047x2 2
  reducesTo_S64x2048_S64_d1 : S64x2048.ReducesTo [1] S64
  reducesTo_S64x2047_S64_d1 : S64x2047.ReducesTo [1] S64
  bcast_S_S64 : S_.BroadcastsInDim S64 (![] : Fin 0 → Fin S64.rank)
  reducesTo_S64_S_d0 : S64.ReducesTo [0] S_
  gather_S64x2048x512_S64x2048x1x1_S64x2048x1_n_2_01_01_2_3_111_wf : GatherDims.WF S64x2048x512 S64x2048x1x1 S64x2048x1 [] [2] [0, 1] [2] [0, 1] 3 ![1, 1, 1]
  gather_S512x512_S64x2047x2_S64x2047_n_01_n_n_01_2_11_wf : GatherDims.WF S512x512 S64x2047x2 S64x2047 [] [0, 1] [] [0, 1] [] 2 ![1, 1]

variable [Facts₀]

def gather_S64x2048x512_S64x2048x1x1_S64x2048x1_n_2_01_01_2_3_111 : GatherDims S64x2048x512 S64x2048x1x1 S64x2048x1 where
  offsetDims := []
  collapsedSliceDims := [2]
  operandBatchingDims := [0, 1]
  startIndicesBatchingDims := [0, 1]
  startIndexMap := [2]
  indexVectorDim := 3
  sliceSizes := ![1, 1, 1]
  wf := gather_S64x2048x512_S64x2048x1x1_S64x2048x1_n_2_01_01_2_3_111_wf
def gather_S512x512_S64x2047x2_S64x2047_n_01_n_n_01_2_11 : GatherDims S512x512 S64x2047x2 S64x2047 where
  offsetDims := []
  collapsedSliceDims := [0, 1]
  operandBatchingDims := []
  startIndicesBatchingDims := []
  startIndexMap := [0, 1]
  indexVectorDim := 2
  sliceSizes := ![1, 1]
  wf := gather_S512x512_S64x2047x2_S64x2047_n_01_n_n_01_2_11_wf

class Facts : Prop extends Facts₀ where

variable [Facts]
-- ==== Proof.Spec.lean ====
/-
  The mathematics of the structured-perceptron margin loss, stated once over the extended reals.

  A tag is a 32-bit word. Along the 512 tag lanes the kernel picks an entry by comparing every lane's number with
  the tag and summing what survives; the reference indexes. `diffU` is one position's predicted-minus-gold pick of
  the unary potentials, written as the kernel computes it (the difference taken lane by lane, then summed);
  `pickB` is one position's pick of a transition potential by a one-hot row product followed by a lane compare.
  `UD` and `TD` sum these over the 2048 positions of a batch row, cut as 16 blocks of 128; `RScore` is the
  reference's score of a tag sequence, `KSpec` and `RSpec` the two programs' losses.
-/
import Idealize.ShloMosaic.PureOps.Ideal
import Idealize.ShloMosaic.Lib.ValueIdx

noncomputable section

namespace Cert.Spec

open Idealize.ShloMosaic Idealize.ShloMosaic.ValueIdx

/-- Unary potentials [batch, position, tag]. -/
abbrev SU : Shape := ⟨3, ![64, 2048, 512]⟩
/-- Transition potentials [previous tag, next tag]. -/
abbrev SB : Shape := ⟨2, ![512, 512]⟩
/-- Tags [batch, position]. -/
abbrev ST : Shape := ⟨2, ![64, 2048]⟩

/-- Position `128 j + s` of the sequence axis: offset `s` inside block `j`. -/
def pos (j : Fin 16) (s : Fin 128) : Fin 2048 := ⟨128 * j.val + s.val, by omega⟩

/-- Lane `t` of a row `f`, kept where the lane's number is the word `k`, else zero. -/
def selU (k : BitVec 32) (f : Fin 512 → EReal) (t : Fin 512) : EReal := if BitVec.ofNat 32 t.val = k then f t else 0

/-- Predicted-minus-gold pick of a row of unary potentials: the lane-by-lane difference of the two selections, summed. -/
def diffU (p g : BitVec 32) (f : Fin 512 → EReal) : EReal := ∑ t : Fin 512, (selU p f t - selU g f t)

/-- Lane `t` of the one-hot row of the word `k`. -/
def oneHot (k : BitVec 32) (t : Fin 512) : EReal := if BitVec.ofNat 32 t.val = k then 1 else 0

/-- The transition potential picked by a one-hot row product (previous tag `p`) and a lane compare (next tag `n`). -/
def pickB (p n : BitVec 32) (bin : SB.Idx → EReal) : EReal :=
  ∑ j : Fin 512, if BitVec.ofNat 32 j.val = n then (∑ k : Fin 512, oneHot p k * bin (ix2 k j)) else 0

/-- Batch row `b`'s unary difference, block by block. -/
def UD (u : SU.Idx → EReal) (tg pt : ST.Idx → BitVec 32) (b : Fin 64) : EReal :=
  ∑ j : Fin 16, ∑ s : Fin 128,
    diffU (pt (ix2 b (pos j s))) (tg (ix2 b (pos j s))) (fun t => u (ix3 b (pos j s) t))

/-- Batch row `b`'s transition difference, block by block, from the four padded previous/next tag arrays. -/
def TD (bin : SB.Idx → EReal) (pg ng pp np : ST.Idx → BitVec 32) (b : Fin 64) : EReal :=
  ∑ j : Fin 16, ∑ s : Fin 128,
    (pickB (pp (ix2 b (pos j s))) (np (ix2 b (pos j s))) bin - pickB (pg (ix2 b (pos j s))) (ng (ix2 b (pos j s))) bin)

/-- The kernel's loss from its two per-row differences. -/
def KSpec (u : SU.Idx → EReal) (bin : SB.Idx → EReal) (tg pt pg ng pp np : ST.Idx → BitVec 32) : EReal :=
  ∑ b : Fin 64, max (UD u tg pt b + TD bin pg ng pp np b) 0

/-- A tag word as a lane number (tags in range are their own value). -/
def tagIx (w : BitVec 32) : Fin 512 := ⟨w.toNat % 512, Nat.mod_lt _ (by norm_num)⟩

/-- The reference's score of batch row `b` under the tag sequence `tg`: unary picks plus transition picks. -/
def RScore (u : SU.Idx → EReal) (bin : SB.Idx → EReal) (tg : ST.Idx → BitVec 32) (b : Fin 64) : EReal :=
  (∑ s : Fin 2048, u (ix3 b s (tagIx (tg (ix2 b s)))))
    + ∑ s : Fin 2047, bin (ix2 (tagIx (tg (ix2 b s.castSucc))) (tagIx (tg (ix2 b s.succ))))

/-- The reference's loss. -/
def RSpec (u : SU.Idx → EReal) (bin : SB.Idx → EReal) (tg pt : ST.Idx → BitVec 32) : EReal :=
  ∑ b : Fin 64, max (RScore u bin pt b - RScore u bin tg b) 0

/-- A tag word lies in the label range. -/
def InRange (tg : ST.Idx → BitVec 32) : Prop := ∀ i, 0 ≤ (tg i).toInt ∧ (tg i).toInt < 512

/-- `pv` is `tg` shifted to "previous tag of a transition": position `s < 2047` holds `tg s`, the pad position `-1`. -/
def IsPrev (tg pv : ST.Idx → BitVec 32) : Prop :=
  ∀ (b : Fin 64) (s : Fin 2048), pv (ix2 b s) = if s.val < 2047 then tg (ix2 b s) else 0xFFFFFFFF#32

/-- `nx` is "next tag of a transition": position `s < 2047` holds `tg (s + 1)`, the pad position `-1`. -/
def IsNext (tg nx : ST.Idx → BitVec 32) : Prop :=
  ∀ (b : Fin 64) (s : Fin 2048), nx (ix2 b s) = if h : s.val < 2047 then tg (ix2 b ⟨s.val + 1, by omega⟩) else 0xFFFFFFFF#32

end Cert.Spec

end
-- ==== Proof.HostGlue.lean ====
/-
  The host operations around the two pallas_calls, read as values.

  Before the first call the two tag arrays are clipped into [0, 511] (a signed maximum with 0, then a signed minimum
  with 511): on a tag in the label range the identity. Between the calls the first call's [64,1] result is recast to
  [64], each clipped tag array is sliced to its first and to its last 2047 positions and padded with -1 at position
  2047 (the previous and the next tag of each of the 2047 transitions, and one pad position that matches no lane),
  and the transition table is narrowed to bf16. After the second call its result is recast, the two [64] vectors are
  added, clamped below by zero and summed. Each buffer is followed through the stretches of host operations: a stretch
  leaves a buffer it does not write as it was, and at a buffer it writes holds the operation's value of its operands.
-/
import proofs.«407784_j37417755083582_3_alg».proof.Proof.Gen.KernelIdeal.Frame
import proofs.«407784_j37417755083582_3_alg».proof.Proof.Spec
import Idealize.ShloMosaic.Lib.StableHlo.Run
import Idealize.ShloMosaic.Lib.ValueIdx
import Idealize.ShloMosaic.PureOps.Ideal.Laws
import Idealize.ShloMosaic.Lib.KernelVsHost
import Idealize.ShloMosaic.Lib.Pipeline.Value

noncomputable section

namespace Cert.KernelIdeal.Glue

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ) (ρ : Dev nD → PrngReg)

/-- A stretch of host operations leaves a buffer none of them writes as it was. -/
local macro "not_written" : tactic =>
  `(tactic| (refine StableHlo.after_of_forall_not_mem _ _ (List.forall_iff_forall_mem.mp ?_)
             simp only [hostOps0, hostOps0_1, hostOps0_2, hostOps0_3, hostOps1, hostOps1_1, hostOps1_2, hostOps1_3, hostOps1_4,
               hostOps1_5, hostOps1_6, hostOps1_7, hostOps1_8, hostOps2, List.Forall, StableHlo.nullary_writes,
               StableHlo.unary_writes, StableHlo.binary_writes, StableHlo.ternary_writes, StableHlo.quaternary_writes,
               StableHlo.reshape_writes, StableHlo.binaryIndexed_writes, Finset.mem_singleton]
             repeat' apply And.intro
             all_goals exact StableHlo.devRef_ne_of_ne (by decide)))

/-- The tags clipped into [0, 511], as the program's first host operations compute them. -/
def clipTags (x : IVec S64x2048 32) : IVec S64x2048 32 :=
  minsi (broadcastInDim S64x2048 ![] bcast_S_S64x2048 (constantI S_ 32 511#32))
    (maxsi (broadcastInDim S64x2048 ![] bcast_S_S64x2048 (constantI S_ 32 0#32)) x)

/-- Positions 0..2046 of a tag array, padded with -1 at position 2047: the previous tag of each transition. -/
def prevTags (x : IVec S64x2048 32) : IVec S64x2048 32 :=
  pad S64x2048 ![0, 0] ![0, 1] ![0, 0] (extractStridedSlice S64x2047 ![0, 0] x slices_S64x2048_S64x2047_0_0)
    (constantI S_ 32 4294967295#32) pads_S64x2047_S64x2048_000_010 h_S_

/-- Positions 1..2047 of a tag array, padded with -1 at position 2047: the next tag of each transition. -/
def nextTags (x : IVec S64x2048 32) : IVec S64x2048 32 :=
  pad S64x2048 ![0, 0] ![0, 1] ![0, 0] (extractStridedSlice S64x2047 ![0, 1] x slices_S64x2048_S64x2047_0_1)
    (constantI S_ 32 4294967295#32) pads_S64x2047_S64x2048_000_010 h_S_

/-- The unary potentials reach the first pallas_call as launched. -/
theorem V4_arg0 (c : Dev nD) : V4 m ρ c main_arg0 = m ((c : Thread nD τ).loc main_arg0) :=
  calc W4 m ρ c (Proc.devRef .tc main_arg0)
    _ = W3 m ρ c (Proc.devRef .tc main_arg0) := by not_written
    _ = W2 m ρ c (Proc.devRef .tc main_arg0) := by not_written
    _ = W1 m ρ c (Proc.devRef .tc main_arg0) := by not_written
    _ = W0 m ρ c (Proc.devRef .tc main_arg0) := by not_written
    _ = m ((c : Thread nD τ).loc main_arg0) := rfl

theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := by not_written
    _ = W2 m ρ c (Proc.devRef .tc main_arg2) := by not_written
    _ = W1 m ρ c (Proc.devRef .tc main_arg2) := by not_written
    _ = W0 m ρ c (Proc.devRef .tc main_arg2) := by not_written
    _ = m ((c : Thread nD τ).loc main_arg2) := rfl

/-- The gold tags reach the first pallas_call clipped. -/
theorem V4_v0 (c : Dev nD) : V4 m ρ c main_v0 = clipTags (m ((c : Thread nD τ).loc main_arg2)) := by
  show StableHlo.after hostOps0_3 (StableHlo.after hostOps0_2 (StableHlo.after hostOps0_1 (StableHlo.after hostOps0 (W0 m ρ c))))
    (Proc.devRef .tc main_v0) = _
  simp only [hostOps0, hostOps0_1, hostOps0_2, hostOps0_3]
  after_results
  rfl

/-- The predicted tags reach the first pallas_call clipped. -/
theorem V4_v1 (c : Dev nD) : V4 m ρ c main_v1 = clipTags (m ((c : Thread nD τ).loc main_arg3)) := by
  show StableHlo.after hostOps0_3 (StableHlo.after hostOps0_2 (StableHlo.after hostOps0_1 (StableHlo.after hostOps0 (W0 m ρ c))))
    (Proc.devRef .tc main_v1) = _
  simp only [hostOps0, hostOps0_1, hostOps0_2, hostOps0_3]
  after_results
  rfl

theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := by not_written
    _ = W2 m ρ c (Proc.devRef .tc main_arg1) := by not_written
    _ = W1 m ρ c (Proc.devRef .tc main_arg1) := by not_written
    _ = W0 m ρ c (Proc.devRef .tc main_arg1) := by not_written
    _ = m ((c : Thread nD τ).loc main_arg1) := rfl

/-! ## Between the two pallas_calls -/

/-- The first pallas_call returns its tag arrays as it found them, and its result array at what its write-backs leave. -/
theorem W5_v0 (c : Dev nD) : W5 m ρ c (Proc.devRef .tc main_v0) = V4 m ρ c main_v0 :=
  (W5_arr m ρ c 1).trans (((dat0 (V4 m ρ) c).arrAt_in 1 rfl _).trans (A_eq0 (V4 m ρ) c 1))
theorem W5_v1 (c : Dev nD) : W5 m ρ c (Proc.devRef .tc main_v1) = V4 m ρ c main_v1 :=
  (W5_arr m ρ c 2).trans (((dat0 (V4 m ρ) c).arrAt_in 2 rfl _).trans (A_eq0 (V4 m ρ) c 2))
theorem W5_v2 (c : Dev nD) : W5 m ρ c (Proc.devRef .tc main_v2) = (dat0 (V4 m ρ) c).arrAt 3 cfg0.N := W5_arr m ρ c 3
theorem W5_arg1 (c : Dev nD) : W5 m ρ c (Proc.devRef .tc main_arg1) = m ((c : Thread nD τ).loc main_arg1) :=
  (W5_of_ne m ρ c main_arg1 (by decide)).trans (W4_arg1 m ρ c)

/-- The nine stretches of host operations between the two pallas_calls, as one fold. -/
abbrev between (X : Valuation τ sig (Elt F)) : Valuation τ sig (Elt F) :=
  StableHlo.after hostOps1_8 (StableHlo.after hostOps1_7 (StableHlo.after hostOps1_6 (StableHlo.after hostOps1_5
    (StableHlo.after hostOps1_4 (StableHlo.after hostOps1_3 (StableHlo.after hostOps1_2 (StableHlo.after hostOps1_1
      (StableHlo.after hostOps1 X))))))))

theorem W14_eq (c : Dev nD) : W14 m ρ c = between (W5 m ρ c) := rfl

theorem W14_v12 (c : Dev nD) :
    W14 m ρ c (Proc.devRef .tc main_v12) = truncf .bf16 (W5 m ρ c (Proc.devRef .tc main_arg1)) bitsLt_bf16_f32 := by
  rw [W14_eq]
  simp only [between, hostOps1, hostOps1_1, hostOps1_2, hostOps1_3, hostOps1_4, hostOps1_5, hostOps1_6, hostOps1_7, hostOps1_8]
  after_results

theorem W14_v6 (c : Dev nD) : W14 m ρ c (Proc.devRef .tc main_v6) = prevTags (W5 m ρ c (Proc.devRef .tc main_v0)) := by
  rw [W14_eq]
  simp only [between, hostOps1, hostOps1_1, hostOps1_2, hostOps1_3, hostOps1_4, hostOps1_5, hostOps1_6, hostOps1_7, hostOps1_8]
  after_results
  rfl

theorem W14_v7 (c : Dev nD) : W14 m ρ c (Proc.devRef .tc main_v7) = nextTags (W5 m ρ c (Proc.devRef .tc main_v0)) := by
  rw [W14_eq]
  simp only [between, hostOps1, hostOps1_1, hostOps1_2, hostOps1_3, hostOps1_4, hostOps1_5, hostOps1_6, hostOps1_7, hostOps1_8]
  after_results
  rfl

theorem W14_v10 (c : Dev nD) : W14 m ρ c (Proc.devRef .tc main_v10) = prevTags (W5 m ρ c (Proc.devRef .tc main_v1)) := by
  rw [W14_eq]
  simp only [between, hostOps1, hostOps1_1, hostOps1_2, hostOps1_3, hostOps1_4, hostOps1_5, hostOps1_6, hostOps1_7, hostOps1_8]
  after_results
  rfl

theorem W14_v11 (c : Dev nD) : W14 m ρ c (Proc.devRef .tc main_v11) = nextTags (W5 m ρ c (Proc.devRef .tc main_v1)) := by
  rw [W14_eq]
  simp only [between, hostOps1, hostOps1_1, hostOps1_2, hostOps1_3, hostOps1_4, hostOps1_5, hostOps1_6, hostOps1_7, hostOps1_8]
  after_results
  rfl

theorem W14_v3 (c : Dev nD) :
    W14 m ρ c (Proc.devRef .tc main_v3) = shapeCast S64 (W5 m ρ c (Proc.devRef .tc main_v2)) shapeCasts_S64x1_S64 := by
  rw [W14_eq]
  simp only [between, hostOps1, hostOps1_1, hostOps1_2, hostOps1_3, hostOps1_4, hostOps1_5, hostOps1_6, hostOps1_7, hostOps1_8]
  after_results
  rfl

/-! ## After the second pallas_call -/

theorem W16_v18 (c : Dev nD) :
    W16 m ρ c (Proc.devRef .tc main_v18)
      = Host.reduceAdd (maximumf (addf (W15 m ρ c (Proc.devRef .tc main_v3))
            (shapeCast S64 (W15 m ρ c (Proc.devRef .tc main_v13)) shapeCasts_S64x1_S64))
          (broadcastInDim S64 ![] bcast_S_S64 (constant S_ .f32 0x00000000#32)))
        (constant S_ .f32 0x00000000#32) reducesTo_S64_S_d0 h_S_ := by
  show StableHlo.after hostOps2 (W15 m ρ c) (Proc.devRef .tc main_v18) = _
  simp only [hostOps2]
  after_results
  rfl

theorem W15_v13 (c : Dev nD) : W15 m ρ c (Proc.devRef .tc main_v13) = (dat1 (V14 m ρ) c).arrAt 5 cfg1.N := W15_arr m ρ c 5
theorem W15_v3 (c : Dev nD) : W15 m ρ c (Proc.devRef .tc main_v3) = W14 m ρ c (Proc.devRef .tc main_v3) :=
  W15_of_ne m ρ c main_v3 (by decide)

/-! ## The host operations' values on tags in range -/

section Values

open Cert.Spec

/-- Clipping into [0, 511] leaves a word in the label range alone. -/
theorem clip_word (v : BitVec 32) (h : 0 ≤ v.toInt ∧ v.toInt < 512) : IntOp.minsi 511#32 (IntOp.maxsi 0#32 v) = v := by
  have e511 : (511#32 : BitVec 32).toInt = 511 := by decide
  have e0 : (0#32 : BitVec 32).toInt = 0 := by decide
  have hm : IntOp.maxsi 0#32 v = v := by
    unfold IntOp.maxsi
    rw [if_neg]
    rw [BitVec.slt_iff_toInt_lt]
    omega
  rw [hm]
  unfold IntOp.minsi
  rw [if_neg]
  rw [BitVec.slt_iff_toInt_lt]
  omega

theorem clipTags_of_range (x : IVec S64x2048 32) (h : InRange x) : clipTags x = x :=
  funext fun i => clip_word (x i) (h i)

/-- The padded slice [0:2047] is the previous tag of each transition. -/
theorem isPrev_prevTags (x : IVec S64x2048 32) : IsPrev x (prevTags x) := by
  intro b s
  unfold prevTags
  by_cases hs : s.val < 2047
  · rw [if_pos hs]
    refine (pad_apply_of_inside (s := S64x2047) (t := S64x2048) ![0, 0] ![0, 1] ![0, 0] _ _ pads_S64x2047_S64x2048_000_010 h_S_ (ix2 b s)
      (ix2 b (⟨s.val, hs⟩ : Fin 2047)) (fun a => ?_)).trans ?_
    · match a with
      | ⟨0, _⟩ => show b.val = 0 + b.val * (0 + 1); omega
      | ⟨1, _⟩ => show s.val = 0 + s.val * (0 + 1); omega
    · refine extractStridedSlice_apply (t := S64x2047) ![0, 0] x slices_S64x2048_S64x2047_0_0 (ix2 b (⟨s.val, hs⟩ : Fin 2047)) (ix2 b s)
        (fun a => ?_)
      match a with
      | ⟨0, _⟩ => show b.val = 0 + b.val; omega
      | ⟨1, _⟩ => show s.val = 0 + s.val; omega
  · rw [if_neg hs]
    refine (pad_apply_of_not_inside (s := S64x2047) (t := S64x2048) ![0, 0] ![0, 1] ![0, 0] _ _ pads_S64x2047_S64x2048_000_010 h_S_ (ix2 b s)
      (1 : Fin 2) (fun h => hs ?_)).trans rfl
    have := h.2.2
    show s.val < 2047
    simpa using this

/-- The padded slice [1:2048] is the next tag of each transition. -/
theorem isNext_nextTags (x : IVec S64x2048 32) : IsNext x (nextTags x) := by
  intro b s
  unfold nextTags
  by_cases hs : s.val < 2047
  · rw [dif_pos hs]
    refine (pad_apply_of_inside (s := S64x2047) (t := S64x2048) ![0, 0] ![0, 1] ![0, 0] _ _ pads_S64x2047_S64x2048_000_010 h_S_ (ix2 b s)
      (ix2 b (⟨s.val, hs⟩ : Fin 2047)) (fun a => ?_)).trans ?_
    · match a with
      | ⟨0, _⟩ => show b.val = 0 + b.val * (0 + 1); omega
      | ⟨1, _⟩ => show s.val = 0 + s.val * (0 + 1); omega
    · refine extractStridedSlice_apply (t := S64x2047) ![0, 1] x slices_S64x2048_S64x2047_0_1 (ix2 b (⟨s.val, hs⟩ : Fin 2047))
        (ix2 b (⟨s.val + 1, by omega⟩ : Fin 2048)) (fun a => ?_)
      match a with
      | ⟨0, _⟩ => show b.val = 0 + b.val; omega
      | ⟨1, _⟩ => show s.val + 1 = 1 + s.val; omega
  · rw [dif_neg hs]
    refine (pad_apply_of_not_inside (s := S64x2047) (t := S64x2048) ![0, 0] ![0, 1] ![0, 0] _ _ pads_S64x2047_S64x2048_000_010 h_S_ (ix2 b s)
      (1 : Fin 2) (fun h => hs ?_)).trans rfl
    have := h.2.2
    show s.val < 2047
    simpa using this

end Values

end Cert.KernelIdeal.Glue

end
-- ==== Proof.KernelBridge.lean ====
/-
  The kernel program's run, read: its result word is the loss `KSpec` of the launch contents.

  The result array is what the last stretch of host operations leaves: the two pallas_calls' [64,1] result arrays,
  each recast to [64], added, clamped below by zero and summed. The first pallas_call finds the unary potentials as
  launched and the two tag arrays clipped into the label range (the identity on tags in range); the second finds the
  transition table narrowed to bf16 (the identity over the extended reals) and the four padded previous/next tag arrays.
-/
import proofs.«407784_j37417755083582_3_alg».proof.Proof.KernelRun
import proofs.«407784_j37417755083582_3_alg».proof.Proof.HostGlue
import proofs.«407784_j37417755083582_3_alg».proof.Proof.Spec
import Idealize.ShloMosaic.Lib.Pipeline.Value
import Idealize.ShloMosaic.PureOps.Ideal.Laws

noncomputable section

namespace Cert.KernelIdeal.Bridge

open Idealize.ShloMosaic Idealize.ShloMosaic.TcCoe Idealize.SL.Sem Idealize.ShloMosaic.ValueIdx
open Cert.KernelIdeal Cert.KernelIdeal.Gen Cert.KernelIdeal.Glue Cert.Spec

/-- The recast [64,1] → [64] read at row `b`. -/
theorem cast_col (x : S64x1.Idx → EReal) (b : Fin 64) :
    shapeCast S64 x shapeCasts_S64x1_S64 (ix1 b) = x (ix2 b (0 : Fin 1)) :=
  shapeCast_apply x shapeCasts_S64x1_S64 (ix1 b) (ix2 b (0 : Fin 1)) (by
    rw [Shape.rowMajor_val_two, Shape.rowMajor_val_one]
    show b.val * 1 + 0 = b.val
    omega)

/-- The indices of a [64] array are the 64 rows. -/
def rowEquiv : S64.Idx ≃ Fin 64 where
  toFun j := j 0
  invFun b := ix1 b
  left_inv j := (eq_ix1 j).symm
  right_inv _ := rfl

/-- The last host operations: the sum over the rows of max(a + b, 0). -/
theorem loss_apply (A0 A1 : S64x1.Idx → EReal) (i : S_.Idx) :
    Host.reduceAdd (F := Ideal) (maximumf (addf (shapeCast S64 A0 shapeCasts_S64x1_S64) (shapeCast S64 A1 shapeCasts_S64x1_S64))
        (broadcastInDim S64 ![] bcast_S_S64 (constant S_ .f32 0x00000000#32)))
      (constant S_ .f32 0x00000000#32) reducesTo_S64_S_d0 h_S_ i
      = ∑ b : Fin 64, max (A0 (ix2 b (0 : Fin 1)) + A1 (ix2 b (0 : Fin 1))) 0 := by
  simp only [Host.reduceAdd, Ideal.hostReduceAdd_def]
  rw [Ideal.hostReduceAdd_total reducesTo_S64_S_d0 (fun b => b.elim0)]
  rw [show (constant (F := Ideal) S_ .f32 0x00000000#32) (Shape.Idx.first h_S_) = (0 : EReal) from Ideal.ofBits_zero_f32, zero_add]
  refine (Fintype.sum_equiv rowEquiv _ _ fun j => ?_)
  obtain ⟨b, rfl⟩ : ∃ b : Fin 64, j = ix1 b := ⟨j 0, eq_ix1 j⟩
  show max (shapeCast S64 A0 shapeCasts_S64x1_S64 (ix1 b) + shapeCast S64 A1 shapeCasts_S64x1_S64 (ix1 b)) (Ideal.ofBits .f32 0x00000000#32) = _
  rw [cast_col, cast_col, Ideal.ofBits_zero_f32]
  rfl

variable (m : (ℓ : Loc nD τ sig) → Buf (Elt Ideal) ℓ) (ρ : Dev nD → PrngReg)

/-- What the first pallas_call leaves in its result array, whatever contents it is entered at. -/
abbrev Region0Value : Prop :=
  ∀ (V : (c : Dev nD) → (b : Ref sig .tc) → Buf (Elt Ideal) ((c : Thread nD τ).loc b)) (c : Dev nD),
    (dat0 (F := Ideal) V c).arrAt 3 cfg0.N = fun i => UD (V c main_arg0) (V c main_v0) (V c main_v1) (i 0)

/-- What the second pallas_call leaves in its result array, whatever contents it is entered at. -/
abbrev Region1Value : Prop :=
  ∀ (V : (c : Dev nD) → (b : Ref sig .tc) → Buf (Elt Ideal) ((c : Thread nD τ).loc b)) (c : Dev nD),
    (dat1 (F := Ideal) V c).arrAt 5 cfg1.N
      = fun i => TD (V c main_v12) (V c main_v6) (V c main_v7) (V c main_v10) (V c main_v11) (i 0)

/-- Narrowing to bf16 is the identity over the extended reals. -/
theorem truncf_id (x : FVec Ideal S512x512 .f32) : (truncf .bf16 x bitsLt_bf16_f32 : FVec Ideal S512x512 .bf16) = x := rfl

/-- The result array's final contents: the kernel's loss of the launch contents, for tags in the label range. -/
theorem result_eq (R0 : Region0Value) (R1 : Region1Value) (c : Dev nD) (hT : InRange (m ((c : Thread nD τ).loc main_arg2))) (hP : InRange (m ((c : Thread nD τ).loc main_arg3))) :
    W16 m ρ c (Proc.devRef .tc main_v18)
      = fun _ => KSpec (m ((c : Thread nD τ).loc main_arg0)) (m ((c : Thread nD τ).loc main_arg1))
          (m ((c : Thread nD τ).loc main_arg2)) (m ((c : Thread nD τ).loc main_arg3))
          (prevTags (m ((c : Thread nD τ).loc main_arg2))) (nextTags (m ((c : Thread nD τ).loc main_arg2)))
          (prevTags (m ((c : Thread nD τ).loc main_arg3))) (nextTags (m ((c : Thread nD τ).loc main_arg3))) := by
  have e0 : V4 m ρ c main_arg0 = m ((c : Thread nD τ).loc main_arg0) := V4_arg0 m ρ c
  have e1 : V4 m ρ c main_v0 = m ((c : Thread nD τ).loc main_arg2) := (V4_v0 m ρ c).trans (clipTags_of_range _ hT)
  have e2 : V4 m ρ c main_v1 = m ((c : Thread nD τ).loc main_arg3) := (V4_v1 m ρ c).trans (clipTags_of_range _ hP)
  have f12 : V14 m ρ c main_v12 = m ((c : Thread nD τ).loc main_arg1) :=
    (W14_v12 m ρ c).trans ((congrArg (fun z => truncf .bf16 z bitsLt_bf16_f32) (W5_arg1 m ρ c)).trans (truncf_id _))
  have f6 : V14 m ρ c main_v6 = prevTags (m ((c : Thread nD τ).loc main_arg2)) :=
    (W14_v6 m ρ c).trans (congrArg prevTags ((W5_v0 m ρ c).trans e1))
  have f7 : V14 m ρ c main_v7 = nextTags (m ((c : Thread nD τ).loc main_arg2)) :=
    (W14_v7 m ρ c).trans (congrArg nextTags ((W5_v0 m ρ c).trans e1))
  have f10 : V14 m ρ c main_v10 = prevTags (m ((c : Thread nD τ).loc main_arg3)) :=
    (W14_v10 m ρ c).trans (congrArg prevTags ((W5_v1 m ρ c).trans e2))
  have f11 : V14 m ρ c main_v11 = nextTags (m ((c : Thread nD τ).loc main_arg3)) :=
    (W14_v11 m ρ c).trans (congrArg nextTags ((W5_v1 m ρ c).trans e2))
  rw [W16_v18, W15_v13, W15_v3, W14_v3, W5_v2, R0, R1, e0, e1, e2, f12, f6, f7, f10, f11]
  funext i
  rw [loss_apply]
  rfl

/-- The kernel program's run with its result read. -/
theorem run_spec (R0 : Region0Value) (R1 : Region1Value) (hT : ∀ c : Dev nD, InRange (m ((c : Thread nD τ).loc main_arg2)))
    (hP : ∀ c : Dev nD, InRange (m ((c : Thread nD τ).loc main_arg3))) :
    θ_run defs (onTc (τ := τ) (main (F := Ideal))) ⟨m, fun _ => 0, ρ⟩ (fun r => ∀ c : Dev nD,
      r.2.mem ((c.tc : Thread nD τ).loc main_v18)
        = (fun _ => KSpec (m ((c : Thread nD τ).loc main_arg0)) (m ((c : Thread nD τ).loc main_arg1))
          (m ((c : Thread nD τ).loc main_arg2)) (m ((c : Thread nD τ).loc main_arg3))
          (prevTags (m ((c : Thread nD τ).loc main_arg2))) (nextTags (m ((c : Thread nD τ).loc main_arg2)))
          (prevTags (m ((c : Thread nD τ).loc main_arg3))) (nextTags (m ((c : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (result_eq m ρ R0 R1 c (hT c) (hP c)), (h c).2⟩)
    (Cert.KernelIdeal.RunValue.run_value m ρ)

end Cert.KernelIdeal.Bridge

end
-- ==== Proof.Region0Pieces.lean ====
/-
  The two control cases of the unary-difference body, as values. At a point that does not open a row of the grid
  the body loads its accumulator block, adds the block's row sums and stores the result; at a point that opens a
  row it first stores the zero block, reads that back, and then does the same. So each case leaves, in the [16, 1]
  output block, the body's one arithmetic term of the three input blocks and of the accumulator it found (the
  running contents in the first case, the zero block in the second).
-/
import proofs.«407784_j37417755083582_3_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- At a point that does not open a row of the grid the body leaves, in the accumulator holding `xo`, the
    accumulator plus the block's row sums. -/
theorem out_B (c : Dev nD) (i : grid0.Coords) (a2 : Memref sig .tc .vmem S16x128x512 .f32) (h2 : a2.IsWhole)
    (a3 : Memref sig .tc .vmem S16x128 .i32) (h3 : a3.IsWhole) (a4 : Memref sig .tc .vmem S16x128 .i32) (h4 : a4.IsWhole)
    (a5 : Memref sig .tc .vmem S16x1 .f32) (h5 : a5.IsWhole) (hc : ¬cond0_0 i)
    (x0 : Vec F S16x128x512 .f32) (x1 : Vec F S16x128 .i32) (x2 : Vec F S16x128 .i32) (xo : Vec F S16x1 .f32) :
    out0_B_3 c i a2 h2 a3 h3 a4 h4 a5 h5 hc x0 x1 x2 xo = k0_pay2 x0 x1 x2 xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero hz2]
  simp only [View.readAt_eq_ld, h2.read_unread, h3.read_unread, h4.read_unread, h5.read_unread,
    View.ld_unit_zero (S := S16x128x512) hz3, View.ld_unit_zero (S := S16x128) hz2, View.ld_unit_zero (S := S16x1) hz2]

/-- The zero block that opens a row of the grid. -/
abbrev zero : Vec F S16x1 .f32 := k0_pay1 (F := F)

/-- At a point that opens a row of the grid the body stores the zero block, reads it back, and leaves the zero block
    plus the block's row sums. -/
theorem out_A (c : Dev nD) (i : grid0.Coords) (a2 : Memref sig .tc .vmem S16x128x512 .f32) (h2 : a2.IsWhole)
    (a3 : Memref sig .tc .vmem S16x128 .i32) (h3 : a3.IsWhole) (a4 : Memref sig .tc .vmem S16x128 .i32) (h4 : a4.IsWhole)
    (a5 : Memref sig .tc .vmem S16x1 .f32) (h5 : a5.IsWhole) (hc : cond0_0 i)
    (x0 : Vec F S16x128x512 .f32) (x1 : Vec F S16x128 .i32) (x2 : Vec F S16x128 .i32) :
    out0_A_3 c i a2 h2 a3 h3 a4 h4 a5 h5 hc x0 x1 x2 = k0_pay2 x0 x1 x2 (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S16x1) hz2, View.readCov_unit_zero (S := S16x1) _ hz2]
  simp only [View.readAt_eq_ld, h2.read_unread, h3.read_unread, h4.read_unread,
    View.ld_unit_zero (S := S16x128x512) hz3, View.ld_unit_zero (S := S16x128) hz2, View.ld_unit_zero (S := S16x1) hz2]

end Cert.KernelIdeal.Region0

end
-- ==== Proof.Region0Pay.lean ====
/-
  The body's arithmetic read at a row, over the extended reals. Along the 512 tag lanes a potential is kept where
  the lane's number is the position's tag and replaced by zero elsewhere; the predicted selection minus the gold
  selection, summed over the lanes, is one position's predicted-minus-gold pick; summed again over the block's 128
  positions and added to the accumulator it gives, at row `r`,
      acc r + ∑ s : Fin 128, diffU (predicted (r, s)) (gold (r, s)) (the potentials' row at (r, s)).
-/
import proofs.«407784_j37417755083582_3_alg».proof.Proof.Gen.KernelIdeal.Skeleton
import proofs.«407784_j37417755083582_3_alg».proof.Proof.Spec
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws
import Idealize.ShloMosaic.Lib.Tactic

noncomputable section

namespace Cert.KernelIdeal.Region0

open Idealize.ShloMosaic Idealize.ShloMosaic.TcCoe Idealize.SL.Sem Idealize.ShloMosaic.ValueIdx
open Cert.KernelIdeal Cert.KernelIdeal.Gen

/-- A selection of the potentials by a tag block: lane `t` of position `(r, s)` is kept where the lane's number is
    the position's tag. -/
theorem sel_apply (x : Vec Ideal S16x128x512 .f32) (tg : Vec Ideal S16x128 .i32) (r : Fin 16) (s : Fin 128) (t : Fin 512) :
    select (cmpi .eq (iota .tc S16x128x512 32 [2] iota_S16x128x512_d2_w32)
        (broadcastTo S16x128x512 (shapeCast S16x128x1 (shapeCast S16x128 tg shapeCasts_S16x128_S16x128) shapeCasts_S16x128_S16x128x1)
          broadcasts_S16x128x1_S16x128x512))
      x (broadcast S16x128x512 (Scalar.ofBits (F := Ideal) .f32 0x00000000#32)) (ix3 r s t)
      = Cert.Spec.selU (tg (ix2 r s)) (fun t => x (ix3 r s t)) t := by
  rw [select_apply]
  unfold cmpi
  rw [iota_single_apply, broadcast_apply, shapeCast_self]
  rw [broadcastTo_apply _ _ (ix3 r s t) (ix3 r s (0 : Fin 1)) (fun a => by
    match a with
    | ⟨0, _⟩ => rfl
    | ⟨1, _⟩ => rfl
    | ⟨2, _⟩ => rfl)]
  rw [shapeCast_apply _ _ (ix3 r s (0 : Fin 1)) (ix2 r s) (by
    rw [Shape.rowMajor_val_two, Shape.rowMajor_val_three]
    show r.val * 128 + s.val = (r.val * 128 + s.val) * 1 + 0
    omega)]
  show Scalar.select (IntOp.cmpi .eq (BitVec.ofNat 32 t.val) (tg (ix2 r s))) (x (ix3 r s t)) (Ideal.ofBits .f32 0x00000000#32)
    = if BitVec.ofNat 32 t.val = tg (ix2 r s) then x (ix3 r s t) else 0
  by_cases h : BitVec.ofNat 32 t.val = tg (ix2 r s)
  · rw [if_pos h, StableHlo.Predicate.cmpi_eq_iff.mpr h, select_one]
  · rw [if_neg h, eq_zero_of_ne_one (mt StableHlo.Predicate.cmpi_eq_iff.mp h), select_zero]
    exact Ideal.ofBits_zero_f32

/-- The lane-by-lane difference of the two selections, summed over the 512 lanes of position `(r, s)`. -/
theorem lanes_apply (x : Vec Ideal S16x128x512 .f32) (g p : Vec Ideal S16x128 .i32) (r : Fin 16) (s : Fin 128) :
    multiReduction (F := Ideal) .add [2] S16x128
      (subf
        (select (cmpi .eq (iota .tc S16x128x512 32 [2] iota_S16x128x512_d2_w32)
          (broadcastTo S16x128x512 (shapeCast S16x128x1 (shapeCast S16x128 p shapeCasts_S16x128_S16x128) shapeCasts_S16x128_S16x128x1)
            broadcasts_S16x128x1_S16x128x512))
          x (broadcast S16x128x512 (Scalar.ofBits (F := Ideal) .f32 0x00000000#32)))
        (select (cmpi .eq (iota .tc S16x128x512 32 [2] iota_S16x128x512_d2_w32)
          (broadcastTo S16x128x512 (shapeCast S16x128x1 (shapeCast S16x128 g shapeCasts_S16x128_S16x128) shapeCasts_S16x128_S16x128x1)
            broadcasts_S16x128x1_S16x128x512))
          x (broadcast S16x128x512 (Scalar.ofBits (F := Ideal) .f32 0x00000000#32))))
      0x00000000#32 reduces_S16x128x512_S16x128 (.inl rfl) rfl (ix2 r s)
      = Cert.Spec.diffU (p (ix2 r s)) (g (ix2 r s)) (fun t => x (ix3 r s t)) := by
  refine (Ideal.multiReduction_add_single _ 0x00000000#32 reduces_S16x128x512_S16x128 (.inl rfl) rfl (ix2 r s)).trans ?_
  unfold Cert.Spec.diffU
  show ∑ t : Fin 512, _ = ∑ t : Fin 512, _
  refine Finset.sum_congr rfl fun t _ => ?_
  have e : reduces_S16x128x512_S16x128.lift (ix2 r s) t = ix3 r s t := funext fun a => by
    match a with
    | ⟨0, _⟩ => rfl
    | ⟨1, _⟩ => rfl
    | ⟨2, _⟩ => rfl
  rw [e, subf_apply, sel_apply, sel_apply]

/-- The body's payload at row `r`: the accumulator's entry plus the sum, over the block's 128 positions, of the
    predicted-minus-gold pick of the row's potentials. -/
theorem pay_apply (x : Vec Ideal S16x128x512 .f32) (g p : Vec Ideal S16x128 .i32) (acc : Vec Ideal S16x1 .f32) (r : Fin 16) :
    k0_pay2 (F := Ideal) x g p acc (ix2 r (0 : Fin 1))
      = acc (ix2 r (0 : Fin 1)) + ∑ s : Fin 128, Cert.Spec.diffU (p (ix2 r s)) (g (ix2 r s)) (fun t => x (ix3 r s t)) := by
  unfold k0_pay2
  refine (addf_apply _ _ _).trans ?_
  refine congrArg₂ (· + ·) (congrFun (shapeCast_self acc _) _) ?_
  refine (shapeCast_apply _ _ (ix2 r (0 : Fin 1)) (ix1 r) (by
    rw [Shape.rowMajor_val_one, Shape.rowMajor_val_two]
    show r.val = r.val * 1 + 0
    omega)).trans ?_
  refine (Ideal.multiReduction_add_single _ 0x00000000#32 reduces_S16x128_S16 (.inl rfl) rfl (ix1 r)).trans ?_
  show ∑ s : Fin 128, _ = ∑ s : Fin 128, _
  refine Finset.sum_congr rfl fun s _ => ?_
  have e : reduces_S16x128_S16.lift (ix1 r) s = ix2 r s := funext fun a => by
    match a with
    | ⟨0, _⟩ => rfl
    | ⟨1, _⟩ => rfl
  rw [e]
  exact lanes_apply x g p r s

end Cert.KernelIdeal.Region0

end
-- ==== Proof.Region0.lean ====
/-
  The [64, 1] result of the unary-difference call. Point `16 bi + si` of the [4, 16] grid reads rows
  `16 bi … 16 bi + 15` and positions `128 si … 128 si + 127` of the potentials and of the two tag arrays, so row `r`
  of its blocks sums to batch row `16 bi + r`'s predicted-minus-gold sum over sequence block `si`. The accumulator
  is reset where `si = 0` and added to elsewhere: by induction on the point, after point `16 bi + si` its row `r`
  holds that batch row's sum over the blocks `0 … si`. The point with `si = 15` writes its block back, which is
  then the whole sum over the 16 blocks, and these four write-backs cover the 64 rows of the result.
-/
import proofs.«407784_j37417755083582_3_alg».proof.Proof.Gen.KernelIdeal.Frame
import proofs.«407784_j37417755083582_3_alg».proof.Proof.Spec
import proofs.«407784_j37417755083582_3_alg».proof.Proof.Region0Pieces
import proofs.«407784_j37417755083582_3_alg».proof.Proof.Region0Pay
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-! ## The arrays and the blocks, at their literal types -/

/-- The unary potentials, the gold tags and the predicted tags as the region finds them. -/
abbrev uarr (c : Dev nD) : Vec Ideal S64x2048x512 .f32 := V c main_arg0
abbrev garr (c : Dev nD) : Vec Ideal S64x2048 .i32 := V c main_v0
abbrev parr (c : Dev nD) : Vec Ideal S64x2048 .i32 := V c main_v1

/-- Their blocks at point `t`. -/
abbrev ublk (c : Dev nD) (t : Fin cfg0.N) : Vec Ideal S16x128x512 .f32 := iblk0 V c 0 t
abbrev gblk (c : Dev nD) (t : Fin cfg0.N) : Vec Ideal S16x128 .i32 := iblk0 V c 1 t
abbrev pblk (c : Dev nD) (t : Fin cfg0.N) : Vec Ideal S16x128 .i32 := iblk0 V c 2 t

/-- Batch row `b`'s predicted-minus-gold sum over the 128 positions of sequence block `j`. -/
def rowblk (c : Dev nD) (b : Fin 64) (j : Fin 16) : EReal :=
  ∑ s : Fin 128, Cert.Spec.diffU (parr V c (ix2 b (Cert.Spec.pos j s))) (garr V c (ix2 b (Cert.Spec.pos j s)))
    (fun l => uarr V c (ix3 b (Cert.Spec.pos j s) l))

/-- Point `t = 16 bi + si` of the grid reads block `(bi, si, 0)` of the potentials, block `(bi, si)` of the tags, and
    accumulates into block `(bi, 0)` of the result. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 2) = t.val / 16 ∧ win0_1.index t (1 : Fin 2) = t.val % 16
    ∧ win0_2.index t (0 : Fin 2) = t.val / 16 ∧ win0_2.index t (1 : Fin 2) = t.val % 16
    ∧ win0_3.index t (0 : Fin 2) = t.val / 16 ∧ win0_3.index t (1 : Fin 2) = 0 :=
  (by decide +kernel : ∀ t : Fin grid0.N, _)

/-- An entry of the potentials' block at point `t` is the array's entry at batch row `16 (t / 16) + r`, position
    `128 (t % 16) + s`. -/
theorem ublk_apply (c : Dev nD) (t : Fin cfg0.N) (r : Fin 16) (s : Fin 128) (l : Fin 512) (b : Fin 64) (j : Fin 16)
    (hb : b.val = 16 * (t.val / 16) + r.val) (hj : j.val = t.val % 16) :
    ublk V c t (ix3 r s l) = uarr V c (ix3 b (Cert.Spec.pos j s) l) := by
  obtain ⟨e0, e1, e2, -⟩ := idx_facts t
  show V c main_arg0 (((cfg0.win 0).blk t).view.emb (ix3 r s l)) = V c main_arg0 (ix3 b (Cert.Spec.pos j s) l)
  refine congrArg (V c main_arg0) (funext fun a => Fin.ext ?_)
  match a with
  | ⟨0, _⟩ => show win0_0.index t (0 : Fin 3) * 16 + 1 * r.val = b.val; omega
  | ⟨1, _⟩ => show win0_0.index t (1 : Fin 3) * 128 + 1 * s.val = 128 * j.val + s.val; omega
  | ⟨2, _⟩ => show win0_0.index t (2 : Fin 3) * 512 + 1 * l.val = l.val; omega

theorem gblk_apply (c : Dev nD) (t : Fin cfg0.N) (r : Fin 16) (s : Fin 128) (b : Fin 64) (j : Fin 16)
    (hb : b.val = 16 * (t.val / 16) + r.val) (hj : j.val = t.val % 16) :
    gblk V c t (ix2 r s) = garr V c (ix2 b (Cert.Spec.pos j s)) := by
  obtain ⟨-, -, -, e0, e1, -⟩ := idx_facts t
  show V c main_v0 (((cfg0.win 1).blk t).view.emb (ix2 r s)) = V c main_v0 (ix2 b (Cert.Spec.pos j s))
  refine congrArg (V c main_v0) (funext fun a => Fin.ext ?_)
  match a with
  | ⟨0, _⟩ => show win0_1.index t (0 : Fin 2) * 16 + 1 * r.val = b.val; omega
  | ⟨1, _⟩ => show win0_1.index t (1 : Fin 2) * 128 + 1 * s.val = 128 * j.val + s.val; omega

theorem pblk_apply (c : Dev nD) (t : Fin cfg0.N) (r : Fin 16) (s : Fin 128) (b : Fin 64) (j : Fin 16)
    (hb : b.val = 16 * (t.val / 16) + r.val) (hj : j.val = t.val % 16) :
    pblk V c t (ix2 r s) = parr V c (ix2 b (Cert.Spec.pos j s)) := by
  obtain ⟨-, -, -, -, -, e0, e1, -⟩ := idx_facts t
  show V c main_v1 (((cfg0.win 2).blk t).view.emb (ix2 r s)) = V c main_v1 (ix2 b (Cert.Spec.pos j s))
  refine congrArg (V c main_v1) (funext fun a => Fin.ext ?_)
  match a with
  | ⟨0, _⟩ => show win0_2.index t (0 : Fin 2) * 16 + 1 * r.val = b.val; omega
  | ⟨1, _⟩ => show win0_2.index t (1 : Fin 2) * 128 + 1 * s.val = 128 * j.val + s.val; omega

/-- So row `r` of the blocks at point `t` sums to batch row `b`'s sum over sequence block `t % 16`. -/
theorem bsum_eq (c : Dev nD) (t : Fin cfg0.N) (r : Fin 16) (b : Fin 64) (j : Fin 16)
    (hb : b.val = 16 * (t.val / 16) + r.val) (hj : j.val = t.val % 16) :
    (∑ s : Fin 128, Cert.Spec.diffU (pblk V c t (ix2 r s)) (gblk V c t (ix2 r s)) (fun l => ublk V c t (ix3 r s l)))
      = rowblk V c b j := by
  unfold rowblk
  refine Finset.sum_congr rfl fun s _ => ?_
  rw [pblk_apply V c t r s b j hb hj, gblk_apply V c t r s b j hb hj]
  exact congrArg _ (funext fun l => ublk_apply V c t r s l b j hb hj)

/-! ## The accumulation, point by point -/

/-- At a point that opens a row of the grid the accumulator is reset: its row `r` ends at the block's sum. -/
theorem step_A (c : Dev nD) (t : Fin cfg0.N) (h0 : t.val % 16 = 0) (r : Fin 16) (b : Fin 64) (j : Fin 16)
    (hb : b.val = 16 * (t.val / 16) + r.val) (hj : j.val = t.val % 16) :
    outsAt0 V c t.val t.isLt (ix2 r (0 : Fin 1)) = rowblk V c b j := by
  rw [outsAt0_A V c t h0]
  refine (congrFun (out_A (F := Ideal) c (grid0.coords t) (ms0_0 t) (hs0_0 t) (ms0_1 t) (hs0_1 t) (ms0_2 t) (hs0_2 t)
    (ms0_3 t) (hs0_3 t) ((hcond0_0 t).mpr h0) (ublk V c t) (gblk V c t) (pblk V c t)) (ix2 r (0 : Fin 1))).trans ?_
  refine (pay_apply (ublk V c t) (gblk V c t) (pblk V c t) (k0_pay1 (F := Ideal)) r).trans ?_
  rw [bsum_eq V c t r b j hb hj]
  show Ideal.ofBits .f32 0x00000000#32 + _ = _
  rw [Ideal.ofBits_zero_f32, zero_add]

/-- At any other point the block's sum is added to what the point before left. -/
theorem step_B (c : Dev nD) (t : Fin cfg0.N) (h0 : ¬t.val % 16 = 0) (r : Fin 16) (b : Fin 64) (j : Fin 16)
    (hb : b.val = 16 * (t.val / 16) + r.val) (hj : j.val = t.val % 16) :
    outsAt0 V c t.val t.isLt (ix2 r (0 : Fin 1))
      = outsAt0 V c (t.val - 1) (Nat.lt_of_le_of_lt (Nat.sub_le _ _) t.isLt) (ix2 r (0 : Fin 1)) + rowblk V c b j := by
  rw [outsAt0_B V c t h0]
  refine (congrFun (out_B (F := Ideal) c (grid0.coords t) (ms0_0 t) (hs0_0 t) (ms0_1 t) (hs0_1 t) (ms0_2 t) (hs0_2 t)
    (ms0_3 t) (hs0_3 t) (fun h => h0 ((hcond0_0 t).mp h)) (ublk V c t) (gblk V c t) (pblk V c t)
    (outsAt0 V c (t.val - 1) (Nat.lt_of_le_of_lt (Nat.sub_le _ _) t.isLt))) (ix2 r (0 : Fin 1))).trans ?_
  refine (pay_apply (ublk V c t) (gblk V c t) (pblk V c t)
    (outsAt0 V c (t.val - 1) (Nat.lt_of_le_of_lt (Nat.sub_le _ _) t.isLt)) r).trans ?_
  rw [bsum_eq V c t r b j hb hj]

/-- Adding the next block to a sum over the blocks up to `k`. -/
theorem sum_le_succ (f : Fin 16 → EReal) (k : ℕ) (j : Fin 16) (hj : j.val = k + 1) :
    (∑ i : Fin 16, if i.val ≤ k then f i else 0) + f j = ∑ i : Fin 16, if i.val ≤ k + 1 then f i else 0 := by
  have e : ∀ i : Fin 16, (if i.val ≤ k + 1 then f i else 0) = (if i.val ≤ k then f i else 0) + (if i = j then f i else 0) := by
    intro i
    by_cases h1 : i.val ≤ k
    · have h2 : ¬i = j := fun h => by rw [h] at h1; omega
      rw [if_pos h1, if_pos (by omega), if_neg h2, add_zero]
    · by_cases h2 : i = j
      · rw [if_neg h1, if_pos (by rw [h2]; omega), if_pos h2, zero_add]
      · have h3 : ¬i.val ≤ k + 1 := fun h => h2 (Fin.ext (by omega))
        rw [if_neg h1, if_neg h3, if_neg h2, add_zero]
  rw [Finset.sum_congr rfl fun i _ => e i, Finset.sum_add_distrib, Finset.sum_ite_eq' Finset.univ j f, if_pos (Finset.mem_univ j)]

/-- THE INVARIANT: after point `n = 16 bi + si` row `r` of the accumulator holds batch row `16 bi + r`'s sum over
    the sequence blocks `0 … si`. -/
theorem outsAt_eq (c : Dev nD) : ∀ (n : ℕ) (h : n < cfg0.N) (r : Fin 16) (b : Fin 64), b.val = 16 * (n / 16) + r.val →
    outsAt0 V c n h (ix2 r (0 : Fin 1)) = ∑ i : Fin 16, if i.val ≤ n % 16 then rowblk V c b i else 0
  | 0, h, r, b, hb => by
    rw [step_A V c ⟨0, h⟩ rfl r b (0 : Fin 16) hb rfl]
    rw [Finset.sum_eq_single (0 : Fin 16) (fun i _ hi => if_neg (fun hle => hi (Fin.ext (by
      have : i.val ≤ 0 := hle
      show i.val = 0
      omega)))) (fun hn => absurd (Finset.mem_univ _) hn)]
    exact (if_pos (Nat.le_refl _)).symm
  | n + 1, h, r, b, hb => by
    have hN : n + 1 < 64 := lt_of_lt_of_eq h (show cfg0.N = 64 from N_0)
    by_cases h0 : (n + 1) % 16 = 0
    · rw [step_A V c ⟨n + 1, h⟩ h0 r b (0 : Fin 16) hb h0.symm, h0]
      rw [Finset.sum_eq_single (0 : Fin 16) (fun i _ hi => if_neg (fun hle => hi (Fin.ext (by
        have : i.val ≤ 0 := hle
        show i.val = 0
        omega)))) (fun hn => absurd (Finset.mem_univ _) hn)]
      exact (if_pos (Nat.le_refl _)).symm
    · have hj : (n + 1) % 16 = n % 16 + 1 := by omega
      rw [step_B V c ⟨n + 1, h⟩ h0 r b ⟨(n + 1) % 16, Nat.mod_lt _ (by norm_num)⟩ hb rfl]
      show outsAt0 V c n _ (ix2 r (0 : Fin 1)) + _ = _
      rw [outsAt_eq c n (Nat.lt_of_succ_lt h) r b (by rw [hb]; omega)]
      refine (sum_le_succ (rowblk V c b) (n % 16) ⟨(n + 1) % 16, Nat.mod_lt _ (by norm_num)⟩ hj).trans ?_
      rw [hj]

/-! ## The result array -/

/-- What the result array ends holding: row `b` at batch row `b`'s sum over its 16 sequence blocks. -/
abbrev G (c : Dev nD) : Vec Ideal S64x1 .f32 :=
  fun i => Cert.Spec.UD (uarr V c) (garr V c) (parr V c) (i 0)

/-- The point that closes a row of the grid writes back its block of `G`. -/
theorem flushed_eq (c : Dev nD) (t : Fin cfg0.N) (hf : (cfg0.win 3).flush t = true) :
    (dat0 (F := Ideal) V c).flushed 3 t = ((cfg0.win 3).blk t).view.read (Elt Ideal) (G V c) := by
  have h15 : t.val % 16 = 15 := (flush0_3 t).mp hf
  have hN : t.val < 64 := lt_of_lt_of_eq t.isLt (show cfg0.N = 64 from N_0)
  obtain ⟨-, -, -, -, -, -, -, e0, e1⟩ := idx_facts t
  show (cfg0.win 3).cut (grid0.coords t) ((dat0 (F := Ideal) V c).after 3 t) = _
  rw [after0_3]
  funext y
  obtain ⟨r, z, rfl⟩ : ∃ (r : Fin 16) (z : Fin 1), y = ix2 r z := ⟨y 0, y 1, eq_ix2 y⟩
  obtain rfl : z = 0 := Subsingleton.elim _ _
  show outsAt0 V c t.val t.isLt (ix2 r (0 : Fin 1)) = G V c (((cfg0.win 3).blk t).view.emb (ix2 r (0 : Fin 1)))
  rw [outsAt_eq V c t.val t.isLt r ⟨16 * (t.val / 16) + r.val, by omega⟩ rfl, h15]
  have eb : (((cfg0.win 3).blk t).view.emb (ix2 r (0 : Fin 1))) (0 : Fin 2) = (⟨16 * (t.val / 16) + r.val, by omega⟩ : Fin 64) :=
    Fin.ext (by show win0_3.index t (0 : Fin 2) * 16 + 1 * r.val = 16 * (t.val / 16) + r.val; omega)
  show _ = Cert.Spec.UD (uarr V c) (garr V c) (parr V c) ((((cfg0.win 3).blk t).view.emb (ix2 r (0 : Fin 1))) (0 : Fin 2))
  rw [eb]
  unfold Cert.Spec.UD rowblk
  exact Finset.sum_congr rfl fun i _ => if_pos (by have := i.isLt; omega)

/-- An index of the result array is in point `t`'s block iff each coordinate is in the block's range. -/
theorem mem_blk (t : Fin cfg0.N) (i : S64x1.Idx) :
    i ∈ ((cfg0.win 3).blk t).view.set ↔ ∀ a : Fin 2, win0_3.index t a * S16x1.size a ≤ (i a).val ∧ (i a).val < win0_3.index t a * S16x1.size a + S16x1.size a := by
  show i ∈ ((View.whole main_v2).slice (win0_3.rect t)).set ↔ _
  rw [View.set_slice_whole, Rect.mem_set_unit]
  exact Iff.rfl

/-- Row `b` of the result is written back by the point that closes row `b / 16` of the grid. -/
theorem cover (i : S64x1.Idx) : ∃ t : Fin cfg0.N, (cfg0.win 3).flush t = true ∧ i ∈ ((cfg0.win 3).blk t).view.set := by
  have hi0 : (i 0).val < 64 := (i 0).isLt
  have hi1 : (i 1).val < 1 := (i 1).isLt
  have hN : cfg0.N = 64 := N_0
  obtain ⟨t, ht⟩ : ∃ t : Fin cfg0.N, t.val = 16 * ((i 0).val / 16) + 15 := ⟨⟨_, by rw [hN]; omega⟩, rfl⟩
  refine ⟨t, (flush0_3 t).mpr (by omega), ?_⟩
  obtain ⟨-, -, -, -, -, -, -, e0, e1⟩ := idx_facts t
  rw [mem_blk]
  intro a
  match a with
  | ⟨0, _⟩ =>
    show win0_3.index t (0 : Fin 2) * 16 ≤ (i 0).val ∧ (i 0).val < win0_3.index t (0 : Fin 2) * 16 + 16
    omega
  | ⟨1, _⟩ =>
    show win0_3.index t (1 : Fin 2) * 1 ≤ (i 1).val ∧ (i 1).val < win0_3.index t (1 : Fin 2) * 1 + 1
    omega

/-- What the first pallas_call leaves in its [64, 1] result array: row `b` holds the predicted-minus-gold sum of the
    unary potentials of batch row `b`. -/
theorem arr (c : Dev nD) :
    (dat0 (F := Ideal) V c).arrAt 3 cfg0.N
      = fun i => Cert.Spec.UD (V c main_arg0) (V c main_v0) (V c main_v1) (i 0) :=
  (dat0 (F := Ideal) V c).arrAt_eq_of_cover 3 (G V c) (flushed_eq V c) cover

end Cert.KernelIdeal.Region0

end
-- ==== Proof.Region1Pieces.lean ====
/-
  What each control case of the transition-difference kernel leaves in its [16, 1] accumulator block, read off the
  stores the body performs. At the first point of a row of the grid (the reset case) the block is set to zero, read
  back, and the point's predicted-minus-gold row sums are added to that zero; at every other point the row sums are
  added to what the point before left. Both cases are one update function of the point's table and tag blocks,
  applied to the zero block or to the running block.
-/
import proofs.«407784_j37417755083582_3_alg».proof.Proof.Gen.KernelIdeal.Frame
import Idealize.ShloMosaic.Lib.Pipeline.Value
import Idealize.ShloMosaic.Lib.Tactic

noncomputable section

namespace Cert.KernelIdeal.Region1

open Idealize.ShloMosaic Idealize.ShloMosaic.TcCoe Idealize.SL.Sem
open Idealize.ShloMosaic.Pipeline (Dat)
open Cert.KernelIdeal Cert.KernelIdeal.Gen

variable {F : FTy → Type} [FloatOps F]

theorem hz : (![0, 0] : Fin 2 → Nat) = fun _ => 0 := funext fun a => by fin_cases a <;> rfl

/-- The lane numbers along the 512 tag lanes. -/
abbrev lanes : IVec S16x128x512 32 := iota .tc S16x128x512 32 [2] iota_S16x128x512_d2_w32

/-- One point's update of the [16, 1] accumulator `acc`: the predicted-minus-gold row sums of the point's four tag
    blocks (previous and next gold tags `pg`, `ng`; previous and next predicted tags `pp`, `np`) against the table
    `tb`, added to `acc`. -/
def upd (tb : Vec F S512x512 .bf16) (pg ng pp np : Vec F S16x128 .i32) (acc : Vec F S16x1 .f32) : Vec F S16x1 .f32 :=
  k1_pay1 (k1_pay4 tb pg ng) lanes (k1_pay5 tb pp) (k1_pay6 (F := F) np) acc

/-- The zero block a reset stores. -/
def zeroBlk : Vec F S16x1 .f32 := k1_pay2

/-- A point that is not the first of its row of the grid adds its row sums to the running block `xo`. -/
theorem out_B (c : Dev nD) (i : grid1.Coords) (arg2 : Memref sig .tc .vmem S512x512 .bf16) (harg2 : arg2.IsWhole) (arg3 : Memref sig .tc .vmem S16x128 .i32) (harg3 : arg3.IsWhole) (arg4 : Memref sig .tc .vmem S16x128 .i32) (harg4 : arg4.IsWhole) (arg5 : Memref sig .tc .vmem S16x128 .i32) (harg5 : arg5.IsWhole) (arg6 : Memref sig .tc .vmem S16x128 .i32) (harg6 : arg6.IsWhole) (arg7 : Memref sig .tc .vmem S16x1 .f32) (harg7 : arg7.IsWhole) (hc0 : ¬cond1_0 i)
    (x0 : Vec F S512x512 .bf16) (x1 x2 x3 x4 : Vec F S16x128 .i32) (xo : Vec F S16x1 .f32) :
    out1_B_5 c i arg2 harg2 arg3 harg3 arg4 harg4 arg5 harg5 arg6 harg6 arg7 harg7 hc0 x0 x1 x2 x3 x4 xo = upd x0 x1 x2 x3 x4 xo := by
  unfold out1_B_5
  rw [View.read_writes_eq_canon _ _ _ (cover1_B_5 c i arg2 harg2 arg3 harg3 arg4 harg4 arg5 harg5 arg6 harg6 arg7 harg7 hc0 x0 x1 x2 x3 x4 xo)]
  unfold kernelRun1_B
  dsimp only
  sl_unfold_words
  rw [View.canon_unit_zero hz]
  unfold upd lanes
  simp only [View.readAt_eq_ld, harg2.read_unread, harg3.read_unread, harg4.read_unread, harg5.read_unread, harg6.read_unread, harg7.read_unread,
    View.ld_unit_zero (S := S16x1) hz, View.ld_unit_zero (S := S16x128) hz, View.ld_unit_zero (S := S512x512) hz, shapeCast_self]

/-- The first point of a row of the grid stores the zero block, reads it back, and adds its row sums to it. -/
theorem out_A (c : Dev nD) (i : grid1.Coords) (arg2 : Memref sig .tc .vmem S512x512 .bf16) (harg2 : arg2.IsWhole) (arg3 : Memref sig .tc .vmem S16x128 .i32) (harg3 : arg3.IsWhole) (arg4 : Memref sig .tc .vmem S16x128 .i32) (harg4 : arg4.IsWhole) (arg5 : Memref sig .tc .vmem S16x128 .i32) (harg5 : arg5.IsWhole) (arg6 : Memref sig .tc .vmem S16x128 .i32) (harg6 : arg6.IsWhole) (arg7 : Memref sig .tc .vmem S16x1 .f32) (harg7 : arg7.IsWhole) (hc0 : cond1_0 i)
    (x0 : Vec F S512x512 .bf16) (x1 x2 x3 x4 : Vec F S16x128 .i32) :
    out1_A_5 c i arg2 harg2 arg3 harg3 arg4 harg4 arg5 harg5 arg6 harg6 arg7 harg7 hc0 x0 x1 x2 x3 x4 = upd x0 x1 x2 x3 x4 zeroBlk := by
  unfold out1_A_5
  rw [View.read_writes_eq_canon _ _ _ (cover1_A_5 c i arg2 harg2 arg3 harg3 arg4 harg4 arg5 harg5 arg6 harg6 arg7 harg7 hc0 x0 x1 x2 x3 x4)]
  unfold kernelRun1_A
  dsimp only
  sl_unfold_words
  rw [View.canon_cons_unit_zero (S := S16x1) hz, View.readCov_unit_zero (S := S16x1) _ hz]
  unfold upd lanes zeroBlk
  simp only [View.readAt_eq_ld, harg2.read_unread, harg3.read_unread, harg4.read_unread, harg5.read_unread, harg6.read_unread,
    View.ld_unit_zero (S := S16x1) hz, View.ld_unit_zero (S := S16x128) hz, View.ld_unit_zero (S := S512x512) hz, shapeCast_self]

end Cert.KernelIdeal.Region1

end
-- ==== Proof.Region1Payload.lean ====
/-
  One grid point's arithmetic of the transition-difference kernel, read index by index over the extended reals.
  For a [16, 128] block of previous tags the body builds the one-hot rows along the 512 tag lanes, multiplies them
  with the [512, 512] table into a zero accumulator (a plain sum over the contracted lane), keeps along the lanes the
  entry whose lane number is the next tag, and adds the lanes up: at (r, s) this is the pick of one transition
  potential, pickB. Done for the gold and the predicted tags, subtracted, and summed over the 128 offsets, row r of the
  update reads acc (r, 0) + Σ_s (pickB predicted − pickB gold).
-/
import proofs.«407784_j37417755083582_3_alg».proof.Proof.Gen.KernelIdeal.Skeleton
import proofs.«407784_j37417755083582_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

noncomputable section

namespace Cert.KernelIdeal.Region1

open Idealize.ShloMosaic Idealize.ShloMosaic.ValueIdx
open Cert.KernelIdeal Cert.KernelIdeal.Gen

/-- The row-by-table product's dimension numbers: [2048, 512] rows against the [512, 512] table, contracting the lanes. -/
abbrev DD : DotDims S2048x512 S512x512 S2048x512 := dot_S2048x512_S512x512_S2048x512_1_0_0_1_n_n

theorem lhs_ax0 (j : S2048x512.Idx) (k : DD.contr.Idx) : (DD.lhsIdx j k 0).val = (j 0).val := rfl
theorem lhs_ax1 (j : S2048x512.Idx) (k : DD.contr.Idx) : (DD.lhsIdx j k 1).val = (k ⟨0, by decide⟩).val := rfl
theorem rhs_ax0 (j : S2048x512.Idx) (k : DD.contr.Idx) : (DD.rhsIdx j k 0).val = (k ⟨0, by decide⟩).val := rfl
theorem rhs_ax1 (j : S2048x512.Idx) (k : DD.contr.Idx) : (DD.rhsIdx j k 1).val = (j 1).val := rfl

/-- Inserting lane `k` at the reduced lane axis of (r, s) gives (r, s, k). -/
theorem lift_lane (r : Fin 16) (s : Fin 128) (k : Fin 512) : (reduces_S16x128x512_S16x128.lift (ix2 r s) k) = ix3 r s k := by
  funext a
  match a with
  | ⟨0, _⟩ => rfl
  | ⟨1, _⟩ => rfl
  | ⟨2, _⟩ => rfl

/-- Inserting offset `s` at the reduced position axis of (r) gives (r, s). -/
theorem lift_off (r : Fin 16) (s : Fin 128) : (reduces_S16x128_S16.lift (ix1 r) s) = ix2 r s := by
  funext a
  match a with
  | ⟨0, _⟩ => rfl
  | ⟨1, _⟩ => rfl

/-- A one-hot lane: the lane's number compared with the tag, widened to a word and converted, is one where they
    agree and zero elsewhere. -/
theorem hot_eq (p : BitVec 32) (t : Fin 512) :
    FloatOps.sitofp (F := Ideal) .f32 ((IntOp.cmpi .eq (BitVec.ofNat 32 t.val) p).setWidth 32) = Cert.Spec.oneHot p t := by
  unfold Cert.Spec.oneHot
  by_cases h : BitVec.ofNat 32 t.val = p
  · rw [if_pos h, (StableHlo.Predicate.cmpi_eq_iff).mpr h]
    show (((1#1 : BitVec 1).setWidth 32).toInt : ℝ) = (1 : EReal)
    simp
  · rw [if_neg h, eq_zero_of_ne_one (fun hh => h ((StableHlo.Predicate.cmpi_eq_iff).mp hh))]
    show (((0#1 : BitVec 1).setWidth 32).toInt : ℝ) = (0 : EReal)
    simp

/-- The lane numbers read at (r, s, j): the lane `j`. -/
theorem lanes_apply (r : Fin 16) (s : Fin 128) (j : Fin 512) :
    iota .tc S16x128x512 32 [2] iota_S16x128x512_d2_w32 (ix3 r s j) = BitVec.ofNat 32 j.val :=
  iota_single_apply .tc S16x128x512 32 2 iota_S16x128x512_d2_w32 (ix3 r s j)

/-- A [16, 128] block of tags spread along the 512 lanes. -/
def spread (x : IVec S16x128 32) : IVec S16x128x512 32 :=
  broadcastTo S16x128x512 (shapeCast S16x128x1 x shapeCasts_S16x128_S16x128x1) broadcasts_S16x128x1_S16x128x512

theorem spread_apply (x : IVec S16x128 32) (r : Fin 16) (s : Fin 128) (j : Fin 512) : spread x (ix3 r s j) = x (ix2 r s) := by
  unfold spread
  refine (broadcastTo_apply _ _ (ix3 r s j) (ix3 r s (0 : Fin 1)) ?_).trans ?_
  · intro a
    match a with
    | ⟨0, _⟩ => rfl
    | ⟨1, _⟩ => rfl
    | ⟨2, _⟩ => rfl
  · refine shapeCast_apply x _ (ix3 r s (0 : Fin 1)) (ix2 r s) ?_
    rw [Shape.rowMajor_val_two, Shape.rowMajor_val_three]
    show r.val * 128 + s.val = (r.val * 128 + s.val) * 1 + 0
    omega

theorem pay6_eq {F : FTy → Type} [FloatOps F] (x : Vec F S16x128 .i32) : k1_pay6 (F := F) x = spread x := by
  unfold k1_pay6 spread
  rw [shapeCast_self]

/-- Row `128 r + s` of the [2048, 512] re-laid block. -/
def row (r : Fin 16) (s : Fin 128) : Fin 2048 := ⟨128 * r.val + s.val, by omega⟩

/-- The one-hot rows of a block of tags, as the body builds them: lane numbers compared with the spread tags, widened,
    converted, narrowed to the table's format. -/
def hotRows {F : FTy → Type} [FloatOps F] (x : IVec S16x128 32) : FVec F S16x128x512 .bf16 :=
  truncf .bf16 (sitofp (F := F) .f32 (extui 32 (cmpi .eq (iota .tc S16x128x512 32 [2] iota_S16x128x512_d2_w32) (spread x)) natLt_1_32)) bitsLt_bf16_f32

theorem hotRows_apply (x : IVec S16x128 32) (r : Fin 16) (s : Fin 128) (k : Fin 512) :
    hotRows (F := Ideal) x (ix3 r s k) = Cert.Spec.oneHot (x (ix2 r s)) k := by
  show FloatOps.sitofp (F := Ideal) .f32 ((IntOp.cmpi .eq (iota .tc S16x128x512 32 [2] iota_S16x128x512_d2_w32 (ix3 r s k)) (spread x (ix3 r s k))).setWidth 32) = _
  rw [lanes_apply, spread_apply]
  exact hot_eq _ _

/-- The row products of a block of tags with the table: the one-hot rows, re-laid [2048, 512], multiplied into a zero
    accumulator, re-laid back. -/
def rowProd {F : FTy → Type} [FloatOps F] (tb : FVec F S512x512 .bf16) (x : IVec S16x128 32) : FVec F S16x128x512 .f32 :=
  shapeCast S16x128x512
    (matmul dot_S2048x512_S512x512_S2048x512_1_0_0_1_n_n none (shapeCast S2048x512 (hotRows (F := F) x) shapeCasts_S16x128x512_S2048x512) tb
      (constant S2048x512 .f32 0x00000000#32))
    shapeCasts_S2048x512_S16x128x512

theorem pay5_eq {F : FTy → Type} [FloatOps F] (tb : Vec F S512x512 .bf16) (x : Vec F S16x128 .i32) : k1_pay5 tb x = rowProd tb x := by
  unfold k1_pay5 k1_pay3 rowProd hotRows spread
  rw [shapeCast_self, shapeCast_self]

/-- Lane `j` of the row product at (r, s): the one-hot row of the tag at (r, s) against column `j` of the table. -/
theorem rowProd_apply (tb : FVec Ideal S512x512 .bf16) (x : IVec S16x128 32) (r : Fin 16) (s : Fin 128) (j : Fin 512) :
    rowProd (F := Ideal) tb x (ix3 r s j) = ∑ k : Fin 512, Cert.Spec.oneHot (x (ix2 r s)) k * tb (ix2 k j) := by
  unfold rowProd
  refine (shapeCast_apply _ _ (ix3 r s j) (ix2 (row r s) j) ?_).trans ?_
  · rw [Shape.rowMajor_val_two, Shape.rowMajor_val_three]
    show (128 * r.val + s.val) * 512 + j.val = (r.val * 128 + s.val) * 512 + j.val
    omega
  refine (Ideal.matmul_constant_zero_apply DD none _ _ (ix2 (row r s) j)).trans ?_
  refine (Equiv.sum_comp (contrEquiv1 DD 512 rfl rfl).symm _).symm.trans ?_
  refine Finset.sum_congr rfl fun k _ => ?_
  have hk : (((contrEquiv1 DD 512 rfl rfl).symm k) ⟨0, by decide⟩ : ℕ) = k.val := contrEquiv1_symm_val DD 512 rfl rfl k
  have e1 : shapeCast S2048x512 (hotRows (F := Ideal) x) shapeCasts_S16x128x512_S2048x512 (DD.lhsIdx (ix2 (row r s) j) ((contrEquiv1 DD 512 rfl rfl).symm k))
      = Cert.Spec.oneHot (x (ix2 r s)) k := by
    refine (shapeCast_apply _ _ _ (ix3 r s k) ?_).trans (hotRows_apply x r s k)
    rw [Shape.rowMajor_val_two, Shape.rowMajor_val_three, lhs_ax0, lhs_ax1, hk]
    show (r.val * 128 + s.val) * 512 + k.val = (128 * r.val + s.val) * 512 + k.val
    omega
  have e2 : DD.rhsIdx (ix2 (row r s) j) ((contrEquiv1 DD 512 rfl rfl).symm k) = ix2 k j := by
    funext a
    apply Fin.ext
    match a with
    | ⟨0, _⟩ => exact (rhs_ax0 _ _).trans hk
    | ⟨1, _⟩ => exact rhs_ax1 _ _
  rw [e1, e2]

/-- The lane compare and sum: along the lanes keep the product where the lane's number is the next tag, and add. -/
def pick {F : FTy → Type} [FloatOps F] (prod : FVec F S16x128x512 .f32) (nx : IVec S16x128x512 32) : FVec F S16x128 .f32 :=
  multiReduction .add [2] S16x128
    (select (cmpi .eq (iota .tc S16x128x512 32 [2] iota_S16x128x512_d2_w32) nx) prod (broadcast S16x128x512 (Scalar.ofBits .f32 0x00000000#32)))
    0x00000000#32 reduces_S16x128x512_S16x128 (.inl rfl) rfl

theorem pay4_eq {F : FTy → Type} [FloatOps F] (tb : Vec F S512x512 .bf16) (pg ng : Vec F S16x128 .i32) :
    k1_pay4 tb pg ng = pick (rowProd tb pg) (spread ng) := by
  unfold k1_pay4 k1_pay3 pick rowProd hotRows spread
  rw [shapeCast_self, shapeCast_self, shapeCast_self]

theorem pick_apply (prod : FVec Ideal S16x128x512 .f32) (nx : IVec S16x128x512 32) (r : Fin 16) (s : Fin 128) :
    pick (F := Ideal) prod nx (ix2 r s) = ∑ j : Fin 512, if BitVec.ofNat 32 j.val = nx (ix3 r s j) then prod (ix3 r s j) else 0 := by
  unfold pick
  refine (Ideal.multiReduction_add_single _ 0x00000000#32 reduces_S16x128x512_S16x128 (.inl rfl) rfl (ix2 r s)).trans ?_
  show ∑ j : Fin 512, _ = _
  refine Finset.sum_congr rfl fun j _ => ?_
  rw [lift_lane]
  show Scalar.select (IntOp.cmpi .eq (iota .tc S16x128x512 32 [2] iota_S16x128x512_d2_w32 (ix3 r s j)) (nx (ix3 r s j))) (prod (ix3 r s j)) (Ideal.ofBits .f32 0x00000000#32) = _
  rw [lanes_apply]
  by_cases h : BitVec.ofNat 32 j.val = nx (ix3 r s j)
  · rw [if_pos h, (StableHlo.Predicate.cmpi_eq_iff).mpr h, select_one]
  · rw [if_neg h, eq_zero_of_ne_one (fun hh => h ((StableHlo.Predicate.cmpi_eq_iff).mp hh)), select_zero, Ideal.ofBits_zero_f32]

/-- The pick of a transition potential at (r, s), as the specification writes it. -/
theorem pick_rowProd_apply (tb : FVec Ideal S512x512 .bf16) (p n : IVec S16x128 32) (r : Fin 16) (s : Fin 128) :
    pick (F := Ideal) (rowProd tb p) (spread n) (ix2 r s) = Cert.Spec.pickB (p (ix2 r s)) (n (ix2 r s)) tb := by
  rw [pick_apply]
  unfold Cert.Spec.pickB
  refine Finset.sum_congr rfl fun j _ => ?_
  rw [spread_apply, rowProd_apply]

theorem pay1_eq {F : FTy → Type} [FloatOps F] (v24 : FVec F S16x128 .f32) (v38 : FVec F S16x128x512 .f32) (v40 : IVec S16x128x512 32) (acc : Vec F S16x1 .f32) :
    k1_pay1 v24 (iota .tc S16x128x512 32 [2] iota_S16x128x512_d2_w32) v38 v40 acc
      = addf acc (shapeCast S16x1 (multiReduction .add [1] S16 (subf (pick v38 v40) v24) 0x00000000#32 reduces_S16x128_S16 (.inl rfl) rfl) shapeCasts_S16_S16x1) := by
  unfold k1_pay1 pick
  rw [shapeCast_self]

/-- ONE POINT'S UPDATE AT A ROW: row `r` of the accumulator gains the sum over the block's 128 offsets of the predicted
    pick minus the gold pick. -/
theorem upd_apply (tb : Vec Ideal S512x512 .bf16) (pg ng pp np : Vec Ideal S16x128 .i32) (acc : Vec Ideal S16x1 .f32) (r : Fin 16) :
    k1_pay1 (k1_pay4 tb pg ng) (iota .tc S16x128x512 32 [2] iota_S16x128x512_d2_w32) (k1_pay5 tb pp) (k1_pay6 (F := Ideal) np) acc (ix2 r (0 : Fin 1))
      = acc (ix2 r (0 : Fin 1)) + ∑ s : Fin 128,
          (Cert.Spec.pickB (pp (ix2 r s)) (np (ix2 r s)) tb - Cert.Spec.pickB (pg (ix2 r s)) (ng (ix2 r s)) tb) := by
  rw [pay1_eq, pay4_eq, pay5_eq, pay6_eq]
  show acc (ix2 r (0 : Fin 1)) + shapeCast S16x1 _ shapeCasts_S16_S16x1 (ix2 r (0 : Fin 1)) = _
  congr 1
  refine (shapeCast_apply _ _ (ix2 r (0 : Fin 1)) (ix1 r) ?_).trans ?_
  · rw [Shape.rowMajor_val_one, Shape.rowMajor_val_two]
    show r.val = r.val * 1 + 0
    omega
  refine (Ideal.multiReduction_add_single _ 0x00000000#32 reduces_S16x128_S16 (.inl rfl) rfl (ix1 r)).trans ?_
  show ∑ s : Fin 128, _ = _
  refine Finset.sum_congr rfl fun s _ => ?_
  rw [lift_off]
  show pick (F := Ideal) (rowProd tb pp) (spread np) (ix2 r s) - pick (F := Ideal) (rowProd tb pg) (spread ng) (ix2 r s) = _
  rw [pick_rowProd_apply, pick_rowProd_apply]

end Cert.KernelIdeal.Region1

end
-- ==== Proof.Region1.lean ====
/-
  The second pallas_call's [64, 1] result array, from its 64 grid points. Point t = 16 bi + si reads the whole
  transition table and, of each padded tag array, batch rows 16 bi .. 16 bi + 15 at positions 128 si .. 128 si + 127.
  The [16, 1] accumulator block stays in place along a row of the grid: reset at si = 0, it gains block si's row sums
  at every point, so after point t row r holds the sum over the blocks j ≤ si of the predicted-minus-gold picks of
  batch row 16 bi + r (induction on the point). At si = 15 that is the whole sum over the 16 blocks, and the block is
  written back to rows 16 bi .. 16 bi + 15; every row of the result lies in exactly one such block, so row b ends
  holding batch row b's transition difference.
-/
import proofs.«407784_j37417755083582_3_alg».proof.Proof.Gen.KernelIdeal.Frame
import proofs.«407784_j37417755083582_3_alg».proof.Proof.Spec
import proofs.«407784_j37417755083582_3_alg».proof.Proof.Region1Pieces
import proofs.«407784_j37417755083582_3_alg».proof.Proof.Region1Payload
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The arrays the region finds, at their literal types: the table and the four padded tag arrays. -/
abbrev tbArr (c : Dev nD) : Vec Ideal S512x512 .bf16 := V c main_v12
abbrev pgArr (c : Dev nD) : Vec Ideal S64x2048 .i32 := V c main_v6
abbrev ngArr (c : Dev nD) : Vec Ideal S64x2048 .i32 := V c main_v7
abbrev ppArr (c : Dev nD) : Vec Ideal S64x2048 .i32 := V c main_v10
abbrev npArr (c : Dev nD) : Vec Ideal S64x2048 .i32 := V c main_v11

/-- The blocks of those arrays that grid point `t` reads. -/
abbrev tbBlk (c : Dev nD) (t : Fin cfg1.N) : Vec Ideal S512x512 .bf16 := iblk1 V c 0 t
abbrev pgBlk (c : Dev nD) (t : Fin cfg1.N) : Vec Ideal S16x128 .i32 := iblk1 V c 1 t
abbrev ngBlk (c : Dev nD) (t : Fin cfg1.N) : Vec Ideal S16x128 .i32 := iblk1 V c 2 t
abbrev ppBlk (c : Dev nD) (t : Fin cfg1.N) : Vec Ideal S16x128 .i32 := iblk1 V c 3 t
abbrev npBlk (c : Dev nD) (t : Fin cfg1.N) : Vec Ideal S16x128 .i32 := iblk1 V c 4 t

/-- The printed index maps over the grid: point `t` is (t / 16, t % 16); the table's one block never moves, a tag
    block sits at (t / 16, t % 16), the accumulator's block at (t / 16, 0). -/
theorem idx_facts : ∀ t : Fin cfg1.N,
    win1_0.index t (0 : Fin 2) = 0 ∧ win1_0.index t (1 : Fin 2) = 0
    ∧ win1_1.index t (0 : Fin 2) = t.val / 16 ∧ win1_1.index t (1 : Fin 2) = t.val % 16
    ∧ win1_2.index t (0 : Fin 2) = t.val / 16 ∧ win1_2.index t (1 : Fin 2) = t.val % 16
    ∧ win1_3.index t (0 : Fin 2) = t.val / 16 ∧ win1_3.index t (1 : Fin 2) = t.val % 16
    ∧ win1_4.index t (0 : Fin 2) = t.val / 16 ∧ win1_4.index t (1 : Fin 2) = t.val % 16
    ∧ win1_5.index t (0 : Fin 2) = t.val / 16 ∧ win1_5.index t (1 : Fin 2) = 0 :=
  (by decide +kernel : ∀ t : Fin grid1.N, _)

/-- Batch row `16 (t / 16) + r`: row `r` of the blocks of point `t`. -/
def rowOf (t : Fin cfg1.N) (r : Fin 16) : Fin 64 :=
  ⟨16 * (t.val / 16) + r.val, by have := lt_of_lt_of_eq t.isLt (show cfg1.N = 64 from N_1); omega⟩

/-- The block of positions `t % 16` that point `t` reads. -/
def blkOf (t : Fin cfg1.N) : Fin 16 := ⟨t.val % 16, by omega⟩

theorem tbBlk_eq (c : Dev nD) (t : Fin cfg1.N) : tbBlk V c t = tbArr V c := by
  obtain ⟨e0, e1, -⟩ := idx_facts t
  funext y
  show V c main_v12 (((cfg1.win 0).blk t).view.emb y) = V c main_v12 y
  refine congrArg (V c main_v12) (funext fun a => Fin.ext ?_)
  match a with
  | ⟨0, _⟩ => show win1_0.index t (0 : Fin 2) * 512 + 1 * (y 0).val = (y 0).val; rw [e0]; omega
  | ⟨1, _⟩ => show win1_0.index t (1 : Fin 2) * 512 + 1 * (y 1).val = (y 1).val; rw [e1]; omega

theorem pgBlk_apply (c : Dev nD) (t : Fin cfg1.N) (r : Fin 16) (s : Fin 128) :
    pgBlk V c t (ix2 r s) = pgArr V c (ix2 (rowOf t r) (Cert.Spec.pos (blkOf t) s)) := by
  obtain ⟨-, -, e0, e1, -⟩ := idx_facts t
  show V c main_v6 (((cfg1.win 1).blk t).view.emb (ix2 r s)) = V c main_v6 (ix2 (rowOf t r) (Cert.Spec.pos (blkOf t) s))
  refine congrArg (V c main_v6) (funext fun a => Fin.ext ?_)
  match a with
  | ⟨0, _⟩ => show win1_1.index t (0 : Fin 2) * 16 + 1 * r.val = 16 * (t.val / 16) + r.val; rw [e0]; omega
  | ⟨1, _⟩ => show win1_1.index t (1 : Fin 2) * 128 + 1 * s.val = 128 * (t.val % 16) + s.val; rw [e1]; omega

theorem ngBlk_apply (c : Dev nD) (t : Fin cfg1.N) (r : Fin 16) (s : Fin 128) :
    ngBlk V c t (ix2 r s) = ngArr V c (ix2 (rowOf t r) (Cert.Spec.pos (blkOf t) s)) := by
  obtain ⟨-, -, -, -, e0, e1, -⟩ := idx_facts t
  show V c main_v7 (((cfg1.win 2).blk t).view.emb (ix2 r s)) = V c main_v7 (ix2 (rowOf t r) (Cert.Spec.pos (blkOf t) s))
  refine congrArg (V c main_v7) (funext fun a => Fin.ext ?_)
  match a with
  | ⟨0, _⟩ => show win1_2.index t (0 : Fin 2) * 16 + 1 * r.val = 16 * (t.val / 16) + r.val; rw [e0]; omega
  | ⟨1, _⟩ => show win1_2.index t (1 : Fin 2) * 128 + 1 * s.val = 128 * (t.val % 16) + s.val; rw [e1]; omega

theorem ppBlk_apply (c : Dev nD) (t : Fin cfg1.N) (r : Fin 16) (s : Fin 128) :
    ppBlk V c t (ix2 r s) = ppArr V c (ix2 (rowOf t r) (Cert.Spec.pos (blkOf t) s)) := by
  obtain ⟨-, -, -, -, -, -, e0, e1, -⟩ := idx_facts t
  show V c main_v10 (((cfg1.win 3).blk t).view.emb (ix2 r s)) = V c main_v10 (ix2 (rowOf t r) (Cert.Spec.pos (blkOf t) s))
  refine congrArg (V c main_v10) (funext fun a => Fin.ext ?_)
  match a with
  | ⟨0, _⟩ => show win1_3.index t (0 : Fin 2) * 16 + 1 * r.val = 16 * (t.val / 16) + r.val; rw [e0]; omega
  | ⟨1, _⟩ => show win1_3.index t (1 : Fin 2) * 128 + 1 * s.val = 128 * (t.val % 16) + s.val; rw [e1]; omega

theorem npBlk_apply (c : Dev nD) (t : Fin cfg1.N) (r : Fin 16) (s : Fin 128) :
    npBlk V c t (ix2 r s) = npArr V c (ix2 (rowOf t r) (Cert.Spec.pos (blkOf t) s)) := by
  obtain ⟨-, -, -, -, -, -, -, -, e0, e1, -⟩ := idx_facts t
  show V c main_v11 (((cfg1.win 4).blk t).view.emb (ix2 r s)) = V c main_v11 (ix2 (rowOf t r) (Cert.Spec.pos (blkOf t) s))
  refine congrArg (V c main_v11) (funext fun a => Fin.ext ?_)
  match a with
  | ⟨0, _⟩ => show win1_4.index t (0 : Fin 2) * 16 + 1 * r.val = 16 * (t.val / 16) + r.val; rw [e0]; omega
  | ⟨1, _⟩ => show win1_4.index t (1 : Fin 2) * 128 + 1 * s.val = 128 * (t.val % 16) + s.val; rw [e1]; omega

/-- Block `j`'s share of batch row `b`'s transition difference: the 128 offsets' predicted-minus-gold picks. -/
def rowTerm (c : Dev nD) (b : Fin 64) (j : Fin 16) : EReal :=
  ∑ s : Fin 128,
    (Cert.Spec.pickB (ppArr V c (ix2 b (Cert.Spec.pos j s))) (npArr V c (ix2 b (Cert.Spec.pos j s))) (tbArr V c)
      - Cert.Spec.pickB (pgArr V c (ix2 b (Cert.Spec.pos j s))) (ngArr V c (ix2 b (Cert.Spec.pos j s))) (tbArr V c))

theorem TD_eq (c : Dev nD) (b : Fin 64) :
    Cert.Spec.TD (V c main_v12) (V c main_v6) (V c main_v7) (V c main_v10) (V c main_v11) b = ∑ j : Fin 16, rowTerm V c b j := rfl

/-- Point `t` adds to row `r` of the accumulator its block's share of batch row `16 (t / 16) + r`. -/
theorem upd_blk (c : Dev nD) (t : Fin cfg1.N) (acc : Vec Ideal S16x1 .f32) (r : Fin 16) (b : Fin 64) (hb : b.val = 16 * (t.val / 16) + r.val)
    (j : Fin 16) (hj : j.val = t.val % 16) :
    upd (tbBlk V c t) (pgBlk V c t) (ngBlk V c t) (ppBlk V c t) (npBlk V c t) acc (ix2 r (0 : Fin 1))
      = acc (ix2 r (0 : Fin 1)) + rowTerm V c b j := by
  obtain rfl : b = rowOf t r := Fin.ext hb
  obtain rfl : j = blkOf t := Fin.ext hj
  unfold upd lanes
  refine (upd_apply (tbBlk V c t) (pgBlk V c t) (ngBlk V c t) (ppBlk V c t) (npBlk V c t) acc r).trans ?_
  refine congrArg (fun x => acc (ix2 r (0 : Fin 1)) + x) ?_
  unfold rowTerm
  refine Finset.sum_congr rfl fun s _ => ?_
  rw [pgBlk_apply V c t r s, ngBlk_apply V c t r s, ppBlk_apply V c t r s, npBlk_apply V c t r s, tbBlk_eq V c t]

/-! ## Sums over the blocks up to a given one -/

theorem sum_upto_zero (f : Fin 16 → EReal) (m : ℕ) (hm : m = 0) (j0 : Fin 16) (hj : j0.val = m) :
    ∑ j ∈ Finset.univ.filter (fun j : Fin 16 => j.val ≤ m), f j = f j0 := by
  subst hm
  have e : Finset.univ.filter (fun j : Fin 16 => j.val ≤ 0) = {j0} := by
    ext j
    simp only [Finset.mem_filter, Finset.mem_univ, true_and, Finset.mem_singleton, Fin.ext_iff]
    omega
  rw [e, Finset.sum_singleton]

theorem sum_upto_succ (f : Fin 16 → EReal) (m : ℕ) (j0 : Fin 16) (hj : j0.val = m + 1) :
    ∑ j ∈ Finset.univ.filter (fun j : Fin 16 => j.val ≤ m + 1), f j
      = ∑ j ∈ Finset.univ.filter (fun j : Fin 16 => j.val ≤ m), f j + f j0 := by
  have e : Finset.univ.filter (fun j : Fin 16 => j.val ≤ m + 1) = insert j0 (Finset.univ.filter (fun j : Fin 16 => j.val ≤ m)) := by
    ext j
    simp only [Finset.mem_filter, Finset.mem_univ, true_and, Finset.mem_insert, Fin.ext_iff]
    omega
  rw [e, Finset.sum_insert (by simp only [Finset.mem_filter, Finset.mem_univ, true_and]; omega), add_comm]

theorem sum_upto_all (f : Fin 16 → EReal) (m : ℕ) (hm : 15 ≤ m) :
    ∑ j ∈ Finset.univ.filter (fun j : Fin 16 => j.val ≤ m), f j = ∑ j : Fin 16, f j := by
  rw [Finset.filter_true_of_mem]
  intro j _
  have := j.isLt
  omega

/-! ## The accumulator after each point -/

/-- After point `n`, row `r` of the accumulator block holds the shares of the blocks `j ≤ n % 16` of batch row
    `16 (n / 16) + r` — by induction on the point. -/
theorem outsAt_row (c : Dev nD) : ∀ (n : ℕ) (h : n < cfg1.N) (r : Fin 16) (b : Fin 64), b.val = 16 * (n / 16) + r.val →
    outsAt1 V c n h (ix2 r (0 : Fin 1)) = ∑ j ∈ Finset.univ.filter (fun j : Fin 16 => j.val ≤ n % 16), rowTerm V c b j
  | 0, h, r, b, hb => by
    have h0 : (⟨0, h⟩ : Fin cfg1.N).val % 16 = 0 := rfl
    rw [outsAt1_A V c ⟨0, h⟩ h0]
    refine (congrFun (out_A (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) ((hcond1_0 ⟨0, h⟩).mpr h0)
      (tbBlk V c ⟨0, h⟩) (pgBlk V c ⟨0, h⟩) (ngBlk V c ⟨0, h⟩) (ppBlk V c ⟨0, h⟩) (npBlk V c ⟨0, h⟩)) (ix2 r (0 : Fin 1))).trans ?_
    refine (upd_blk V c ⟨0, h⟩ zeroBlk r b hb (0 : Fin 16) rfl).trans ?_
    rw [sum_upto_zero _ (0 % 16) rfl (0 : Fin 16) rfl]
    show Ideal.ofBits .f32 0x00000000#32 + _ = _
    rw [Ideal.ofBits_zero_f32, zero_add]
  | n + 1, h, r, b, hb => by
    have hN : n + 1 < 64 := lt_of_lt_of_eq h (show cfg1.N = 64 from N_1)
    by_cases h0 : (n + 1) % 16 = 0
    · have h0' : (⟨n + 1, h⟩ : Fin cfg1.N).val % 16 = 0 := h0
      rw [outsAt1_A V c ⟨n + 1, h⟩ h0']
      refine (congrFun (out_A (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) ((hcond1_0 ⟨n + 1, h⟩).mpr h0')
        (tbBlk V c ⟨n + 1, h⟩) (pgBlk V c ⟨n + 1, h⟩) (ngBlk V c ⟨n + 1, h⟩) (ppBlk V c ⟨n + 1, h⟩) (npBlk V c ⟨n + 1, h⟩)) (ix2 r (0 : Fin 1))).trans ?_
      refine (upd_blk V c ⟨n + 1, h⟩ zeroBlk r b hb (0 : Fin 16) h0.symm).trans ?_
      rw [sum_upto_zero _ ((n + 1) % 16) h0 (0 : Fin 16) h0.symm]
      show Ideal.ofBits .f32 0x00000000#32 + _ = _
      rw [Ideal.ofBits_zero_f32, zero_add]
    · have h0' : ¬(⟨n + 1, h⟩ : Fin cfg1.N).val % 16 = 0 := h0
      rw [outsAt1_B V c ⟨n + 1, h⟩ h0']
      refine (congrFun (out_B (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (fun hh => h0' ((hcond1_0 ⟨n + 1, h⟩).mp hh))
        (tbBlk V c ⟨n + 1, h⟩) (pgBlk V c ⟨n + 1, h⟩) (ngBlk V c ⟨n + 1, h⟩) (ppBlk V c ⟨n + 1, h⟩) (npBlk V c ⟨n + 1, h⟩)
        (outsAt1 V c ((⟨n + 1, h⟩ : Fin cfg1.N).val - 1) (Nat.lt_of_le_of_lt (Nat.sub_le _ _) (⟨n + 1, h⟩ : Fin cfg1.N).isLt))) (ix2 r (0 : Fin 1))).trans ?_
      have hj : (n + 1) % 16 < 16 := Nat.mod_lt _ (by omega)
      refine (upd_blk V c ⟨n + 1, h⟩ _ r b hb ⟨(n + 1) % 16, hj⟩ rfl).trans ?_
      show outsAt1 V c n (Nat.lt_of_succ_lt h) (ix2 r (0 : Fin 1)) + _ = _
      rw [outsAt_row c n (Nat.lt_of_succ_lt h) r b (by omega)]
      have hm : (n + 1) % 16 = n % 16 + 1 := by omega
      refine (sum_upto_succ (rowTerm V c b) (n % 16) ⟨(n + 1) % 16, hj⟩ hm).symm.trans ?_
      rw [← hm]

/-! ## The write-backs and the result array -/

/-- What the result array ends holding: row `b` at batch row `b`'s transition difference. -/
abbrev result (c : Dev nD) : S64x1.Idx → EReal :=
  fun i => Cert.Spec.TD (V c main_v12) (V c main_v6) (V c main_v7) (V c main_v10) (V c main_v11) (i 0)

/-- The write-back at the last point of a row of the grid writes rows 16 (t / 16) .. 16 (t / 16) + 15 of the result. -/
theorem flushed_eq (c : Dev nD) (t : Fin cfg1.N) (hf : (cfg1.win 5).flush t = true) :
    (dat1 (F := Ideal) V c).flushed 5 t = ((cfg1.win 5).blk t).view.read (Elt Ideal) (result V c) := by
  have hN : t.val < 64 := lt_of_lt_of_eq t.isLt (show cfg1.N = 64 from N_1)
  have h15 : t.val % 16 = 15 := (flush1_5 t).mp hf
  obtain ⟨-, -, -, -, -, -, -, -, -, -, e0, e1⟩ := idx_facts t
  show (cfg1.win 5).cut (grid1.coords t) ((dat1 (F := Ideal) V c).after 5 t) = _
  rw [after1_5]
  funext y
  obtain ⟨r, z, rfl⟩ : ∃ (r : Fin 16) (z : Fin 1), y = ix2 r z := ⟨y 0, y 1, eq_ix2 y⟩
  obtain rfl : z = 0 := Subsingleton.elim _ _
  show outsAt1 V c t.val t.isLt (ix2 r (0 : Fin 1)) = result V c (((cfg1.win 5).blk t).view.emb (ix2 r (0 : Fin 1)))
  rw [outsAt_row V c t.val t.isLt r (rowOf t r) rfl, sum_upto_all _ _ (by omega)]
  have hrow : (((cfg1.win 5).blk t).view.emb (ix2 r (0 : Fin 1))) 0 = rowOf t r :=
    Fin.ext (show win1_5.index t (0 : Fin 2) * 16 + 1 * r.val = 16 * (t.val / 16) + r.val by rw [e0]; omega)
  show _ = Cert.Spec.TD (V c main_v12) (V c main_v6) (V c main_v7) (V c main_v10) (V c main_v11) ((((cfg1.win 5).blk t).view.emb (ix2 r (0 : Fin 1))) 0)
  rw [hrow, TD_eq]

/-- The last point of the row of the grid that holds batch row `b`. -/
def lastOf (b : Fin 64) : Fin cfg1.N := ⟨16 * (b.val / 16) + 15, by rw [show cfg1.N = 64 from N_1]; omega⟩

/-- What the second pallas_call leaves in its [64, 1] result array: row `b` holds the predicted-minus-gold sum of the
    transition potentials of batch row `b`. -/
theorem arr (c : Dev nD) :
    (dat1 (F := Ideal) V c).arrAt 5 cfg1.N
      = fun i => Cert.Spec.TD (V c main_v12) (V c main_v6) (V c main_v7) (V c main_v10) (V c main_v11) (i 0) :=
  (dat1 (F := Ideal) V c).arrAt_eq_of_cover 5 (result V c) (flushed_eq V c) fun i => by
    have hi0 : (i 0 : Nat) < 64 := (i 0).isLt
    have hi1 : (i 1 : Nat) < 1 := (i 1).isLt
    obtain ⟨-, -, -, -, -, -, -, -, -, -, e0, e1⟩ := idx_facts (lastOf (i 0))
    have hv : (lastOf (i 0)).val = 16 * ((i 0 : Nat) / 16) + 15 := rfl
    refine ⟨lastOf (i 0), (flush1_5 _).mpr (by rw [hv]; omega), ?_⟩
    show i ∈ ((View.whole main_v13).slice (win1_5.rect (lastOf (i 0)))).set
    rw [View.set_slice_whole, Rect.mem_set_unit]
    intro a
    match a with
    | ⟨0, _⟩ =>
      show win1_5.index (lastOf (i 0)) (0 : Fin 2) * 16 ≤ (i 0 : Nat) ∧ (i 0 : Nat) < win1_5.index (lastOf (i 0)) (0 : Fin 2) * 16 + 16
      rw [e0, hv]; omega
    | ⟨1, _⟩ =>
      show win1_5.index (lastOf (i 0)) (1 : Fin 2) * 1 ≤ (i 1 : Nat) ∧ (i 1 : Nat) < win1_5.index (lastOf (i 0)) (1 : Fin 2) * 1 + 1
      rw [e1]; omega

end Cert.KernelIdeal.Region1

end
-- ==== Proof.Algebra.lean ====
/-
  The algebra of the structured-perceptron margin loss: with finite real potentials and tags in the label range,
  the loss computed from the per-row unary and transition differences (lane compares, one-hot row products,
  16 blocks of 128 positions, padded shifted tag arrays) equals the reference loss (indexing, 2048 positions and
  2047 transitions).

  Road: a lane number equals an in-range tag word exactly at the tag's own lane, and never equals the pad word;
  so every lane sum collapses to one entry. The 16 x 128 block sum is the sum over the 2048 positions, and the padded
  last position contributes zero. Everything is then a coercion of a real expression, where the difference of sums
  is the sum of differences.
-/
import proofs.«407784_j37417755083582_3_alg».proof.Proof.Spec
import Mathlib.Data.EReal.Operations
import Mathlib.Algebra.BigOperators.Fin
import Mathlib.Tactic.Ring

noncomputable section

namespace Cert.Spec

open Idealize.ShloMosaic Idealize.ShloMosaic.ValueIdx

/-! ## Lane compares collapse to one entry -/

open Finset

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem toNat_lt_of_range {k : BitVec 32} (h : 0 ≤ k.toInt ∧ k.toInt < 512) : k.toNat < 512 := by
  have := BitVec.toInt_eq_toNat_cond k
  split_ifs at this <;> omega

theorem ofNat_eq_iff (t : Fin 512) {k : BitVec 32} (h : k.toNat < 512) :
    BitVec.ofNat 32 t.val = k ↔ t = tagIx k := by
  rw [← BitVec.toNat_inj, BitVec.toNat_ofNat, Fin.ext_iff]
  simp only [tagIx]
  have := t.isLt
  omega

theorem ofNat_ne_pad (t : Fin 512) : ¬ (BitVec.ofNat 32 t.val = 0xFFFFFFFF#32) := by
  rw [← BitVec.toNat_inj, BitVec.toNat_ofNat]
  have := t.isLt
  simp only [BitVec.toNat_ofNat]
  omega

theorem selU_coe (f' : Fin 512 → ℝ) {k : BitVec 32} (h : k.toNat < 512) (t : Fin 512) :
    selU k (fun t => (f' t : EReal)) t = ((if t = tagIx k then f' t else 0 : ℝ) : EReal) := by
  simp only [selU, ofNat_eq_iff _ h]
  split_ifs <;> simp

theorem diffU_coe (f' : Fin 512 → ℝ) {p g : BitVec 32} (hp : p.toNat < 512) (hg : g.toNat < 512) :
    diffU p g (fun t => (f' t : EReal)) = ((f' (tagIx p) - f' (tagIx g) : ℝ) : EReal) := by
  unfold diffU
  simp only [selU_coe f' hp, selU_coe f' hg, ← EReal.coe_sub, ← coe_sum]
  rw [Finset.sum_sub_distrib, Finset.sum_ite_eq', Finset.sum_ite_eq']
  simp

theorem oneHot_eq {k : BitVec 32} (h : k.toNat < 512) (t : Fin 512) :
    oneHot k t = if t = tagIx k then 1 else 0 := by
  simp only [oneHot, ofNat_eq_iff _ h]

theorem pickB_in (bin : SB.Idx → EReal) {p n : BitVec 32} (hp : p.toNat < 512) (hn : n.toNat < 512) :
    pickB p n bin = bin (ix2 (tagIx p) (tagIx n)) := by
  unfold pickB
  simp only [oneHot_eq hp, ofNat_eq_iff _ hn, ite_mul, one_mul, zero_mul]
  rw [Finset.sum_ite_eq']
  simp only [Finset.mem_univ, if_true]
  rw [Finset.sum_ite_eq']
  simp only [Finset.mem_univ, if_true]

theorem pickB_pad (bin : SB.Idx → EReal) (p : BitVec 32) :
    pickB p 0xFFFFFFFF#32 bin = 0 := by
  unfold pickB
  simp only [ofNat_ne_pad, if_false, Finset.sum_const_zero]

/-! ## Reindexing the 16 x 128 block sum, and the padded last position -/

/-- The block/offset pair of a position. -/
def posEquiv : Fin 16 × Fin 128 ≃ Fin 2048 where
  toFun x := pos x.1 x.2
  invFun s := (⟨s.val / 128, by omega⟩, ⟨s.val % 128, by omega⟩)
  left_inv := by
    rintro ⟨j, s⟩
    simp only [pos, Prod.mk.injEq, Fin.ext_iff]
    constructor <;> omega
  right_inv := by
    intro s
    simp only [pos, Fin.ext_iff]
    omega

theorem sum_pos {M : Type*} [AddCommMonoid M] (F : Fin 2048 → M) :
    ∑ j : Fin 16, ∑ s : Fin 128, F (pos j s) = ∑ s, F s := by
  rw [← Fintype.sum_prod_type' (fun j s => F (pos j s))]
  exact Fintype.sum_equiv posEquiv _ _ (fun _ => rfl)

theorem sum_trunc {M : Type*} [AddCommMonoid M] (g : (s : Fin 2048) → s.val < 2047 → M) :
    ∑ s : Fin 2048, (if h : s.val < 2047 then g s h else 0) = ∑ s : Fin 2047, g s.castSucc s.isLt := by
  rw [Fin.sum_univ_castSucc]
  simp

/-! ## The two scores over the reals -/

/-- Sum of the unary potentials picked by the tag sequence `x` in batch row `b`. -/
def uSum (u' : SU.Idx → ℝ) (x : ST.Idx → BitVec 32) (b : Fin 64) : ℝ :=
  ∑ s : Fin 2048, u' (ix3 b s (tagIx (x (ix2 b s))))

/-- Sum of the transition potentials picked by the tag sequence `x` in batch row `b`. -/
def bSum (bin' : SB.Idx → ℝ) (x : ST.Idx → BitVec 32) (b : Fin 64) : ℝ :=
  ∑ s : Fin 2047, bin' (ix2 (tagIx (x (ix2 b s.castSucc))) (tagIx (x (ix2 b s.succ))))

theorem rscore_coe (u : SU.Idx → EReal) (bin : SB.Idx → EReal) (u' : SU.Idx → ℝ) (bin' : SB.Idx → ℝ)
    (hu : ∀ i, u i = (u' i : EReal)) (hb : ∀ i, bin i = (bin' i : EReal))
    (x : ST.Idx → BitVec 32) (b : Fin 64) :
    RScore u bin x b = ((uSum u' x b + bSum bin' x b : ℝ) : EReal) := by
  unfold RScore uSum bSum
  simp only [hu, hb]
  rw [EReal.coe_add, coe_sum, coe_sum]

theorem ud_coe (u : SU.Idx → EReal) (u' : SU.Idx → ℝ) (hu : ∀ i, u i = (u' i : EReal))
    (tg pt : ST.Idx → BitVec 32) (htg : InRange tg) (hpt : InRange pt) (b : Fin 64) :
    UD u tg pt b = ((uSum u' pt b - uSum u' tg b : ℝ) : EReal) := by
  have key : ∀ s : Fin 2048, diffU (pt (ix2 b s)) (tg (ix2 b s)) (fun t => u (ix3 b s t))
      = ((u' (ix3 b s (tagIx (pt (ix2 b s)))) - u' (ix3 b s (tagIx (tg (ix2 b s)))) : ℝ) : EReal) := by
    intro s
    have e : (fun t => u (ix3 b s t)) = fun t => ((u' (ix3 b s t) : ℝ) : EReal) := funext fun t => hu _
    rw [e]
    exact diffU_coe (fun t => u' (ix3 b s t)) (toNat_lt_of_range (hpt _)) (toNat_lt_of_range (htg _))
  unfold UD
  rw [sum_pos (fun s => diffU (pt (ix2 b s)) (tg (ix2 b s)) (fun t => u (ix3 b s t)))]
  simp only [key]
  rw [← coe_sum, Finset.sum_sub_distrib]
  rfl

theorem pickB_shift (bin : SB.Idx → EReal) (bin' : SB.Idx → ℝ) (hb : ∀ i, bin i = (bin' i : EReal))
    (x pv nx : ST.Idx → BitVec 32) (hx : InRange x) (hpv : IsPrev x pv) (hnx : IsNext x nx)
    (b : Fin 64) (s : Fin 2048) :
    pickB (pv (ix2 b s)) (nx (ix2 b s)) bin
      = ((if h : s.val < 2047 then
            bin' (ix2 (tagIx (x (ix2 b s))) (tagIx (x (ix2 b ⟨s.val + 1, by omega⟩)))) else 0 : ℝ) : EReal) := by
  rw [hpv b s, hnx b s]
  by_cases h : s.val < 2047
  · rw [if_pos h, dif_pos h, dif_pos h,
      pickB_in bin (toNat_lt_of_range (hx _)) (toNat_lt_of_range (hx _)), hb]
  · rw [if_neg h, dif_neg h, dif_neg h, pickB_pad, EReal.coe_zero]

theorem td_coe (bin : SB.Idx → EReal) (bin' : SB.Idx → ℝ) (hb : ∀ i, bin i = (bin' i : EReal))
    (tg pt pg ng pp np : ST.Idx → BitVec 32) (htg : InRange tg) (hpt : InRange pt)
    (hpg : IsPrev tg pg) (hng : IsNext tg ng) (hpp : IsPrev pt pp) (hnp : IsNext pt np) (b : Fin 64) :
    TD bin pg ng pp np b = ((bSum bin' pt b - bSum bin' tg b : ℝ) : EReal) := by
  unfold TD
  rw [sum_pos (fun s => pickB (pp (ix2 b s)) (np (ix2 b s)) bin - pickB (pg (ix2 b s)) (ng (ix2 b s)) bin)]
  simp only [pickB_shift bin bin' hb pt pp np hpt hpp hnp b, pickB_shift bin bin' hb tg pg ng htg hpg hng b,
    ← EReal.coe_sub, ← coe_sum]
  rw [Finset.sum_sub_distrib, sum_trunc, sum_trunc]
  rfl

theorem kspec_eq_rspec (u : SU.Idx → EReal) (bin : SB.Idx → EReal) (tg pt pg ng pp np : ST.Idx → BitVec 32)
    (hu : ∀ i, ∃ r : ℝ, u i = (r : EReal)) (hb : ∀ i, ∃ r : ℝ, bin i = (r : EReal))
    (htg : InRange tg) (hpt : InRange pt)
    (hpg : IsPrev tg pg) (hng : IsNext tg ng) (hpp : IsPrev pt pp) (hnp : IsNext pt np) :
    KSpec u bin tg pt pg ng pp np = RSpec u bin tg pt := by
  choose u' hu' using hu
  choose bin' hb' using hb
  unfold KSpec RSpec
  refine Finset.sum_congr rfl fun b _ => ?_
  rw [ud_coe u u' hu' tg pt htg hpt b, td_coe bin bin' hb' tg pt pg ng pp np htg hpt hpg hng hpp hnp b,
    rscore_coe u bin u' bin' hu' hb' pt b, rscore_coe u bin u' bin' hu' hb' tg b,
    ← EReal.coe_add, ← EReal.coe_sub]
  congr 2
  ring

end Cert.Spec

end
-- ==== Proof.LibGather2.lean ====
/-
  Two readings of stablehlo.gather at an index, for any extents.

  `gather_rows`: whole rows of a rank-2 table [N, C] taken at an [E, 1] column of start ids (what `table[ids]` lowers
  to): entry (e, c) of the result is the table at row clamp(ids e) and column c, where the id is read as a signed
  word and clamped into [0, N − 1].
  `gather_pairs`: single entries of a rank-2 table [N, R] taken at an [E, 2] matrix of (row, column) ids (what
  `table[i, j]` lowers to): entry e of the result is the table at (clamp(i e), clamp(j e)), each id clamped into
  its own axis.
-/
import Idealize.ShloMosaic.PureOps.ShapeOps
import Idealize.ShloMosaic.PureOps.Dims
import Idealize.ShloMosaic.Lib.ValueIdx

namespace IndexOpsLib

open Idealize.ShloMosaic Idealize.ShloMosaic.ValueIdx

/-- A start id read signed and clamped into [0, N − 1]. -/
def clampRow (N : Nat) (hN : 0 < N) {w : Nat} (v : BitVec w) : Fin N := ⟨min v.toInt.toNat (N - 1), by omega⟩

theorem gather_rows {α : Type} {N C E w : Nat} (hN : 0 < N)
    (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (c : Fin C) :
    Host.gather d x idx (ix2 e c) = x (ix2 (clampRow N hN (idx (ix2 e (0 : Fin 1)))) c) := by
  -- a batch axis of the result is not its offset axis 1, so it is axis 0, where the index holds e
  have hbatch : ∀ X : Fin 2, X ∈ d.batchDims → ((ix2 e c : (⟨2, ![E, C]⟩ : Shape).Idx) X).val = e.val := by
    intro X hX
    have hX' : X ∉ d.offsetDims := by
      have := (List.mem_filter.1 hX).2
      simpa using this
    rw [hoff] at hX'
    match X with
    | ⟨0, _⟩ => rfl
    | ⟨1, _⟩ => exact absurd (List.mem_singleton.mpr rfl) hX'
  -- an offset axis of the result is axis 1, where the index holds c
  have hoffs : ∀ X : Fin 2, X ∈ d.offsetDims → ((ix2 e c : (⟨2, ![E, C]⟩ : Shape).Idx) X).val = c.val := by
    intro X hX
    rw [hoff] at hX
    have hX1 : X = 1 := List.mem_singleton.mp hX
    subst hX1; rfl
  have hb : ∀ a : Fin 2, a ∉ d.operandBatchingDims := fun a => by rw [hob]; exact List.not_mem_nil
  -- operand axis 0: collapsed and start-indexed, the clamped id
  have h0 : (d.operandIdx (ix2 e c) idx (0 : Fin 2)).val = (clampRow N hN (idx (ix2 e (0 : Fin 1)))).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 e 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact hbatch _ (List.getElem_mem _)
    | ⟨1, _⟩ =>
      unfold GatherDims.siIdx
      rw [dif_pos (by rw [hivd])]
      apply Fin.ext
      show List.idxOf (0 : Fin 2) d.startIndexMap = 0
      rw [hsim]; simp
  -- operand axis 1: an offset axis with no start index, the result's column
  have h1 : (d.operandIdx (ix2 e c) idx (1 : Fin 2)).val = c.val := by
    have hk : (1 : Fin 2) ∈ d.sKept := by rw [GatherDims.mem_sKept, hcoll, hob]; simp
    have hm : (1 : Fin 2) ∉ d.startIndexMap := by rw [hsim]; simp
    simp only [GatherDims.operandIdx, GatherDims.batchCoord_eq_zero _ _ _ (hb 1), GatherDims.start, dif_neg hm,
      GatherDims.offCoord, dif_pos hk, Nat.add_zero, Nat.zero_add]
    exact hoffs _ (List.getElem_mem _)
  unfold Host.gather
  congr 1
  funext a
  match a with
  | ⟨0, _⟩ => exact Fin.ext h0
  | ⟨1, _⟩ => exact Fin.ext h1

theorem gather_pairs {α : Type} {N R E w : Nat} (hN : 0 < N) (hR : 0 < R)
    (d : GatherDims ⟨2, ![N, R]⟩ ⟨2, ![E, 2]⟩ ⟨1, ![E]⟩)
    (hoff : d.offsetDims = []) (hcoll : d.collapsedSliceDims = [0, 1]) (hob : d.operandBatchingDims = [])
    (hsim : d.startIndexMap = [0, 1]) (hivd : d.indexVectorDim = 1)
    (x : (⟨2, ![N, R]⟩ : Shape).Idx → α) (idx : IVec ⟨2, ![E, 2]⟩ w) (e : Fin E) :
    Host.gather d x idx (ix1 e)
      = x (ix2 (clampRow N hN (idx (ix2 e (0 : Fin 2)))) (clampRow R hR (idx (ix2 e (1 : Fin 2))))) := by
  -- the result's one axis holds e
  have hj : ∀ X : Fin 1, ((ix1 e : (⟨1, ![E]⟩ : Shape).Idx) X).val = e.val := fun X => by
    have hX : X = 0 := Subsingleton.elim _ _
    subst hX; rfl
  have hb : ∀ a : Fin 2, a ∉ d.operandBatchingDims := fun a => by rw [hob]; exact List.not_mem_nil
  -- both operand axes are collapsed, so neither is kept
  have hc : ∀ a : Fin 2, a ∈ d.collapsedSliceDims := fun a => by
    rw [hcoll]
    match a with
    | ⟨0, _⟩ => exact List.mem_cons_self
    | ⟨1, _⟩ => exact List.mem_cons_of_mem _ (List.mem_singleton.mpr rfl)
  have hk : ∀ a : Fin 2, a ∉ d.sKept := fun a h => ((d.mem_sKept a).1 h).1 (hc a)
  have hsl : ∀ a : Fin 2, d.sliceSizes a = 1 := fun a => d.slice_collapsed a (hc a)
  -- component k of the start index of result entry e is read at (e, k)
  have hsi : ∀ (n : Nat) (hn : n < d.startIndexMap.length) (k : Fin 2), n = k.val →
      d.siIdx (ix1 e) ⟨n, hn⟩ = ix2 e k := by
    intro n hn k hnk
    funext b
    match b with
    | ⟨0, _⟩ =>
      unfold GatherDims.siIdx
      rw [dif_neg (by rw [hivd]; simp)]
      unfold GatherDims.siCoord
      apply Fin.ext
      simp only [Fin.val_cast]
      exact hj _
    | ⟨1, _⟩ =>
      unfold GatherDims.siIdx
      rw [dif_pos (by rw [hivd])]
      apply Fin.ext
      exact hnk
  -- operand axis 0: the clamped row id
  have h0 : (d.operandIdx (ix1 e) idx (0 : Fin 2)).val = (clampRow N hN (idx (ix2 e (0 : Fin 2)))).val := by
    have hm : (0 : Fin 2) ∈ d.startIndexMap := by rw [hsim]; exact List.mem_cons_self
    have hi : List.idxOf (0 : Fin 2) d.startIndexMap = (0 : Fin 2).val := by rw [hsim]; simp
    simp only [GatherDims.operandIdx, GatherDims.batchCoord_eq_zero _ _ _ (hb 0), GatherDims.offCoord_eq_zero _ _ _ (hk 0),
      Nat.add_zero, GatherDims.start, dif_pos hm]
    show min (idx _).toInt.toNat (N - d.sliceSizes 0) = min (idx (ix2 e 0)).toInt.toNat (N - 1)
    rw [hsl 0, hsi _ _ 0 hi]
  -- operand axis 1: the clamped column id
  have h1 : (d.operandIdx (ix1 e) idx (1 : Fin 2)).val = (clampRow R hR (idx (ix2 e (1 : Fin 2)))).val := by
    have hm : (1 : Fin 2) ∈ d.startIndexMap := by rw [hsim]; exact List.mem_cons_of_mem _ (List.mem_singleton.mpr rfl)
    have hi : List.idxOf (1 : Fin 2) d.startIndexMap = (1 : Fin 2).val := by rw [hsim]; simp
    simp only [GatherDims.operandIdx, GatherDims.batchCoord_eq_zero _ _ _ (hb 1), GatherDims.offCoord_eq_zero _ _ _ (hk 1),
      Nat.add_zero, GatherDims.start, dif_pos hm]
    show min (idx _).toInt.toNat (R - d.sliceSizes 1) = min (idx (ix2 e 1)).toInt.toNat (R - 1)
    rw [hsl 1, hsi _ _ 1 hi]
  unfold Host.gather
  congr 1
  funext a
  match a with
  | ⟨0, _⟩ => exact Fin.ext h0
  | ⟨1, _⟩ => exact Fin.ext h1

end IndexOpsLib
-- ==== Proof.RefWords.lean ====
/-
  Word facts for the reference's index handling, for a tag word in the label range [0, 512):
  the negative-index normalisation (add 512 where the word is negative) leaves it alone, the in-bounds test
  0 ≤ w ≤ 511 is true, a clamp into [0, 511] is the tag's own lane, and an and-reduction of ones from one is one.
-/
import proofs.«407784_j37417755083582_3_alg».proof.Proof.Algebra
import Idealize.ShloMosaic.Lib.StableHlo.Predicate
import Idealize.ShloMosaic.Lib.ReduceAll
import proofs.«407784_j37417755083582_3_alg».proof.Proof.LibGather2

namespace Cert.ReferenceIdeal.RefBridge

open Idealize.ShloMosaic Idealize.ShloMosaic.StableHlo

/-- The normalisation of a possibly negative index is the identity on a tag in range. -/
theorem normalise_eq {w : BitVec 32} (h : w.toNat < 512) :
    Scalar.select (IntOp.cmpi .slt w 0#32) (IntOp.addi w 512#32) w = w := by
  unfold Scalar.select
  rw [if_neg]
  intro hc
  have := (Predicate.slt_iff_toNat (a := w) (b := 0#32) (by omega) (by decide)).1 hc
  simp at this

/-- The in-bounds test of a tag in range is true. -/
theorem inBounds_eq {w : BitVec 32} (h : w.toNat < 512) :
    IntOp.andi (IntOp.cmpi .sge w 0#32) (IntOp.cmpi .sle w 511#32) = 1#1 := by
  rw [IntOp.andi_eq_one]
  refine ⟨(Predicate.sge_iff_toNat (by omega) (by decide)).2 (by simp), (Predicate.sle_iff_toNat (by omega) (by decide)).2 ?_⟩
  show w.toNat ≤ 511
  omega

/-- A tag in range, read signed and clamped into [0, 511], is its own value. -/
theorem clamp_val_eq {w : BitVec 32} (h : w.toNat < 512) : min w.toInt.toNat (512 - 1) = (Cert.Spec.tagIx w).val := by
  rw [Predicate.toInt_eq_toNat_of_lt (by omega), Int.toNat_natCast]
  show min w.toNat 511 = w.toNat % 512
  omega

/-- The clamp of a tag in range into the 512 lanes is the tag's own lane. -/
theorem clampRow_eq_tagIx {w : BitVec 32} (h : w.toNat < 512) (hN : 0 < 512) :
    IndexOpsLib.clampRow 512 hN w = Cert.Spec.tagIx w :=
  Fin.ext (clamp_val_eq h)

/-- An and-fold of ones from one is one. -/
theorem foldl_andi_ones {ι : Type} (f : ι → BitVec 1) (l : List ι) (hf : ∀ n ∈ l, f n = 1#1) :
    l.foldl (fun r n => IntOp.andi r (f n)) 1#1 = 1#1 := by
  induction l with
  | nil => rfl
  | cons a l ih =>
    rw [List.foldl_cons, hf a List.mem_cons_self]
    exact ih fun n hn => hf n (List.mem_cons_of_mem _ hn)

/-- An and-reduction of an array of ones, from the initial value one, is one everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x _ fun n _ => hx n

end Cert.ReferenceIdeal.RefBridge
-- ==== Proof.LibGather3.lean ====
/-
  Two more readings of stablehlo.gather at an index, for any extents.

  `gather_along`: one entry per (b, s) of a rank-3 table [B, S, T] taken along its last axis at a [B, S, 1, 1] array of
  start ids, the first two axes batching (what `take_along_axis(table, ids[..., None], axis = 2)` lowers to): entry
  (b, s, 0) of the result is the table at (b, s, clamp(ids b s)), the id read signed and clamped into [0, T − 1].
  `gather_pairs3`: single entries of a rank-2 table [N, R] taken at a [B, S, 2] array of (row, column) ids (what
  `table[i, j]` lowers to for rank-2 i and j): entry (b, s) of the result is the table at (clamp(i b s), clamp(j b s)),
  each id clamped into its own axis.
  Both rest on two general facts: the coordinate a result index gives a start-indices axis (`siCoord_val`) and the
  batching coordinate on an operand batching axis (`batchCoord_val`) are coordinates of the result index, on the batch
  axis the dimension numbers' lists name.
-/
import Idealize.ShloMosaic.PureOps.ShapeOps
import Idealize.ShloMosaic.PureOps.Dims
import Idealize.ShloMosaic.Lib.ValueIdx
import proofs.«407784_j37417755083582_3_alg».proof.Proof.LibGather2

namespace IndexOpsLib3

open Idealize.ShloMosaic Idealize.ShloMosaic.ValueIdx IndexOpsLib

section General

variable {s si t : Shape} (d : GatherDims s si t)

/-- The coordinate a result index gives a start-indices axis is the result's coordinate on the batch axis in that
    axis's position. -/
theorem siCoord_val (j : t.Idx) (b : Fin si.rank) (hb : b ∈ d.siKept) (X : Fin t.rank)
    (hX : d.batchDims[d.siKept.idxOf b]? = some X) : (d.siCoord j b hb).val = (j X).val := by
  have hp : d.siKept.idxOf b < d.batchDims.length := by rw [d.batch_length]; exact List.idxOf_lt_length_iff.2 hb
  have e : d.batchDims[d.siKept.idxOf b]'hp = X := (List.getElem_eq_iff hp).2 hX
  unfold GatherDims.siCoord
  simp only [Fin.val_cast]
  rw [e]

/-- The batching coordinate on an operand batching axis is the result's coordinate on the batch axis paired with it. -/
theorem batchCoord_val (j : t.Idx) (a : Fin s.rank) (ha : a ∈ d.operandBatchingDims) (c : Fin si.rank)
    (hc : d.startIndicesBatchingDims[d.operandBatchingDims.idxOf a]? = some c) (X : Fin t.rank)
    (hX : d.batchDims[d.siKept.idxOf c]? = some X) : d.batchCoord j a = (j X).val := by
  have key : ∀ (c' : Fin si.rank) (hc' : c' ∈ d.siKept), c' = c → (d.siCoord j c' hc').val = (j X).val := by
    intro c' hc' e
    subst e
    exact siCoord_val d j _ hc' X hX
  have hp : d.operandBatchingDims.idxOf a < d.startIndicesBatchingDims.length := by
    rw [← d.ob_length]; exact List.idxOf_lt_length_iff.2 ha
  unfold GatherDims.batchCoord
  rw [dif_pos ha]
  exact key _ _ ((List.getElem_eq_iff hp).2 hc)

end General

/-- In range, the clamp is the id itself. -/
theorem clampRow_of_range {N w : Nat} (hN : 0 < N) (v : BitVec w) (h0 : 0 ≤ v.toInt) (h1 : v.toInt < N) :
    (clampRow N hN v).val = v.toNat := by
  have e : v.toInt = (v.toNat : Int) := by
    unfold BitVec.toInt at h0 ⊢
    split at h0 <;> omega
  show min v.toInt.toNat (N - 1) = v.toNat
  omega

theorem gather_along {α : Type} {B S T w : Nat} (hT : 0 < T)
    (d : GatherDims ⟨3, ![B, S, T]⟩ ⟨4, ![B, S, 1, 1]⟩ ⟨3, ![B, S, 1]⟩)
    (hoff : d.offsetDims = []) (hcoll : d.collapsedSliceDims = [2]) (hob : d.operandBatchingDims = [0, 1])
    (hsb : d.startIndicesBatchingDims = [0, 1]) (hsim : d.startIndexMap = [2]) (hivd : d.indexVectorDim = 3)
    (x : (⟨3, ![B, S, T]⟩ : Shape).Idx → α) (idx : IVec ⟨4, ![B, S, 1, 1]⟩ w) (b : Fin B) (s : Fin S) :
    Host.gather d x idx (ix3 b s (0 : Fin 1))
      = x (ix3 b s (clampRow T hT (idx (ix4 b s (0 : Fin 1) (0 : Fin 1))))) := by
  -- every axis of the result is a batch axis; the start indices' axes but the last read them in order
  have hbd : d.batchDims = [0, 1, 2] := by
    show Shape.kept _ d.offsetDims = _
    rw [hoff]; rfl
  have hsk : d.siKept = [0, 1, 2] := by
    show (List.finRange 4).filter (fun x => decide (x.val ≠ d.indexVectorDim)) = _
    rw [hivd]; rfl
  -- the start index of result entry (b, s, 0) is read at (b, s, 0, 0)
  have hsi : ∀ (n : Nat) (hn : n < d.startIndexMap.length),
      d.siIdx (ix3 b s (0 : Fin 1)) ⟨n, hn⟩ = ix4 b s (0 : Fin 1) (0 : Fin 1) := by
    intro n hn
    have hn0 : n = 0 := by rw [hsim] at hn; simpa using hn
    funext e
    match e with
    | ⟨0, _⟩ =>
      unfold GatherDims.siIdx
      rw [dif_neg (by rw [hivd]; simp)]
      apply Fin.ext
      exact siCoord_val d _ _ _ 0 (by rw [hbd, hsk]; rfl)
    | ⟨1, _⟩ =>
      unfold GatherDims.siIdx
      rw [dif_neg (by rw [hivd]; simp)]
      apply Fin.ext
      exact siCoord_val d _ _ _ 1 (by rw [hbd, hsk]; rfl)
    | ⟨2, _⟩ =>
      unfold GatherDims.siIdx
      rw [dif_neg (by rw [hivd]; simp)]
      apply Fin.ext
      exact siCoord_val d _ _ _ 2 (by rw [hbd, hsk]; rfl)
    | ⟨3, _⟩ =>
      unfold GatherDims.siIdx
      rw [dif_pos (by rw [hivd])]
      apply Fin.ext
      exact hn0
  -- operand axes 0 and 1 are batching: no start, no offset, the result's coordinate
  have hk : ∀ a : Fin 3, a ∉ d.sKept := by
    intro a h
    have := (d.mem_sKept a).1 h
    rw [hcoll, hob] at this
    match a with
    | ⟨0, _⟩ => exact this.2 List.mem_cons_self
    | ⟨1, _⟩ => exact this.2 (List.mem_cons_of_mem _ (List.mem_singleton.mpr rfl))
    | ⟨2, _⟩ => exact this.1 (List.mem_singleton.mpr rfl)
  have h0 : (d.operandIdx (ix3 b s (0 : Fin 1)) idx (0 : Fin 3)).val = b.val := by
    have ha : (0 : Fin 3) ∈ d.operandBatchingDims := by rw [hob]; exact List.mem_cons_self
    show d.start _ idx 0 + d.batchCoord _ 0 + d.offCoord _ 0 = b.val
    rw [d.start_batching _ idx 0 ha, d.offCoord_eq_zero _ 0 (hk 0),
      batchCoord_val d _ 0 ha 0 (by rw [hob, hsb]; rfl) 0 (by rw [hbd, hsk]; rfl)]
    show 0 + b.val + 0 = b.val
    omega
  have h1 : (d.operandIdx (ix3 b s (0 : Fin 1)) idx (1 : Fin 3)).val = s.val := by
    have ha : (1 : Fin 3) ∈ d.operandBatchingDims := by rw [hob]; exact List.mem_cons_of_mem _ (List.mem_singleton.mpr rfl)
    show d.start _ idx 1 + d.batchCoord _ 1 + d.offCoord _ 1 = s.val
    rw [d.start_batching _ idx 1 ha, d.offCoord_eq_zero _ 1 (hk 1),
      batchCoord_val d _ 1 ha 1 (by rw [hob, hsb]; rfl) 1 (by rw [hbd, hsk]; rfl)]
    show 0 + s.val + 0 = s.val
    omega
  -- operand axis 2 is collapsed and start-indexed: the clamped id
  have h2 : (d.operandIdx (ix3 b s (0 : Fin 1)) idx (2 : Fin 3)).val
      = (clampRow T hT (idx (ix4 b s (0 : Fin 1) (0 : Fin 1)))).val := by
    have hm : (2 : Fin 3) ∈ d.startIndexMap := by rw [hsim]; exact List.mem_singleton.mpr rfl
    have hnb : (2 : Fin 3) ∉ d.operandBatchingDims := by rw [hob]; simp
    have hsl : d.sliceSizes 2 = 1 := d.slice_collapsed 2 (by rw [hcoll]; exact List.mem_singleton.mpr rfl)
    show d.start _ idx 2 + d.batchCoord _ 2 + d.offCoord _ 2 = min (idx (ix4 b s 0 0)).toInt.toNat (T - 1)
    rw [d.batchCoord_eq_zero _ 2 hnb, d.offCoord_eq_zero _ 2 (hk 2)]
    simp only [Nat.add_zero, GatherDims.start, dif_pos hm]
    show min (idx _).toInt.toNat (T - d.sliceSizes 2) = min (idx (ix4 b s 0 0)).toInt.toNat (T - 1)
    rw [hsl, hsi]
  unfold Host.gather
  congr 1
  funext a
  match a with
  | ⟨0, _⟩ => exact Fin.ext h0
  | ⟨1, _⟩ => exact Fin.ext h1
  | ⟨2, _⟩ => exact Fin.ext h2

theorem gather_pairs3 {α : Type} {N R B S w : Nat} (hN : 0 < N) (hR : 0 < R)
    (d : GatherDims ⟨2, ![N, R]⟩ ⟨3, ![B, S, 2]⟩ ⟨2, ![B, S]⟩)
    (hoff : d.offsetDims = []) (hcoll : d.collapsedSliceDims = [0, 1]) (hob : d.operandBatchingDims = [])
    (hsim : d.startIndexMap = [0, 1]) (hivd : d.indexVectorDim = 2)
    (x : (⟨2, ![N, R]⟩ : Shape).Idx → α) (idx : IVec ⟨3, ![B, S, 2]⟩ w) (b : Fin B) (s : Fin S) :
    Host.gather d x idx (ix2 b s)
      = x (ix2 (clampRow N hN (idx (ix3 b s (0 : Fin 2)))) (clampRow R hR (idx (ix3 b s (1 : Fin 2))))) := by
  -- both axes of the result are batch axes; the start indices' first two axes read them in order
  have hbd : d.batchDims = [0, 1] := by
    show Shape.kept _ d.offsetDims = _
    rw [hoff]; rfl
  have hsk : d.siKept = [0, 1] := by
    show (List.finRange 3).filter (fun x => decide (x.val ≠ d.indexVectorDim)) = _
    rw [hivd]; rfl
  have hb : ∀ a : Fin 2, a ∉ d.operandBatchingDims := fun a => by rw [hob]; exact List.not_mem_nil
  -- both operand axes are collapsed, so neither is kept
  have hc : ∀ a : Fin 2, a ∈ d.collapsedSliceDims := fun a => by
    rw [hcoll]
    match a with
    | ⟨0, _⟩ => exact List.mem_cons_self
    | ⟨1, _⟩ => exact List.mem_cons_of_mem _ (List.mem_singleton.mpr rfl)
  have hk : ∀ a : Fin 2, a ∉ d.sKept := fun a h => ((d.mem_sKept a).1 h).1 (hc a)
  have hsl : ∀ a : Fin 2, d.sliceSizes a = 1 := fun a => d.slice_collapsed a (hc a)
  -- component k of the start index of result entry (b, s) is read at (b, s, k)
  have hsi : ∀ (n : Nat) (hn : n < d.startIndexMap.length) (k : Fin 2), n = k.val →
      d.siIdx (ix2 b s) ⟨n, hn⟩ = ix3 b s k := by
    intro n hn k hnk
    funext e
    match e with
    | ⟨0, _⟩ =>
      unfold GatherDims.siIdx
      rw [dif_neg (by rw [hivd]; simp)]
      apply Fin.ext
      exact siCoord_val d _ _ _ 0 (by rw [hbd, hsk]; rfl)
    | ⟨1, _⟩ =>
      unfold GatherDims.siIdx
      rw [dif_neg (by rw [hivd]; simp)]
      apply Fin.ext
      exact siCoord_val d _ _ _ 1 (by rw [hbd, hsk]; rfl)
    | ⟨2, _⟩ =>
      unfold GatherDims.siIdx
      rw [dif_pos (by rw [hivd])]
      apply Fin.ext
      exact hnk
  -- operand axis 0: the clamped row id
  have h0 : (d.operandIdx (ix2 b s) idx (0 : Fin 2)).val = (clampRow N hN (idx (ix3 b s (0 : Fin 2)))).val := by
    have hm : (0 : Fin 2) ∈ d.startIndexMap := by rw [hsim]; exact List.mem_cons_self
    have hi : List.idxOf (0 : Fin 2) d.startIndexMap = (0 : Fin 2).val := by rw [hsim]; simp
    simp only [GatherDims.operandIdx, GatherDims.batchCoord_eq_zero _ _ _ (hb 0), GatherDims.offCoord_eq_zero _ _ _ (hk 0),
      Nat.add_zero, GatherDims.start, dif_pos hm]
    show min (idx _).toInt.toNat (N - d.sliceSizes 0) = min (idx (ix3 b s 0)).toInt.toNat (N - 1)
    rw [hsl 0, hsi _ _ 0 hi]
  -- operand axis 1: the clamped column id
  have h1 : (d.operandIdx (ix2 b s) idx (1 : Fin 2)).val = (clampRow R hR (idx (ix3 b s (1 : Fin 2)))).val := by
    have hm : (1 : Fin 2) ∈ d.startIndexMap := by rw [hsim]; exact List.mem_cons_of_mem _ (List.mem_singleton.mpr rfl)
    have hi : List.idxOf (1 : Fin 2) d.startIndexMap = (1 : Fin 2).val := by rw [hsim]; simp
    simp only [GatherDims.operandIdx, GatherDims.batchCoord_eq_zero _ _ _ (hb 1), GatherDims.offCoord_eq_zero _ _ _ (hk 1),
      Nat.add_zero, GatherDims.start, dif_pos hm]
    show min (idx _).toInt.toNat (R - d.sliceSizes 1) = min (idx (ix3 b s 1)).toInt.toNat (R - 1)
    rw [hsl 1, hsi _ _ 1 hi]
  unfold Host.gather
  congr 1
  funext a
  match a with
  | ⟨0, _⟩ => exact Fin.ext h0
  | ⟨1, _⟩ => exact Fin.ext h1

end IndexOpsLib3
-- ==== Proof.RefValue.lean ====
/-
  The reference's value. With every tag of the gold and predicted sequences in the label range [0, 512), the
  reference program's result is the margin loss `RSpec` of its four arguments.

  Per tag sequence: the negative-index normalisation is the identity, the in-bounds mask is all ones (so its
  and-reduction over the unit axis is one and the select takes the gathered value, never the fill), the clamps of the
  two gathers are the identity; so the unary pick at (b, s) is u[b, s, tag[b, s]], the transition pick at (b, s),
  s < 2047, is bin[tag[b, s], tag[b, s + 1]] (the two slices joined on a new last axis as the id pair), and the score
  is the sum of the 2048 unary picks plus the sum of the 2047 transition picks. The loss is the sum over the batch of
  max (predicted score − gold score) 0.
-/
import proofs.«407784_j37417755083582_3_alg».proof.Proof.RefRead
import proofs.«407784_j37417755083582_3_alg».proof.Proof.RefWords
import proofs.«407784_j37417755083582_3_alg».proof.Proof.LibGather3

noncomputable section

namespace Cert.ReferenceIdeal.RefBridge

open Cert.ReferenceIdeal Cert.ReferenceIdeal.Gen Cert.ReferenceIdeal.ReadP Idealize.ShloMosaic Idealize.ShloMosaic.ValueIdx
  Idealize.ShloMosaic.StableHlo Idealize.ShloMosaic.TcCoe Idealize.SL.Sem Cert.Spec

/-- Tag arrays, unary potentials, transition potentials of the reference, at the ideal values. -/
abbrev Tags := (⟨S64x2048, .i32⟩ : BufTy).Contents (Elt Ideal)
abbrev Unary := (⟨S64x2048x512, .f32⟩ : BufTy).Contents (Elt Ideal)
abbrev Trans := (⟨S512x512, .f32⟩ : BufTy).Contents (Elt Ideal)

/-! ### Gold chain: the unary pick -/

theorem g_norm (x : Tags) (hx : InRange x) (i : S64x2048x1.Idx) :
    val_main_call0_v4 (F := Ideal) x i = x (idx_main_v0 i) := by
  rw [val_main_call0_v4_apply, val_main_call0_v1_apply, val_main_call0_v3_apply, val_main_v0_apply,
    val_main_call0_v0_apply, val_main_call0_c_apply, val_main_call0_v2_apply, val_main_call0_c_0_apply]
  exact normalise_eq (toNat_lt_of_range (hx _))

theorem g_ids (x : Tags) (hx : InRange x) (i : S64x2048x1x1.Idx) :
    val_main_call0_v5 (F := Ideal) x i = x (idx_main_v0 (idx_main_call0_v5 i)) := by
  rw [val_main_call0_v5_apply, g_norm x hx]

theorem g_mask (x : Tags) (hx : InRange x) (i : S64x2048x1x1.Idx) :
    val_main_call0_v11 (F := Ideal) x i = 1#1 := by
  rw [val_main_call0_v11_apply, val_main_call0_v7_apply, val_main_call0_v10_apply, g_ids x hx,
    val_main_call0_v6_apply, val_main_call0_c_2_apply, val_main_call0_v9_apply, val_main_call0_v8_apply,
    val_main_call0_c_1_apply]
  exact inBounds_eq (toNat_lt_of_range (hx _))

theorem g_all (x : Tags) (hx : InRange x) (j : S64x2048x1.Idx) :
    val_main_call0_v12 (F := Ideal) x j = 1#1 := by
  unfold val_main_call0_v12
  exact reduce_andi_ones _ _ _ _ (g_mask x hx) rfl j

theorem g_ids_ix (b : Fin 64) (s : Fin 2048) :
    idx_main_v0 (idx_main_call0_v5 (ix4 b s (0 : Fin 1) (0 : Fin 1))) = ix2 b s := by
  funext a
  apply Fin.ext
  match a with
  | ⟨0, _⟩ => show (((b.val * 2048 + s.val) * 1 + 0) * 1 + 0) / 2048 = b.val; omega
  | ⟨1, _⟩ => show (((b.val * 2048 + s.val) * 1 + 0) * 1 + 0) / 1 % 2048 = s.val; omega

theorem g_gather (x0 : Unary) (x : Tags) (hx : InRange x) (b : Fin 64) (s : Fin 2048) :
    val_main_call0_v13 (F := Ideal) x0 x (ix3 b s (0 : Fin 1)) = x0 (ix3 b s (tagIx (x (ix2 b s)))) := by
  unfold val_main_call0_v13
  refine (IndexOpsLib3.gather_along (by norm_num : 0 < 512) _ rfl rfl rfl rfl rfl rfl x0 _ b s).trans ?_
  rw [g_ids x hx, g_ids_ix, clampRow_eq_tagIx (toNat_lt_of_range (hx _))]

theorem g_un3 (x0 : Unary) (x : Tags) (hx : InRange x) (b : Fin 64) (s : Fin 2048) :
    val_main_v1 (F := Ideal) x0 x (ix3 b s (0 : Fin 1)) = x0 (ix3 b s (tagIx (x (ix2 b s)))) := by
  rw [val_main_v1_apply, g_all x hx, select_one, g_gather x0 x hx]

theorem g_un_ix (b : Fin 64) (s : Fin 2048) : idx_main_v2 (ix2 b s) = ix3 b s (0 : Fin 1) := by
  funext a
  apply Fin.ext
  match a with
  | ⟨0, _⟩ => show (b.val * 2048 + s.val) / 2048 = b.val; omega
  | ⟨1, _⟩ => show (b.val * 2048 + s.val) / 1 % 2048 = s.val; omega
  | ⟨2, _⟩ => rfl

theorem g_un (x0 : Unary) (x : Tags) (hx : InRange x) (b : Fin 64) (s : Fin 2048) :
    val_main_v2 (F := Ideal) x0 x (ix2 b s) = x0 (ix3 b s (tagIx (x (ix2 b s)))) := by
  rw [val_main_v2_apply, g_un_ix, g_un3 x0 x hx]

theorem g_usum_ix (b : Fin 64) (k : Fin 2048) : idx_main_v19 (ix1 b) k = ix2 b k := by
  funext a
  match a with
  | ⟨0, _⟩ => rfl
  | ⟨1, _⟩ => rfl

theorem g_usum (x0 : Unary) (x : Tags) (hx : InRange x) (b : Fin 64) :
    val_main_v19 (F := Ideal) x0 x (ix1 b) = ∑ s : Fin 2048, x0 (ix3 b s (tagIx (x (ix2 b s)))) := by
  rw [val_main_v19_apply, val_main_cst_apply, Ideal.ofBits_def, Ideal.ofBits_zero_f32, zero_add]
  refine Finset.sum_congr rfl fun k _ => ?_
  rw [g_usum_ix, g_un x0 x hx]

/-! ### Gold chain: the transition pick -/

theorem g_prev (x : Tags) (hx : InRange x) (i : S64x2047.Idx) :
    val_main_v9 (F := Ideal) x i = x (idx_main_v3 i) := by
  rw [val_main_v9_apply, val_main_v6_apply, val_main_v8_apply, val_main_v3_apply, val_main_v5_apply,
    val_main_c_apply, val_main_v7_apply, val_main_c_0_apply]
  exact normalise_eq (toNat_lt_of_range (hx _))

theorem g_next (x : Tags) (hx : InRange x) (i : S64x2047.Idx) :
    val_main_v14 (F := Ideal) x i = x (idx_main_v4 i) := by
  rw [val_main_v14_apply, val_main_v11_apply, val_main_v13_apply, val_main_v4_apply, val_main_v10_apply,
    val_main_c_1_apply, val_main_v12_apply, val_main_c_2_apply]
  exact normalise_eq (toNat_lt_of_range (hx _))

theorem g_prev_ix (b : Fin 64) (s : Fin 2047) :
    idx_main_v3 (idx_main_v15 (ix3 b s (0 : Fin 1))) = ix2 b s.castSucc := by
  funext a
  apply Fin.ext
  match a with
  | ⟨0, _⟩ => rfl
  | ⟨1, _⟩ => rfl

theorem g_next_ix (b : Fin 64) (s : Fin 2047) :
    idx_main_v4 (idx_main_v16 (ix3 b s (0 : Fin 1))) = ix2 b s.succ := by
  funext a
  apply Fin.ext
  match a with
  | ⟨0, _⟩ => rfl
  | ⟨1, _⟩ => show 1 + s.val = s.val + 1; omega

theorem g_pair0 (x : Tags) (hx : InRange x) (b : Fin 64) (s : Fin 2047) :
    val_main_v17 (F := Ideal) x (ix3 b s (0 : Fin 2)) = x (ix2 b s.castSucc) := by
  unfold val_main_v17
  refine (concatenate_pair_apply_left _ _ _ concatenates_S64x2047x1_S64x2047x1_S64x2047x2_d2
    (ix3 b s (0 : Fin 2)) rfl (ix3 b s (0 : Fin 1)) ?_).trans ?_
  · intro a
    match a with
    | ⟨0, _⟩ => rfl
    | ⟨1, _⟩ => rfl
    | ⟨2, _⟩ => rfl
  · rw [val_main_v15_apply, g_prev x hx, g_prev_ix]

theorem g_pair1 (x : Tags) (hx : InRange x) (b : Fin 64) (s : Fin 2047) :
    val_main_v17 (F := Ideal) x (ix3 b s (1 : Fin 2)) = x (ix2 b s.succ) := by
  unfold val_main_v17
  refine (concatenate_pair_apply_right _ _ _ concatenates_S64x2047x1_S64x2047x1_S64x2047x2_d2
    (ix3 b s (1 : Fin 2)) rfl rfl (ix3 b s (0 : Fin 1)) ?_ ?_).trans ?_
  · intro a ha
    match a with
    | ⟨0, _⟩ => rfl
    | ⟨1, _⟩ => rfl
    | ⟨2, _⟩ => exact absurd rfl ha
  · rfl
  · rw [val_main_v16_apply, g_next x hx, g_next_ix]

theorem g_tr (x1 : Trans) (x : Tags) (hx : InRange x) (b : Fin 64) (s : Fin 2047) :
    val_main_v18 (F := Ideal) x1 x (ix2 b s)
      = x1 (ix2 (tagIx (x (ix2 b s.castSucc))) (tagIx (x (ix2 b s.succ)))) := by
  unfold val_main_v18
  refine (IndexOpsLib3.gather_pairs3 (by norm_num : 0 < 512) (by norm_num : 0 < 512) _ rfl rfl rfl rfl rfl x1 _ b s).trans ?_
  rw [g_pair0 x hx, g_pair1 x hx, clampRow_eq_tagIx (toNat_lt_of_range (hx _)),
    clampRow_eq_tagIx (toNat_lt_of_range (hx _))]

theorem g_tsum_ix (b : Fin 64) (k : Fin 2047) : idx_main_v20 (ix1 b) k = ix2 b k := by
  funext a
  match a with
  | ⟨0, _⟩ => rfl
  | ⟨1, _⟩ => rfl

theorem g_tsum (x1 : Trans) (x : Tags) (hx : InRange x) (b : Fin 64) :
    val_main_v20 (F := Ideal) x1 x (ix1 b)
      = ∑ s : Fin 2047, x1 (ix2 (tagIx (x (ix2 b s.castSucc))) (tagIx (x (ix2 b s.succ)))) := by
  rw [val_main_v20_apply, val_main_cst_3_apply, Ideal.ofBits_def, Ideal.ofBits_zero_f32, zero_add]
  refine Finset.sum_congr rfl fun k _ => ?_
  rw [g_tsum_ix, g_tr x1 x hx]

theorem g_score (x0 : Unary) (x1 : Trans) (x : Tags) (hx : InRange x) (b : Fin 64) :
    val_main_v21 (F := Ideal) x0 x1 x (ix1 b) = RScore x0 x1 x b := by
  rw [val_main_v21_apply, g_usum x0 x hx, g_tsum x1 x hx, Ideal.addf_def]
  rfl

/-! ### Predicted chain: the unary pick -/

theorem p_norm (x : Tags) (hx : InRange x) (i : S64x2048x1.Idx) :
    val_main_call1_v4 (F := Ideal) x i = x (idx_main_v22 i) := by
  rw [val_main_call1_v4_apply, val_main_call1_v1_apply, val_main_call1_v3_apply, val_main_v22_apply,
    val_main_call1_v0_apply, val_main_call1_c_apply, val_main_call1_v2_apply, val_main_call1_c_0_apply]
  exact normalise_eq (toNat_lt_of_range (hx _))

theorem p_ids (x : Tags) (hx : InRange x) (i : S64x2048x1x1.Idx) :
    val_main_call1_v5 (F := Ideal) x i = x (idx_main_v22 (idx_main_call1_v5 i)) := by
  rw [val_main_call1_v5_apply, p_norm x hx]

theorem p_mask (x : Tags) (hx : InRange x) (i : S64x2048x1x1.Idx) :
    val_main_call1_v11 (F := Ideal) x i = 1#1 := by
  rw [val_main_call1_v11_apply, val_main_call1_v7_apply, val_main_call1_v10_apply, p_ids x hx,
    val_main_call1_v6_apply, val_main_call1_c_2_apply, val_main_call1_v9_apply, val_main_call1_v8_apply,
    val_main_call1_c_1_apply]
  exact inBounds_eq (toNat_lt_of_range (hx _))

theorem p_all (x : Tags) (hx : InRange x) (j : S64x2048x1.Idx) :
    val_main_call1_v12 (F := Ideal) x j = 1#1 := by
  unfold val_main_call1_v12
  exact reduce_andi_ones _ _ _ _ (p_mask x hx) rfl j

theorem p_ids_ix (b : Fin 64) (s : Fin 2048) :
    idx_main_v22 (idx_main_call1_v5 (ix4 b s (0 : Fin 1) (0 : Fin 1))) = ix2 b s := by
  funext a
  apply Fin.ext
  match a with
  | ⟨0, _⟩ => show (((b.val * 2048 + s.val) * 1 + 0) * 1 + 0) / 2048 = b.val; omega
  | ⟨1, _⟩ => show (((b.val * 2048 + s.val) * 1 + 0) * 1 + 0) / 1 % 2048 = s.val; omega

theorem p_gather (x0 : Unary) (x : Tags) (hx : InRange x) (b : Fin 64) (s : Fin 2048) :
    val_main_call1_v13 (F := Ideal) x0 x (ix3 b s (0 : Fin 1)) = x0 (ix3 b s (tagIx (x (ix2 b s)))) := by
  unfold val_main_call1_v13
  refine (IndexOpsLib3.gather_along (by norm_num : 0 < 512) _ rfl rfl rfl rfl rfl rfl x0 _ b s).trans ?_
  rw [p_ids x hx, p_ids_ix, clampRow_eq_tagIx (toNat_lt_of_range (hx _))]

theorem p_un3 (x0 : Unary) (x : Tags) (hx : InRange x) (b : Fin 64) (s : Fin 2048) :
    val_main_v23 (F := Ideal) x0 x (ix3 b s (0 : Fin 1)) = x0 (ix3 b s (tagIx (x (ix2 b s)))) := by
  rw [val_main_v23_apply, p_all x hx, select_one, p_gather x0 x hx]

theorem p_un_ix (b : Fin 64) (s : Fin 2048) : idx_main_v24 (ix2 b s) = ix3 b s (0 : Fin 1) := by
  funext a
  apply Fin.ext
  match a with
  | ⟨0, _⟩ => show (b.val * 2048 + s.val) / 2048 = b.val; omega
  | ⟨1, _⟩ => show (b.val * 2048 + s.val) / 1 % 2048 = s.val; omega
  | ⟨2, _⟩ => rfl

theorem p_un (x0 : Unary) (x : Tags) (hx : InRange x) (b : Fin 64) (s : Fin 2048) :
    val_main_v24 (F := Ideal) x0 x (ix2 b s) = x0 (ix3 b s (tagIx (x (ix2 b s)))) := by
  rw [val_main_v24_apply, p_un_ix, p_un3 x0 x hx]

theorem p_usum_ix (b : Fin 64) (k : Fin 2048) : idx_main_v41 (ix1 b) k = ix2 b k := by
  funext a
  match a with
  | ⟨0, _⟩ => rfl
  | ⟨1, _⟩ => rfl

theorem p_usum (x0 : Unary) (x : Tags) (hx : InRange x) (b : Fin 64) :
    val_main_v41 (F := Ideal) x0 x (ix1 b) = ∑ s : Fin 2048, x0 (ix3 b s (tagIx (x (ix2 b s)))) := by
  rw [val_main_v41_apply, val_main_cst_8_apply, Ideal.ofBits_def, Ideal.ofBits_zero_f32, zero_add]
  refine Finset.sum_congr rfl fun k _ => ?_
  rw [p_usum_ix, p_un x0 x hx]

/-! ### Predicted chain: the transition pick -/

theorem p_prev (x : Tags) (hx : InRange x) (i : S64x2047.Idx) :
    val_main_v31 (F := Ideal) x i = x (idx_main_v25 i) := by
  rw [val_main_v31_apply, val_main_v28_apply, val_main_v30_apply, val_main_v25_apply, val_main_v27_apply,
    val_main_c_4_apply, val_main_v29_apply, val_main_c_5_apply]
  exact normalise_eq (toNat_lt_of_range (hx _))

theorem p_next (x : Tags) (hx : InRange x) (i : S64x2047.Idx) :
    val_main_v36 (F := Ideal) x i = x (idx_main_v26 i) := by
  rw [val_main_v36_apply, val_main_v33_apply, val_main_v35_apply, val_main_v26_apply, val_main_v32_apply,
    val_main_c_6_apply, val_main_v34_apply, val_main_c_7_apply]
  exact normalise_eq (toNat_lt_of_range (hx _))

theorem p_prev_ix (b : Fin 64) (s : Fin 2047) :
    idx_main_v25 (idx_main_v37 (ix3 b s (0 : Fin 1))) = ix2 b s.castSucc := by
  funext a
  apply Fin.ext
  match a with
  | ⟨0, _⟩ => rfl
  | ⟨1, _⟩ => rfl

theorem p_next_ix (b : Fin 64) (s : Fin 2047) :
    idx_main_v26 (idx_main_v38 (ix3 b s (0 : Fin 1))) = ix2 b s.succ := by
  funext a
  apply Fin.ext
  match a with
  | ⟨0, _⟩ => rfl
  | ⟨1, _⟩ => show 1 + s.val = s.val + 1; omega

theorem p_pair0 (x : Tags) (hx : InRange x) (b : Fin 64) (s : Fin 2047) :
    val_main_v39 (F := Ideal) x (ix3 b s (0 : Fin 2)) = x (ix2 b s.castSucc) := by
  unfold val_main_v39
  refine (concatenate_pair_apply_left _ _ _ concatenates_S64x2047x1_S64x2047x1_S64x2047x2_d2
    (ix3 b s (0 : Fin 2)) rfl (ix3 b s (0 : Fin 1)) ?_).trans ?_
  · intro a
    match a with
    | ⟨0, _⟩ => rfl
    | ⟨1, _⟩ => rfl
    | ⟨2, _⟩ => rfl
  · rw [val_main_v37_apply, p_prev x hx, p_prev_ix]

theorem p_pair1 (x : Tags) (hx : InRange x) (b : Fin 64) (s : Fin 2047) :
    val_main_v39 (F := Ideal) x (ix3 b s (1 : Fin 2)) = x (ix2 b s.succ) := by
  unfold val_main_v39
  refine (concatenate_pair_apply_right _ _ _ concatenates_S64x2047x1_S64x2047x1_S64x2047x2_d2
    (ix3 b s (1 : Fin 2)) rfl rfl (ix3 b s (0 : Fin 1)) ?_ ?_).trans ?_
  · intro a ha
    match a with
    | ⟨0, _⟩ => rfl
    | ⟨1, _⟩ => rfl
    | ⟨2, _⟩ => exact absurd rfl ha
  · rfl
  · rw [val_main_v38_apply, p_next x hx, p_next_ix]

theorem p_tr (x1 : Trans) (x : Tags) (hx : InRange x) (b : Fin 64) (s : Fin 2047) :
    val_main_v40 (F := Ideal) x1 x (ix2 b s)
      = x1 (ix2 (tagIx (x (ix2 b s.castSucc))) (tagIx (x (ix2 b s.succ)))) := by
  unfold val_main_v40
  refine (IndexOpsLib3.gather_pairs3 (by norm_num : 0 < 512) (by norm_num : 0 < 512) _ rfl rfl rfl rfl rfl x1 _ b s).trans ?_
  rw [p_pair0 x hx, p_pair1 x hx, clampRow_eq_tagIx (toNat_lt_of_range (hx _)),
    clampRow_eq_tagIx (toNat_lt_of_range (hx _))]

theorem p_tsum_ix (b : Fin 64) (k : Fin 2047) : idx_main_v42 (ix1 b) k = ix2 b k := by
  funext a
  match a with
  | ⟨0, _⟩ => rfl
  | ⟨1, _⟩ => rfl

theorem p_tsum (x1 : Trans) (x : Tags) (hx : InRange x) (b : Fin 64) :
    val_main_v42 (F := Ideal) x1 x (ix1 b)
      = ∑ s : Fin 2047, x1 (ix2 (tagIx (x (ix2 b s.castSucc))) (tagIx (x (ix2 b s.succ)))) := by
  rw [val_main_v42_apply, val_main_cst_9_apply, Ideal.ofBits_def, Ideal.ofBits_zero_f32, zero_add]
  refine Finset.sum_congr rfl fun k _ => ?_
  rw [p_tsum_ix, p_tr x1 x hx]

theorem p_score (x0 : Unary) (x1 : Trans) (x : Tags) (hx : InRange x) (b : Fin 64) :
    val_main_v43 (F := Ideal) x0 x1 x (ix1 b) = RScore x0 x1 x b := by
  rw [val_main_v43_apply, p_usum x0 x hx, p_tsum x1 x hx, Ideal.addf_def]
  rfl

/-! ### The loss -/

/-- A rank-1 index is its one coordinate. -/
def idx1Equiv (n : Nat) : Fin n ≃ (⟨1, ![n]⟩ : Shape).Idx where
  toFun b := ix1 b
  invFun j := j 0
  left_inv _ := rfl
  right_inv j := (eq_ix1 j).symm

theorem ref_value (x0 : Unary) (x1 : Trans) (x2 x3 : Tags) (h2 : InRange x2) (h3 : InRange x3) (i : S_.Idx) :
    val_main_v47 (F := Ideal) x0 x1 x2 x3 i = RSpec x0 x1 x2 x3 := by
  rw [val_main_v47_apply, val_main_cst_11_apply, Ideal.ofBits_def, Ideal.ofBits_zero_f32, zero_add]
  unfold RSpec
  rw [← Equiv.sum_comp (idx1Equiv 64)]
  refine Finset.sum_congr rfl fun b _ => ?_
  show val_main_v46 (F := Ideal) x0 x1 x2 x3 (ix1 b) = _
  rw [val_main_v46_apply, val_main_v44_apply, val_main_v45_apply, val_main_cst_10_apply, p_score x0 x1 x3 h3,
    g_score x0 x1 x2 h2, Ideal.maximumf_def, Ideal.subf_def, Ideal.ofBits_def, Ideal.ofBits_zero_f32]

/-- The run's composed term is the margin loss of the four arguments. -/
theorem res_eq (m : (ℓ : Loc nD τ sig) → Buf (Elt Ideal) ℓ) (c : Dev nD)
    (hT : InRange (m ((c.tc : Thread nD τ).loc main_arg2))) (hP : InRange (m ((c.tc : Thread nD τ).loc main_arg3))) :
    Cert.ReferenceIdeal.ValueP.res_main_v47 (F := Ideal) m c
      = fun _ => RSpec (m ((c.tc : Thread nD τ).loc main_arg0)) (m ((c.tc : Thread nD τ).loc main_arg1))
          (m ((c.tc : Thread nD τ).loc main_arg2)) (m ((c.tc : Thread nD τ).loc main_arg3)) := by
  rw [val_main_v47_eq]
  funext i
  exact ref_value _ _ _ _ hT hP i

/-- Every weakly fair execution of the reference from a memory whose tags are in range ends with the margin loss in
    its result and its arguments unchanged. -/
theorem run_spec (m : (ℓ : Loc nD τ sig) → Buf (Elt Ideal) ℓ) (ρ : Dev nD → PrngReg)
    (hT : ∀ c : Dev nD, InRange (m ((c.tc : Thread nD τ).loc main_arg2)))
    (hP : ∀ c : Dev nD, InRange (m ((c.tc : Thread nD τ).loc main_arg3))) :
    θ_run defs (onTc (τ := τ) (main (F := Ideal))) ⟨m, fun _ => 0, ρ⟩ fun r => ∀ c : Dev nD,
      r.2.mem ((c.tc : Thread nD τ).loc main_v47)
          = (fun _ => RSpec (m ((c.tc : Thread nD τ).loc main_arg0)) (m ((c.tc : Thread nD τ).loc main_arg1))
              (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (res_eq m c (hT c) (hP c)), (h c).2⟩)
    (Cert.ReferenceIdeal.ValueP.run (F := Ideal) m ρ)

end Cert.ReferenceIdeal.RefBridge

end
-- ==== Proof.PreDecode.lean ====
/-
  The printed precondition read back. The precondition is a conjunction of four "all elements" tests, each a reduction by
  "and" of a rank-full array of one-bit words from the constant 1: |arg0| < +inf, |arg1| < +inf, 0 ≤ arg2 < 512 and
  0 ≤ arg3 < 512 (signed). When the whole evaluates to 1, every element of each array is 1; at the extended reals
  |x| < ⊤ says x is neither ⊤ nor ⊥, so x is a real, and the two signed comparisons bound the integer the word denotes.
-/
import proofs.«407784_j37417755083582_3_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreDecode

open Idealize.ShloMosaic Cert.Pre_finite_inputs

/-- A rank-0 shape has one index. -/
instance : Subsingleton S_.Idx := ⟨fun a b => funext fun d => d.elim0⟩

/-- The f32 pattern 0x7F800000 denotes +∞. -/
theorem inf_eq : Ideal.ofBits .f32 0x7F800000#32 = (⊤ : EReal) := by simp [Ideal.ofBits, Ideal.ieee]

theorem ofBool_one (b : Bool) : BitVec.ofBool b = 1#1 ↔ b = true := by cases b <;> decide

/-- |x| < +∞ at the extended reals: x is a real. -/
theorem real_of_abs_lt (x : EReal)
    (h : Ideal.cmp .olt (max x (-x)) (Ideal.ofBits .f32 0x7F800000#32) = 1#1) : ∃ r : ℝ, x = (r : EReal) := by
  rw [inf_eq] at h
  simp only [Ideal.cmp, ofBool_one, decide_eq_true_eq, max_lt_iff] at h
  obtain ⟨h1, h2⟩ := h
  induction x using EReal.rec with
  | bot => simp at h2
  | coe r => exact ⟨r, rfl⟩
  | top => simp at h1

/-- 0 ≤ w and w < 512, signed, as comparisons of the integers. -/
theorem range_of_cmp (w : BitVec 32) (h0 : IntOp.cmpi .sge w 0#32 = 1#1) (h1 : IntOp.cmpi .slt w 512#32 = 1#1) :
    0 ≤ w.toInt ∧ w.toInt < 512 := by
  rw [IntOp.cmpi_sge] at h0
  rw [IntOp.cmpi_slt] at h1
  have e0 : (0#32 : BitVec 32).toInt = 0 := by decide
  have e1 : (512#32 : BitVec 32).toInt = 512 := by decide
  rw [e0] at h0
  rw [e1] at h1
  exact ⟨h0, h1⟩

theorem decode [Cert.Pre_finite_inputs.Facts] (a0 : FVec Ideal S64x2048x512 .f32) (a1 : FVec Ideal S512x512 .f32)
    (a2 a3 a4 : IVec S64x2048 32)
    (h : Cert.Pre_finite_inputs.fn (F := Ideal) a0 a1 a2 a3 a4 = fun _ => 1#1) :
    (∀ i, ∃ r : ℝ, a0 i = (r : EReal)) ∧ (∀ i, ∃ r : ℝ, a1 i = (r : EReal))
      ∧ (∀ i, 0 ≤ (a2 i).toInt ∧ (a2 i).toInt < 512) ∧ (∀ i, 0 ≤ (a3 i).toInt ∧ (a3 i).toInt < 512) := by
  have e := congrFun h ValueIdx.ix0
  dsimp only [fn, fn_part1] at e
  simp only [andi] at e
  simp only [IntOp.andi_eq_one] at e
  obtain ⟨⟨⟨e0, e1⟩, e2⟩, e3⟩ := e
  refine ⟨fun i => ?_, fun i => ?_, fun i => ?_, fun i => ?_⟩
  · exact real_of_abs_lt (a0 i) (Host.reduce_andi_all _ _ _ _ _ e0 i)
  · exact real_of_abs_lt (a1 i) (Host.reduce_andi_all _ _ _ _ _ e1 i)
  · have q := Host.reduce_andi_all _ _ _ _ _ e2 i
    exact range_of_cmp (a2 i) (IntOp.andi_eq_one.1 q).1 (IntOp.andi_eq_one.1 q).2
  · have q := Host.reduce_andi_all _ _ _ _ _ e3 i
    exact range_of_cmp (a3 i) (IntOp.andi_eq_one.1 q).1 (IntOp.andi_eq_one.1 q).2

end Cert.PreDecode

end
-- ==== Proof.lean ====
/-
  The claims of the certificate assembled.

  The three frames: the two kernel programs' by their generated frame certificates, the reference's by its run with
  the result dropped. The kernel's idealization rewrote nothing, so `preserves` is trivial. The algebraic claim:
  under the precondition every potential is a real and every tag lies in the label range [0, 512); the kernel program
  ends with its result word at the loss `KSpec` of its launch contents, the reference with its result word at the
  loss `RSpec` of its own, the two memories agree on the arguments, and over real potentials and tags in range the two
  losses are one number (`kspec_eq_rspec`).
-/
import proofs.«407784_j37417755083582_3_alg».proof.Defs
import proofs.«407784_j37417755083582_3_alg».proof.Proof.Gen.Kernel
import proofs.«407784_j37417755083582_3_alg».proof.Proof.Gen.Kernel.Frame
import proofs.«407784_j37417755083582_3_alg».proof.Proof.Gen.KernelIdeal
import proofs.«407784_j37417755083582_3_alg».proof.Proof.Gen.KernelIdeal.Frame
import proofs.«407784_j37417755083582_3_alg».proof.Proof.Gen.ReferenceIdeal
import proofs.«407784_j37417755083582_3_alg».proof.Proof.Gen.Pre_finite_inputs
import proofs.«407784_j37417755083582_3_alg».proof.Proof.KernelBridge
import proofs.«407784_j37417755083582_3_alg».proof.Proof.Region0
import proofs.«407784_j37417755083582_3_alg».proof.Proof.Region1
import proofs.«407784_j37417755083582_3_alg».proof.Proof.RefValue
import proofs.«407784_j37417755083582_3_alg».proof.Proof.PreDecode
import proofs.«407784_j37417755083582_3_alg».proof.Proof.Algebra
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

open Cert.Spec Cert.KernelIdeal.Glue in
theorem algebraic : Cert.algebraic_KernelIdeal_ReferenceIdeal := by
  intro m ρ m' ρ' hpre hagree
  -- the precondition, read: real potentials, tags in the label range
  have hdec := fun c => Cert.PreDecode.decode _ _ _ _ _ (hpre c)
  have hT : ∀ c : Dev Cert.KernelIdeal.nD, InRange (m ((c : Thread Cert.KernelIdeal.nD Cert.KernelIdeal.τ).loc Cert.KernelIdeal.main_arg2)) :=
    fun c => (hdec c).2.2.1
  have hP : ∀ c : Dev Cert.KernelIdeal.nD, InRange (m ((c : Thread Cert.KernelIdeal.nD Cert.KernelIdeal.τ).loc Cert.KernelIdeal.main_arg3)) :=
    fun c => (hdec c).2.2.2
  have hT' : ∀ c : Dev Cert.ReferenceIdeal.nD, InRange (m' ((c.tc : Thread Cert.ReferenceIdeal.nD Cert.ReferenceIdeal.τ).loc Cert.ReferenceIdeal.main_arg2)) :=
    fun c => by rw [(hagree c).2.2.1]; exact hT c
  have hP' : ∀ c : Dev Cert.ReferenceIdeal.nD, InRange (m' ((c.tc : Thread Cert.ReferenceIdeal.nD Cert.ReferenceIdeal.τ).loc Cert.ReferenceIdeal.main_arg3)) :=
    fun c => by rw [(hagree c).2.2.2.1]; exact hP c
  refine ⟨_, Cert.KernelIdeal.Bridge.run_spec m ρ (fun V c => Cert.KernelIdeal.Region0.arr V c) (fun V c => Cert.KernelIdeal.Region1.arr V c) hT hP, ?_⟩
  refine (θ_run Cert.ReferenceIdeal.defs _ _).mono (fun _ h c => ⟨(h c).1.trans ?_, (h c).2⟩)
    (Cert.ReferenceIdeal.RefBridge.run_spec m' ρ' hT' hP')
  rw [(hagree c).1, (hagree c).2.1, (hagree c).2.2.1, (hagree c).2.2.2.1]
  funext _
  exact (kspec_eq_rspec _ _ _ _ _ _ _ _ (hdec c).1 (hdec c).2.1 (hT c) (hP c) (isPrev_prevTags _) (isNext_nextTags _)
    (isPrev_prevTags _) (isNext_nextTags _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
